-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S4096 : Shape := ⟨1, ![4096]⟩
abbrev S128x256 : Shape := ⟨2, ![128, 256]⟩
abbrev S1x256 : Shape := ⟨2, ![1, 256]⟩
abbrev S256x64 : Shape := ⟨2, ![256, 64]⟩
abbrev S1x64 : Shape := ⟨2, ![1, 64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S256x64 : S_.BroadcastsInDim S256x64 (![] : Fin 0 → Fin S256x64.rank)
  reducesTo_S256x64_S_d0_1 : S256x64.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S256x64 .f32) (main_arg8 : FVec F S1x64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  main_v43

def fn_part1 {F : FTy → Type} [FloatOps F] (main_arg4 : FVec F S128x256 .f32) (main_arg5 : FVec F S1x256 .f32) (main_arg6 : FVec F S256x64 .f32) (main_arg7 : FVec F S256x64 .f32) (main_arg8 : FVec F S1x64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_v33

def fn {F : FTy → Type} [FloatOps F] (main_arg0 : FVec F S4096x128 .f32) (main_arg1 : FVec F S4096x4096 .f32) (main_arg2 : FVec F S4096 .f32) (main_arg3 : FVec F S128x256 .f32) (main_arg4 : FVec F S128x256 .f32) (main_arg5 : FVec F S1x256 .f32) (main_arg6 : FVec F S256x64 .f32) (main_arg7 : FVec F S256x64 .f32) (main_arg8 : FVec F S1x64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_v13 main_v16
-- ==== Kernel.lean ====
abbrev S4096x128 : Shape := ⟨2, ![4096, 128]⟩
abbrev S4096x4096 : Shape := ⟨2, ![4096, 4096]⟩
abbrev S4096 : Shape := ⟨1, ![4096]⟩
abbrev S128x256 : Shape := ⟨2, ![128, 256]⟩
abbrev S1x256 : Shape := ⟨2, ![1, 256]⟩
abbrev S256x64 : Shape := ⟨2, ![256, 64]⟩
abbrev S1x64 : Shape := ⟨2, ![1, 64]⟩
abbrev S4096x1 : Shape := ⟨2, ![4096, 1]⟩
abbrev S_ : Shape := ⟨0, ![]⟩
abbrev S256x128 : Shape := ⟨2, ![256, 128]⟩
abbrev S1x128 : Shape := ⟨2, ![1, 128]⟩
abbrev S512x4096 : Shape := ⟨2, ![512, 4096]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S4096x64 : Shape := ⟨2, ![4096, 64]⟩

abbrev nBuf : Space → Nat
  | .hbm => 24
  | .vmem => 26
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096, .f32⟩
  | .hbm, ⟨3, _⟩ => ⟨S128x256, .f32⟩
  | .hbm, ⟨4, _⟩ => ⟨S128x256, .f32⟩
  | .hbm, ⟨5, _⟩ => ⟨S1x256, .f32⟩
  | .hbm, ⟨6, _⟩ => ⟨S256x64, .f32⟩
  | .hbm, ⟨7, _⟩ => ⟨S256x64, .f32⟩
  | .hbm, ⟨8, _⟩ => ⟨S1x64, .f32⟩
  | .hbm, ⟨9, _⟩ => ⟨S4096x128, .bf16⟩
  | .hbm, ⟨10, _⟩ => ⟨S4096x1, .f32⟩
  | .hbm, ⟨11, _⟩ => ⟨S_, .i32⟩
  | .hbm, ⟨12, _⟩ => ⟨S_, .f32⟩
  | .hbm, ⟨13, _⟩ => ⟨S256x128, .f32⟩
  | .hbm, ⟨14, _⟩ => ⟨S_, .i32⟩
  | .hbm, ⟨15, _⟩ => ⟨S_, .f32⟩
  | .hbm, ⟨16, _⟩ => ⟨S256x128, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S4096x128, .bf16⟩
  | .hbm, ⟨21, _⟩ => ⟨S4096x128, .f32⟩
  | .hbm, ⟨22, _⟩ => ⟨S4096x128, .f32⟩
  | .hbm, ⟨23, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | .local _ .vmem, ⟨5, _⟩ => ⟨S512x1, .f32⟩
  | .local _ .vmem, ⟨6, _⟩ => ⟨S512x1, .f32⟩
  | .local _ .vmem, ⟨7, _⟩ => ⟨S128x256, .f32⟩
  | .local _ .vmem, ⟨8, _⟩ => ⟨S128x256, .f32⟩
  | .local _ .vmem, ⟨9, _⟩ => ⟨S1x256, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S512x128, .bf16⟩
  | .local _ .vmem, ⟨14, _⟩ => ⟨S512x128, .bf16⟩
  | .local _ .vmem, ⟨15, _⟩ => ⟨S512x128, .f32⟩
  | .local _ .vmem, ⟨16, _⟩ => ⟨S512x128, .f32⟩
  | .local _ .vmem, ⟨17, _⟩ => ⟨S512x4096, .f32⟩
  | .local _ .vmem, ⟨18, _⟩ => ⟨S512x4096, .f32⟩
  | .local _ .vmem, ⟨19, _⟩ => ⟨S4096x128, .bf16⟩
  | .local _ .vmem, ⟨20, _⟩ => ⟨S512x1, .f32⟩
  | .local _ .vmem, ⟨21, _⟩ => ⟨S512x1, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  shapeCasts_S4096_S4096x1 : S4096.ShapeCasts S4096x1
  pads_S256x64_S256x128_000_0640 : S256x64.Pads (![0, 0] : Fin 2 → Nat) ![0, 64] ![0, 0] S256x128
  h_S_ : 0 < S_.numel
  pads_S1x64_S1x128_000_0640 : S1x64.Pads (![0, 0] : Fin 2 → Nat) ![0, 64] ![0, 0] S1x128
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x256_S128x256_0_0 : ∀ a, (![0, 0] : Fin 2 → Nat) a + S128x256.size a ≤ S128x256.size a
  h_S128x256 : 0 < S128x256.numel
  inb_S512x128_S512x128_0_0 : ∀ a, (![0, 0] : Fin 2 → Nat) a + S512x128.size a ≤ S512x128.size a
  h_S512x128 : 0 < S512x128.numel
  inb_S1x256_S1x256_0_0 : ∀ a, (![0, 0] : Fin 2 → Nat) a + S1x256.size a ≤ S1x256.size a
  h_S1x256 : 0 < S1x256.numel
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S512x128_S512x128_0_0 : (Rect.unit (s := S512x128) ![0, 0] S512x128.size inb_S512x128_S512x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  shapeCasts_S512x128_S512x128 : S512x128.ShapeCasts S512x128
  reduces_S512x128_S512 : S512x128.Reduces [1] S512
  iota_S512x128_d1_w32 : S512x128.Iotas .tc 32 [1]
  slices_S4096x128_S4096x64_0_0 : S4096x128.Slices ![0, 0] S4096x64
  dot_S512x4096_S4096x128_S512x128_1_0_0_1_n_n_wf : DotDims.WF S512x4096 S4096x128 S512x128 [1] [0] [0] [1] [] []
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S4096x128.size a
  hwx0_10 : ∀ i : grid0.Coords, EltTy.bits .bf16 = 32 ∨ (Rect.block (s := S4096x128) S512x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S4096x128.size a
  hwx0_11 : ∀ i : grid0.Coords, EltTy.bits .f32 = 32 ∨ (Rect.block (s := S4096x128) S512x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .bf16 = 32 ∨ (Rect.block (s := S4096x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S512x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S4096 : Shape := ⟨1, ![4096]⟩
abbrev S128x256 : Shape := ⟨2, ![128, 256]⟩
abbrev S1x256 : Shape := ⟨2, ![1, 256]⟩
abbrev S256x64 : Shape := ⟨2, ![256, 64]⟩
abbrev S1x64 : Shape := ⟨2, ![1, 64]⟩
abbrev S0 : Shape := ⟨1, ![0]⟩
abbrev S_ : Shape := ⟨0, ![]⟩
abbrev S4096x1 : Shape := ⟨2, ![4096, 1]⟩
abbrev S256x128 : Shape := ⟨2, ![256, 128]⟩
abbrev S1 : Shape := ⟨1, ![1]⟩
abbrev S1x128 : Shape := ⟨2, ![1, 128]⟩
abbrev S512x512 : Shape := ⟨2, ![512, 512]⟩
abbrev S512x1 : Shape := ⟨2, ![512, 1]⟩
abbrev S512x128 : Shape := ⟨2, ![512, 128]⟩
abbrev S512x256 : Shape := ⟨2, ![512, 256]⟩
abbrev S512 : Shape := ⟨1, ![512]⟩
abbrev S4096x64 : Shape := ⟨2, ![4096, 64]⟩

abbrev nBuf : Space → Nat
  | .hbm => 54
  | .vmem => 26
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096, .f32⟩
  | .hbm, ⟨3, _⟩ => ⟨S128x256, .f32⟩
  | .hbm, ⟨4, _⟩ => ⟨S128x256, .f32⟩
  | .hbm, ⟨5, _⟩ => ⟨S1x256, .f32⟩
  | .hbm, ⟨6, _⟩ => ⟨S256x64, .f32⟩
  | .hbm, ⟨7, _⟩ => ⟨S256x64, .f32⟩
  | .hbm, ⟨8, _⟩ => ⟨S1x64, .f32⟩
  | .hbm, ⟨9, _⟩ => ⟨S0, .i32⟩
  | .hbm, ⟨10, _⟩ => ⟨S0, .i32⟩
  | .hbm, ⟨11, _⟩ => ⟨S0, .i32⟩
  | .hbm, ⟨12, _⟩ => ⟨S0, .i32⟩
  | .hbm, ⟨13, _⟩ => ⟨S0, .i32⟩
  | .hbm, ⟨14, _⟩ => ⟨S0, .i32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .bf16⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S1x256, .f32⟩
  | .hbm, ⟨34, _⟩ => ⟨S1x256, .f32⟩
  | .hbm, ⟨35, _⟩ => ⟨S_, .f32⟩
  | .hbm, ⟨36, _⟩ => ⟨S256x128, .f32⟩
  | .hbm, ⟨37, _⟩ => ⟨S_, .i32⟩
  | .hbm, ⟨38, _⟩ => ⟨S1, .i32⟩
  | .hbm, ⟨39, _⟩ => ⟨S256x128, .f32⟩
  | .hbm, ⟨40, _⟩ => ⟨S_, .f32⟩
  | .hbm, ⟨41, _⟩ => ⟨S256x128, .f32⟩
  | .hbm, ⟨42, _⟩ => ⟨S_, .i32⟩
  | .hbm, ⟨43, _⟩ => ⟨S1, .i32⟩
  | .hbm, ⟨44, _⟩ => ⟨S256x128, .f32⟩
  | .hbm, ⟨45, _⟩ => ⟨S_, .f32⟩
  | .hbm, ⟨46, _⟩ => ⟨S1x128, .f32⟩
  | .hbm, ⟨47, _⟩ => ⟨S_, .i32⟩
  | .hbm, ⟨48, _⟩ => ⟨S1, .i32⟩
  | .hbm, ⟨49, _⟩ => ⟨S1x128, .f32⟩
  | .hbm, ⟨50, _⟩ => ⟨S4096x128, .f32⟩
  | .hbm, ⟨51, _⟩ => ⟨S4096x128, .f32⟩
  | .hbm, ⟨52, _⟩ => ⟨S4096x128, .f32⟩
  | .hbm, ⟨53, _⟩ => ⟨S4096x64, .f32⟩
  | .local _ .vmem, ⟨0, _⟩ => ⟨S512x512, .bf16⟩
  | .local _ .vmem, ⟨1, _⟩ => ⟨S512x512, .bf16⟩
  | .local _ .vmem, ⟨2, _⟩ => ⟨S4096x128, .f32⟩
  | .local _ .vmem, ⟨3, _⟩ => ⟨S512x1, .f32⟩
  | .local _ .vmem, ⟨4, _⟩ => ⟨S512x1, .f32⟩
  | .local _ .vmem, ⟨5, _⟩ => ⟨S128x256, .f32⟩
  | .local _ .vmem, ⟨6, _⟩ => ⟨S128x256, .f32⟩
  | .local _ .vmem, ⟨7, _⟩ => ⟨S1x256, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S4096x128, .f32⟩
  | .local _ .vmem, ⟨19, _⟩ => ⟨S512x1, .f32⟩
  | .local _ .vmem, ⟨20, _⟩ => ⟨S512x1, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_5 : Ref sig .tc := ⟨.hbm, 20, rfl⟩
abbrev main_v4 : Ref sig .tc := ⟨.hbm, 21, rfl⟩
abbrev main_v5 : Ref sig .tc := ⟨.hbm, 22, rfl⟩
abbrev main_cst_6 : Ref sig .tc := ⟨.hbm, 23, rfl⟩
abbrev main_v6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_v9 : Ref sig .tc := ⟨.hbm, 28, rfl⟩
abbrev main_cst_8 : Ref sig .tc := ⟨.hbm, 29, rfl⟩
abbrev main_v10 : Ref sig .tc := ⟨.hbm, 30, rfl⟩
abbrev main_v11 : Ref sig .tc := ⟨.hbm, 31, rfl⟩
abbrev main_cst_9 : Ref sig .tc := ⟨.hbm, 32, rfl⟩
abbrev main_v12 : Ref sig .tc := ⟨.hbm, 33, rfl⟩
abbrev main_v13 : Ref sig .tc := ⟨.hbm, 34, rfl⟩
abbrev main_cst_10 : Ref sig .tc := ⟨.hbm, 35, rfl⟩
abbrev main_v14 : Ref sig .tc := ⟨.hbm, 36, rfl⟩
abbrev main_c_11 : Ref sig .tc := ⟨.hbm, 37, rfl⟩
abbrev main_v15 : Ref sig .tc := ⟨.hbm, 38, rfl⟩
abbrev main_v16 : Ref sig .tc := ⟨.hbm, 39, rfl⟩
abbrev main_cst_12 : Ref sig .tc := ⟨.hbm, 40, rfl⟩
abbrev main_v17 : Ref sig .tc := ⟨.hbm, 41, rfl⟩
abbrev main_c_13 : Ref sig .tc := ⟨.hbm, 42, rfl⟩
abbrev main_v18 : Ref sig .tc := ⟨.hbm, 43, rfl⟩
abbrev main_v19 : Ref sig .tc := ⟨.hbm, 44, rfl⟩
abbrev main_cst_14 : Ref sig .tc := ⟨.hbm, 45, rfl⟩
abbrev main_v20 : Ref sig .tc := ⟨.hbm, 46, rfl⟩
abbrev main_c_15 : Ref sig .tc := ⟨.hbm, 47, rfl⟩
abbrev main_v21 : Ref sig .tc := ⟨.hbm, 48, rfl⟩
abbrev main_v22 : Ref sig .tc := ⟨.hbm, 49, rfl⟩
abbrev main_v23_0 : Ref sig .tc := ⟨.hbm, 50, rfl⟩
abbrev main_v23_1 : Ref sig .tc := ⟨.hbm, 51, rfl⟩
abbrev main_v24 : Ref sig .tc := ⟨.hbm, 52, rfl⟩
abbrev main_v25 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def k0_mult2 (i : grid0.Coords) : BitVec 32 :=
  let arg0 : BitVec 32 := BitVec.ofNat 32 (i 0).val
  let c512_i32_12 : BitVec 32 := 512#32
  let v25 : BitVec 32 := Scalar.muli arg0 c512_i32_12
  v25
def k0_off2 (i : grid0.Coords) : Fin 2 → Nat :=
  let arg0 : BitVec 32 := BitVec.ofNat 32 (i 0).val
  let c512_i32_12 : BitVec 32 := 512#32
  let v25 : BitVec 32 := Scalar.muli arg0 c512_i32_12
  let v26 : BitVec 32 := v25
  let v27 : Index := Scalar.indexCast v26
  let c0_13 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  hz_S0 : S0.numel = 0
  bcast_S_S4096x4096 : S_.BroadcastsInDim S4096x4096 (![] : Fin 0 → Fin S4096x4096.rank)
  bitsLt_bf16_f32 : FTy.bits .bf16 < FTy.bits .f32
  shapeCasts_S4096_S4096x1 : S4096.ShapeCasts S4096x1
  bcast_S_S4096x1 : S_.BroadcastsInDim S4096x1 (![] : Fin 0 → Fin S4096x1.rank)
  bcast_S_S4096x128 : S_.BroadcastsInDim S4096x128 (![] : Fin 0 → Fin S4096x128.rank)
  bcast_S_S128x256 : S_.BroadcastsInDim S128x256 (![] : Fin 0 → Fin S128x256.rank)
  bcast_S_S1x256 : S_.BroadcastsInDim S1x256 (![] : Fin 0 → Fin S1x256.rank)
  bcast_S_S256x128 : S_.BroadcastsInDim S256x128 (![] : Fin 0 → Fin S256x128.rank)
  bcast_S_S1 : S_.BroadcastsInDim S1 (![] : Fin 0 → Fin S1.rank)
  bcast_S_S1x128 : S_.BroadcastsInDim S1x128 (![] : Fin 0 → Fin S1x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  iota_S512x128_d1_w32 : S512x128.Iotas .tc 32 [1]
  slices_S4096x128_S4096x64_0_0 : S4096x128.Slices ![0, 0] S4096x64
  scatter_S4096x4096_S0_S4096x4096_01_n_n_0_wf : ScatterDims.WF S4096x4096 S0 S4096x4096 [0, 1] [] [] 0
  scatter_S4096x1_S0_S4096x1_01_n_n_0_wf : ScatterDims.WF S4096x1 S0 S4096x1 [0, 1] [] [] 0
  scatter_S4096x128_S0_S4096x128_01_n_n_0_wf : ScatterDims.WF S4096x128 S0 S4096x128 [0, 1] [] [] 0
  scatter_S128x256_S0_S128x256_01_n_n_0_wf : ScatterDims.WF S128x256 S0 S128x256 [0, 1] [] [] 0
  scatter_S1x256_S0_S1x256_01_n_n_0_wf : ScatterDims.WF S1x256 S0 S1x256 [0, 1] [] [] 0
  scatter_S256x128_S1_S256x64_01_n_1_0_wf : ScatterDims.WF S256x128 S1 S256x64 [0, 1] [] [1] 0
  scatter_S1x128_S1_S1x64_01_n_1_0_wf : ScatterDims.WF S1x128 S1 S1x64 [0, 1] [] [1] 0
  dot_S512x512_S512x128_S512x128_1_0_0_1_n_n_wf : DotDims.WF S512x512 S512x128 S512x128 [1] [0] [0] [1] [] []
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x128.size a ≤ S4096x128.size a
  k0_mult2_dvd : ∀ i : grid0.Coords, ∀ (k0_h2 : k0_cond2 i = 1#1), 512 ∣ (k0_mult2 i).toNat
  k0_off2_inb : ∀ i : grid0.Coords, ∀ (k0_h2 : k0_cond2 i = 1#1), ∀ a, (k0_off2 i) a + S512x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .bf16 = 32 ∨ (Rect.block (s := S4096x4096) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x128.size a
  hwx0_9 : ∀ i : grid0.Coords, EltTy.bits .f32 = 32 ∨ (Rect.block (s := S4096x128) S512x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S4096x128.size a
  hwx0_10 : ∀ i : grid0.Coords, EltTy.bits .f32 = 32 ∨ (Rect.block (s := S4096x128) S512x128.size (cc0_transform_10 i) (hinb0_10 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .bf16 = 32 ∨ (Rect.block (s := S4096x4096) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)

variable [Facts₀]

def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def scatter_S4096x1_S0_S4096x1_01_n_n_0 : ScatterDims S4096x1 S0 S4096x1 where
  updateWindowDims := [0, 1]
  insertedWindowDims := []
  scatterDimsToOperandDims := []
  indexVectorDim := 0
  wf := scatter_S4096x1_S0_S4096x1_01_n_n_0_wf
def scatter_S4096x128_S0_S4096x128_01_n_n_0 : ScatterDims S4096x128 S0 S4096x128 where
  updateWindowDims := [0, 1]
  insertedWindowDims := []
  scatterDimsToOperandDims := []
  indexVectorDim := 0
  wf := scatter_S4096x128_S0_S4096x128_01_n_n_0_wf
def scatter_S128x256_S0_S128x256_01_n_n_0 : ScatterDims S128x256 S0 S128x256 where
  updateWindowDims := [0, 1]
  insertedWindowDims := []
  scatterDimsToOperandDims := []
  indexVectorDim := 0
  wf := scatter_S128x256_S0_S128x256_01_n_n_0_wf
def scatter_S1x256_S0_S1x256_01_n_n_0 : ScatterDims S1x256 S0 S1x256 where
  updateWindowDims := [0, 1]
  insertedWindowDims := []
  scatterDimsToOperandDims := []
  indexVectorDim := 0
  wf := scatter_S1x256_S0_S1x256_01_n_n_0_wf
def scatter_S256x128_S1_S256x64_01_n_1_0 : ScatterDims S256x128 S1 S256x64 where
  updateWindowDims := [0, 1]
  insertedWindowDims := []
  scatterDimsToOperandDims := [1]
  indexVectorDim := 0
  wf := scatter_S256x128_S1_S256x64_01_n_1_0_wf
def scatter_S1x128_S1_S1x64_01_n_1_0 : ScatterDims S1x128 S1 S1x64 where
  updateWindowDims := [0, 1]
  insertedWindowDims := []
  scatterDimsToOperandDims := [1]
  indexVectorDim := 0
  wf := scatter_S1x128_S1_S1x64_01_n_1_0_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23_0) S512x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v23_1) S512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23_1) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== Proof.Spec.lean ====
/- The function both programs compute, over the extended reals. Nodes are split into eight row blocks of 512. For row
   block `i` the neighbour sum is `agg i (p, q) = ∑ k, A (512·i + p, k) · M (k, q)` over ALL 4096 columns `k`; the first
   layer's block is the shared epilogue chain (scale by 1/deg, the two dense products and the bias, row normalisation,
   rectification, the two narrow products) of that sum and the block's own rows; the second layer's block is the shared
   chain (scale, add, row normalisation, masked log-softmax) of the neighbour sum of the first layer's result. The
   arrays are the stacks of their eight row blocks. -/
import proofs.«175566_g2000702591456375_pallasbulk_739_2_alg».proof.Proof.Gen.ReferenceIdeal.Skeleton
import Idealize.ShloMosaic.Lib.ValueIdx

noncomputable section

open scoped BigOperators

namespace Cert.Sage

open Idealize.ShloMosaic Idealize.ShloMosaic.ValueIdx
open Cert.ReferenceIdeal Cert.ReferenceIdeal.Gen

/-- Row `512·i + p` of a 4096-row array, for `p` a row of block `i`. -/
def rowIx (i : Fin 8) (p : Fin 512) : Fin 4096 := ⟨512 * i.val + p.val, by have := i.isLt; have := p.isLt; omega⟩

/-- Row block `i` of a 4096×128 array. -/
def rowsOf (M : Vec Ideal S4096x128 .f32) (i : Fin 8) : Vec Ideal S512x128 .f32 :=
  fun y => M (ix2 (rowIx i ⟨(y 0).val, idx2_lt0 y⟩) ⟨(y 1).val, idx2_lt1 y⟩)

/-- Row block `i` of a 4096×1 column. -/
def rows1Of (D : Vec Ideal S4096x1 .f32) (i : Fin 8) : Vec Ideal S512x1 .f32 :=
  fun y => D (ix2 (rowIx i ⟨(y 0).val, idx2_lt0 y⟩) ⟨(y 1).val, idx2_lt1 y⟩)

/-- The neighbour sum of row block `i`: every row of the block against every one of the 4096 columns. -/
def aggOf (A : S4096x4096.Idx → EReal) (M : Vec Ideal S4096x128 .f32) (i : Fin 8) : Vec Ideal S512x128 .f32 :=
  fun y => ∑ k : Fin 4096, A (ix2 (rowIx i ⟨(y 0).val, idx2_lt0 y⟩) k) * M (ix2 k ⟨(y 1).val, idx2_lt1 y⟩)

/-- The 4096×128 array whose row block `i` is `f i`. -/
def stack (f : Fin 8 → Vec Ideal S512x128 .f32) : Vec Ideal S4096x128 .f32 :=
  fun j => f ⟨(j 0).val / 512, by have := idx2_lt0 j; omega⟩ (ix2 ⟨(j 0).val % 512, Nat.mod_lt _ (by decide)⟩ ⟨(j 1).val, idx2_lt1 j⟩)

/-- The first layer's narrow left product, node by node. -/
def Z2 (A : S4096x4096.Idx → EReal) (X : Vec Ideal S4096x128 .f32) (D : Vec Ideal S4096x1 .f32)
    (W1l W1r : Vec Ideal S128x256 .f32) (B1 : Vec Ideal S1x256 .f32) (W2l : Vec Ideal S256x128 .f32) : Vec Ideal S4096x128 .f32 :=
  stack fun i => k0_pay5 (F := Ideal) (aggOf A X i) (rows1Of D i) (rowsOf X i) W1l W1r B1 W2l

/-- The first layer's narrow right product plus its bias, node by node. -/
def S2 (A : S4096x4096.Idx → EReal) (X : Vec Ideal S4096x128 .f32) (D : Vec Ideal S4096x1 .f32)
    (W1l W1r : Vec Ideal S128x256 .f32) (B1 : Vec Ideal S1x256 .f32) (W2r : Vec Ideal S256x128 .f32) (B2 : Vec Ideal S1x128 .f32) : Vec Ideal S4096x128 .f32 :=
  stack fun i => k0_pay3 (F := Ideal) (k0_pay4 (F := Ideal) (aggOf A X i) (rows1Of D i) (rowsOf X i) W1l W1r B1) W2r B2

/-- The second layer: the masked log-softmax of the normalised `(1/deg)·(A·z) + s`, node by node. -/
def OUT (A : S4096x4096.Idx → EReal) (D : Vec Ideal S4096x1 .f32) (Z S : Vec Ideal S4096x128 .f32) : Vec Ideal S4096x128 .f32 :=
  stack fun i => k1_pay3 (F := Ideal) (aggOf A Z i) (rows1Of D i) (rowsOf S i)

/-- A stack read at a row of block `i` is that block's entry. -/
theorem stack_apply (f : Fin 8 → Vec Ideal S512x128 .f32) (i : Fin 8) (p : Fin 512) (q : Fin 128) :
    stack f (ix2 (rowIx i p) q) = f i (ix2 p q) := by
  have hi : (⟨(512 * i.val + p.val) / 512, by have := i.isLt; have := p.isLt; omega⟩ : Fin 8) = i :=
    Fin.ext (by have := p.isLt; show (512 * i.val + p.val) / 512 = i.val; omega)
  have hp : (⟨(512 * i.val + p.val) % 512, Nat.mod_lt _ (by decide)⟩ : Fin 512) = p :=
    Fin.ext (by have := p.isLt; show (512 * i.val + p.val) % 512 = p.val; omega)
  show f ⟨(512 * i.val + p.val) / 512, _⟩ (ix2 ⟨(512 * i.val + p.val) % 512, _⟩ ⟨q.val, _⟩) = f i (ix2 p q)
  rw [hi, hp]

/-! ## The arguments as the regions find them, and the result -/

/-- The per-node scale as a column. -/
def Dcol (d : Vec Ideal S4096 .f32) : Vec Ideal S4096x1 .f32 :=
  fun j => d (ix1 ⟨(j 0).val, idx2_lt0 j⟩)

/-- A 256×64 matrix padded with zero columns to 256×128. -/
def padCols (w : Vec Ideal S256x64 .f32) : Vec Ideal S256x128 .f32 :=
  fun j => if h : (j 1).val < 64 then w (ix2 ⟨(j 0).val, idx2_lt0 j⟩ ⟨(j 1).val, h⟩) else 0

/-- A 1×64 row padded with zeros to 1×128. -/
def padRow (b : Vec Ideal S1x64 .f32) : Vec Ideal S1x128 .f32 :=
  fun j => if h : (j 1).val < 64 then b (ix2 ⟨(j 0).val, idx2_lt0 j⟩ ⟨(j 1).val, h⟩) else 0

/-- The first 64 columns of a 4096×128 array. -/
def firstCols (O : Vec Ideal S4096x128 .f32) : Vec Ideal S4096x64 .f32 :=
  fun j => O (ix2 ⟨(j 0).val, idx2_lt0 j⟩ ⟨(j 1).val, by have := idx2_lt1 j; omega⟩)

/-- What both programs return, as one function of the nine arguments. -/
def result (x : Vec Ideal S4096x128 .f32) (A : S4096x4096.Idx → EReal) (d : Vec Ideal S4096 .f32)
    (w1l w1r : Vec Ideal S128x256 .f32) (b1 : Vec Ideal S1x256 .f32) (w2l w2r : Vec Ideal S256x64 .f32) (b2 : Vec Ideal S1x64 .f32) :
    Vec Ideal S4096x64 .f32 :=
  firstCols (OUT A (Dcol d) (Z2 A x (Dcol d) w1l w1r b1 (padCols w2l)) (S2 A x (Dcol d) w1l w1r b1 (padCols w2r) (padRow b2)))

end Cert.Sage

end
-- ==== Proof.KerValueA.lean ====
/- Each region's body begins with one product of a 512×4096 row tile against a 4096×128 right operand from a zero start.
   Entry (p, q) of that product is the sum over all 4096 positions k of tile(p, k) · operand(k, q), so for the tile that
   is row block i of the adjacency matrix it is block i's neighbour sum. Everything after the product is, operation by
   operation, the specification's chain: the two texts differ only by shape casts to the same shape and by changes of
   float format, both the identity over the extended reals. -/
import proofs.«175566_g2000702591456375_pallasbulk_739_2_alg».proof.Proof.Gen.KernelIdeal.Skeleton
import proofs.«175566_g2000702591456375_pallasbulk_739_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

/-- One row tile's product against all 4096 columns, from a zero start: the first operation of both regions' bodies. -/
def tileProd (B : Vec Ideal S512x4096 .f32) (xb : Vec Ideal S4096x128 .bf16) : Vec Ideal S512x128 .f32 :=
  matmul (F := Ideal) dot_S512x4096_S4096x128_S512x128_1_0_0_1_n_n none
    (truncf .bf16 B bitsLt_bf16_f32 : FVec Ideal S512x4096 .bf16)
    (shapeCast S4096x128 xb shapeCasts_S4096x128_S4096x128 : FVec Ideal S4096x128 .bf16)
    (constant S512x128 .f32 0x00000000#32 : FVec Ideal S512x128 .f32)

/-- The hidden layer after rectification is the specification's chain at the tile's product. -/
theorem hidden_eq (B : Vec Ideal S512x4096 .f32) (xb : Vec Ideal S4096x128 .bf16) (inv : Vec Ideal S512x1 .f32)
    (w1l : Vec Ideal S128x256 .f32) (xi : Vec Ideal S512x128 .f32) (w1r : Vec Ideal S128x256 .f32) (b1 : Vec Ideal S1x256 .f32) :
    k0_pay2 (F := Ideal) B xb inv w1l xi w1r b1
      = Cert.ReferenceIdeal.Gen.k0_pay4 (F := Ideal) (tileProd B xb) inv xi w1l w1r b1 := by
  unfold k0_pay2 Cert.ReferenceIdeal.Gen.k0_pay4 tileProd
  simp only [shapeCast_self]
  rfl

/-- The first layer's narrow left product (its change of float format is the identity) is the specification's chain. -/
theorem left_eq (B : Vec Ideal S512x4096 .f32) (xb : Vec Ideal S4096x128 .bf16) (inv : Vec Ideal S512x1 .f32)
    (w1l : Vec Ideal S128x256 .f32) (xi : Vec Ideal S512x128 .f32) (w1r : Vec Ideal S128x256 .f32) (b1 : Vec Ideal S1x256 .f32)
    (w2l : Vec Ideal S256x128 .f32) :
    k0_pay3 (F := Ideal) B xb inv w1l xi w1r b1 w2l
      = Cert.ReferenceIdeal.Gen.k0_pay5 (F := Ideal) (tileProd B xb) inv xi w1l w1r b1 w2l := by
  unfold k0_pay3 Cert.ReferenceIdeal.Gen.k0_pay5
  rw [hidden_eq]
  rfl

/-- The first layer's narrow right product plus bias is the specification's chain. -/
theorem right_eq (B : Vec Ideal S512x4096 .f32) (xb : Vec Ideal S4096x128 .bf16) (inv : Vec Ideal S512x1 .f32)
    (w1l : Vec Ideal S128x256 .f32) (xi : Vec Ideal S512x128 .f32) (w1r : Vec Ideal S128x256 .f32) (b1 : Vec Ideal S1x256 .f32)
    (w2r : Vec Ideal S256x128 .f32) (b2 : Vec Ideal S1x128 .f32) :
    k0_pay1 (F := Ideal) (k0_pay2 (F := Ideal) B xb inv w1l xi w1r b1) w2r b2
      = Cert.ReferenceIdeal.Gen.k0_pay3 (F := Ideal) (Cert.ReferenceIdeal.Gen.k0_pay4 (F := Ideal) (tileProd B xb) inv xi w1l w1r b1) w2r b2 := by
  rw [hidden_eq]
  rfl

/-- The second layer is the specification's chain at the tile's product. -/
theorem layer2_eq (B : Vec Ideal S512x4096 .f32) (zb : Vec Ideal S4096x128 .bf16) (inv : Vec Ideal S512x1 .f32)
    (s : Vec Ideal S512x128 .f32) :
    k1_pay1 (F := Ideal) B zb inv s = Cert.ReferenceIdeal.Gen.k1_pay3 (F := Ideal) (tileProd B zb) inv s := by
  unfold k1_pay1 Cert.ReferenceIdeal.Gen.k1_pay3 tileProd
  rfl

/-! ## The tile's product at an index: the sum over all 4096 columns -/

/-- The left operand's row is the output's row. -/
theorem lhs_tile_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
/-- The left operand's column is the contraction position. -/
theorem lhs_tile_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
/-- The right operand's row is the contraction position. -/
theorem rhs_tile_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
/-- The right operand's column is the output's column. -/
theorem rhs_tile_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- Entry (p, q) of a tile's product is row p of the tile against column q of the right operand, over all 4096 positions. -/
theorem tileProd_apply (B : Vec Ideal S512x4096 .f32) (xb : Vec Ideal S4096x128 .bf16) (p : Fin 512) (q : Fin 128) :
    tileProd B xb (ix2 p q) = ∑ k : Fin 4096, B (ix2 p k) * xb (ix2 k q) := by
  unfold tileProd
  rw [shapeCast_self]
  refine (Ideal.matmul_constant_zero_apply (φ₁ := .bf16) (φ₂ := .bf16) dot_S512x4096_S4096x128_S512x128_1_0_0_1_n_n none
    (truncf .bf16 B bitsLt_bf16_f32 : FVec Ideal S512x4096 .bf16) (xb : FVec Ideal S4096x128 .bf16) (ix2 p q)).trans ?_
  rw [← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p q) ((contrEquiv1 dot_S512x4096_S4096x128_S512x128_1_0_0_1_n_n 4096 rfl rfl).symm k) = ix2 p k := funext fun a => Fin.ext (by
    match a with
    | ⟨0, _⟩ => exact lhs_tile_0 _ _
    | ⟨1, _⟩ => exact (lhs_tile_1 _ _).trans hk)
  have er : dot_S512x4096_S4096x128_S512x128_1_0_0_1_n_n.rhsIdx (ix2 p q) ((contrEquiv1 dot_S512x4096_S4096x128_S512x128_1_0_0_1_n_n 4096 rfl rfl).symm k) = ix2 k q := funext fun a => Fin.ext (by
    match a with
    | ⟨0, _⟩ => exact (rhs_tile_0 _ _).trans hk
    | ⟨1, _⟩ => exact rhs_tile_1 _ _)
  rw [el, er]
  rfl

/-- A tile that is row block `i` of `A`, against a right operand that is `M` entry by entry, has block `i`'s neighbour
    sum as its product. -/
theorem tileProd_eq_agg (A : Cert.ReferenceIdeal.S4096x4096.Idx → EReal) (M : Vec Ideal Cert.ReferenceIdeal.S4096x128 .f32)
    (i : Fin 8) (B : Vec Ideal S512x4096 .f32) (xb : Vec Ideal S4096x128 .bf16)
    (hB : ∀ (p : Fin 512) (k : Fin 4096), B (ix2 p k) = A (ix2 (Cert.Sage.rowIx i p) k))
    (hx : ∀ (k : Fin 4096) (q : Fin 128), xb (ix2 k q) = M (ix2 k q)) :
    tileProd B xb = Cert.Sage.aggOf A M i := by
  funext y
  obtain ⟨p, q, rfl⟩ : ∃ (p : Fin 512) (q : Fin 128), y = ix2 p q := ⟨y 0, y 1, eq_ix2 y⟩
  rw [tileProd_apply]
  show ∑ k : Fin 4096, B (ix2 p k) * xb (ix2 k q) = ∑ k : Fin 4096, A (ix2 (Cert.Sage.rowIx i p) k) * M (ix2 k q)
  exact Finset.sum_congr rfl fun k _ => by rw [hB, hx]

end Cert.KernelIdeal.Hand

end
-- ==== Proof.KerValueB.lean ====
/- Region 0 (the first layer), from blocks to arrays. The grid has eight points; point t works on row block t: its
   adjacency tile is rows 512·t … 512·t+511 of the adjacency matrix against all 4096 columns, its own rows and scales
   are the same rows of the feature matrix and of the scale column, and the weights, biases and the right operand of
   the product are whole arrays at every point. Each output window writes block t back at point t, and the eight
   blocks tile the 4096 rows, so after the region each output array is the stack of the specification's chain of the
   eight blocks. All of this holds at any contents the region is entered with. -/
import proofs.«175566_g2000702591456375_pallasbulk_739_2_alg».proof.Proof.Gen.KernelIdeal.Frame
import proofs.«175566_g2000702591456375_pallasbulk_739_2_alg».proof.Proof.Spec
import proofs.«175566_g2000702591456375_pallasbulk_739_2_alg».proof.Proof.KerValueA
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- Region 0's index maps over the grid: the row windows (adjacency tile, own rows, scale, both outputs) sit at row
    block `t`, the whole-array windows at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The row block a point of region 0 works on. -/
def rowBlock0 (t : Fin cfg0.N) : Fin 8 := ⟨t.val, t.isLt.trans_eq N_0⟩

/-- The adjacency tile at point `t` is row block `t` of the adjacency matrix. -/
theorem tile0_apply (c : Dev nD) (t : Fin cfg0.N) (p : Fin 512) (k : Fin 4096) :
    iblk0 V c 0 t (ix2 p k) = V c main_arg1 (ix2 (Cert.Sage.rowIx (rowBlock0 t) p) k) := by
  show V c main_arg1 (((cfg0.win 0).blk t).view.emb (ix2 p k)) = _
  refine congrArg _ (funext fun a => Fin.ext ?_)
  obtain ⟨e0, e1, -⟩ := idx_facts0 t
  match a with
  | ⟨0, _⟩ => show win0_0.index t (0 : Fin 2) * 512 + 1 * p.val = 512 * t.val + p.val; omega
  | ⟨1, _⟩ => show win0_0.index t (1 : Fin 2) * 4096 + 1 * k.val = k.val; omega

/-- The right operand's window holds its whole array at every point. -/
theorem whole0_1 (c : Dev nD) (t : Fin cfg0.N) : iblk0 V c 1 t = V c main_v0 := by
  funext y
  show V c main_v0 (((cfg0.win 1).blk t).view.emb y) = V c main_v0 y
  refine congrArg _ (funext fun a => Fin.ext ?_)
  have f := idx_facts0 t
  match a with
  | ⟨0, _⟩ => show win0_1.index t (0 : Fin 2) * 4096 + 1 * (y 0).val = (y 0).val; omega
  | ⟨1, _⟩ => show win0_1.index t (1 : Fin 2) * 128 + 1 * (y 1).val = (y 1).val; omega

/-- The block's own rows. -/
theorem rows0_2 (c : Dev nD) (t : Fin cfg0.N) : iblk0 V c 2 t = Cert.Sage.rowsOf (V c main_arg0) (rowBlock0 t) := by
  funext y
  show V c main_arg0 (((cfg0.win 2).blk t).view.emb y) = V c main_arg0 (ix2 (Cert.Sage.rowIx (rowBlock0 t) ⟨(y 0).val, _⟩) ⟨(y 1).val, _⟩)
  refine congrArg _ (funext fun a => Fin.ext ?_)
  have f := idx_facts0 t
  match a with
  | ⟨0, _⟩ => show win0_2.index t (0 : Fin 2) * 512 + 1 * (y 0).val = 512 * t.val + (y 0).val; omega
  | ⟨1, _⟩ => show win0_2.index t (1 : Fin 2) * 128 + 1 * (y 1).val = (y 1).val; omega

/-- The block's scales. -/
theorem rows0_3 (c : Dev nD) (t : Fin cfg0.N) : iblk0 V c 3 t = Cert.Sage.rows1Of (V c main_v1) (rowBlock0 t) := by
  funext y
  show V c main_v1 (((cfg0.win 3).blk t).view.emb y) = V c main_v1 (ix2 (Cert.Sage.rowIx (rowBlock0 t) ⟨(y 0).val, _⟩) ⟨(y 1).val, _⟩)
  refine congrArg _ (funext fun a => Fin.ext ?_)
  have f := idx_facts0 t
  match a with
  | ⟨0, _⟩ => show win0_3.index t (0 : Fin 2) * 512 + 1 * (y 0).val = 512 * t.val + (y 0).val; omega
  | ⟨1, _⟩ => show win0_3.index t (1 : Fin 2) * 1 + 1 * (y 1).val = (y 1).val; omega

/-- The weight and bias windows hold their whole arrays at every point. -/
theorem whole0_4 (c : Dev nD) (t : Fin cfg0.N) : iblk0 V c 4 t = V c main_arg3 := by
  funext y
  show V c main_arg3 (((cfg0.win 4).blk t).view.emb y) = V c main_arg3 y
  refine congrArg _ (funext fun a => Fin.ext ?_)
  have f := idx_facts0 t
  match a with
  | ⟨0, _⟩ => show win0_4.index t (0 : Fin 2) * 128 + 1 * (y 0).val = (y 0).val; omega
  | ⟨1, _⟩ => show win0_4.index t (1 : Fin 2) * 256 + 1 * (y 1).val = (y 1).val; omega
theorem whole0_5 (c : Dev nD) (t : Fin cfg0.N) : iblk0 V c 5 t = V c main_arg4 := by
  funext y
  show V c main_arg4 (((cfg0.win 5).blk t).view.emb y) = V c main_arg4 y
  refine congrArg _ (funext fun a => Fin.ext ?_)
  have f := idx_facts0 t
  match a with
  | ⟨0, _⟩ => show win0_5.index t (0 : Fin 2) * 128 + 1 * (y 0).val = (y 0).val; omega
  | ⟨1, _⟩ => show win0_5.index t (1 : Fin 2) * 256 + 1 * (y 1).val = (y 1).val; omega
theorem whole0_6 (c : Dev nD) (t : Fin cfg0.N) : iblk0 V c 6 t = V c main_arg5 := by
  funext y
  show V c main_arg5 (((cfg0.win 6).blk t).view.emb y) = V c main_arg5 y
  refine congrArg _ (funext fun a => Fin.ext ?_)
  have f := idx_facts0 t
  match a with
  | ⟨0, _⟩ => show win0_6.index t (0 : Fin 2) * 1 + 1 * (y 0).val = (y 0).val; omega
  | ⟨1, _⟩ => show win0_6.index t (1 : Fin 2) * 256 + 1 * (y 1).val = (y 1).val; omega
theorem whole0_7 (c : Dev nD) (t : Fin cfg0.N) : iblk0 V c 7 t = V c main_v2 := by
  funext y
  show V c main_v2 (((cfg0.win 7).blk t).view.emb y) = V c main_v2 y
  refine congrArg _ (funext fun a => Fin.ext ?_)
  have f := idx_facts0 t
  match a with
  | ⟨0, _⟩ => show win0_7.index t (0 : Fin 2) * 256 + 1 * (y 0).val = (y 0).val; omega
  | ⟨1, _⟩ => show win0_7.index t (1 : Fin 2) * 128 + 1 * (y 1).val = (y 1).val; omega
theorem whole0_8 (c : Dev nD) (t : Fin cfg0.N) : iblk0 V c 8 t = V c main_v3 := by
  funext y
  show V c main_v3 (((cfg0.win 8).blk t).view.emb y) = V c main_v3 y
  refine congrArg _ (funext fun a => Fin.ext ?_)
  have f := idx_facts0 t
  match a with
  | ⟨0, _⟩ => show win0_8.index t (0 : Fin 2) * 256 + 1 * (y 0).val = (y 0).val; omega
  | ⟨1, _⟩ => show win0_8.index t (1 : Fin 2) * 128 + 1 * (y 1).val = (y 1).val; omega
theorem whole0_9 (c : Dev nD) (t : Fin cfg0.N) : iblk0 V c 9 t = V c main_v4 := by
  funext y
  show V c main_v4 (((cfg0.win 9).blk t).view.emb y) = V c main_v4 y
  refine congrArg _ (funext fun a => Fin.ext ?_)
  have f := idx_facts0 t
  match a with
  | ⟨0, _⟩ => show win0_9.index t (0 : Fin 2) * 1 + 1 * (y 0).val = (y 0).val; omega
  | ⟨1, _⟩ => show win0_9.index t (1 : Fin 2) * 128 + 1 * (y 1).val = (y 1).val; omega

/-! ## An array stacked from its eight row blocks, read through output window 10's block; the blocks cover the rows -/

/-- Output window 10's block at point `t` of a stacked array is the stack's block `t`, entry by entry. -/
theorem read_stack0_10_apply (f : Fin 8 → Vec Ideal Cert.ReferenceIdeal.S512x128 .f32) (t : Fin cfg0.N) (y : S512x128.Idx) :
    Cert.Sage.stack f (((cfg0.win 10).blk t).view.emb y) = f (rowBlock0 t) y := by
  have he : ((cfg0.win 10).blk t).view.emb y = ix2 (Cert.Sage.rowIx (rowBlock0 t) ⟨(y 0).val, idx2_lt0 y⟩) ⟨(y 1).val, idx2_lt1 y⟩ := by
    funext a; apply Fin.ext
    have f := idx_facts0 t
    match a with
    | ⟨0, _⟩ => show win0_10.index t (0 : Fin 2) * 512 + 1 * (y 0).val = 512 * t.val + (y 0).val; omega
    | ⟨1, _⟩ => show win0_10.index t (1 : Fin 2) * 128 + 1 * (y 1).val = (y 1).val; omega
  refine (congrArg (Cert.Sage.stack f) he).trans ((Cert.Sage.stack_apply f (rowBlock0 t) ⟨(y 0).val, idx2_lt0 y⟩ ⟨(y 1).val, idx2_lt1 y⟩).trans ?_)
  exact congrArg (f (rowBlock0 t)) (funext fun a => by match a with | ⟨0, _⟩ => rfl | ⟨1, _⟩ => rfl)

/-- The same as whole blocks. -/
theorem read_stack0_10 (f : Fin 8 → Vec Ideal Cert.ReferenceIdeal.S512x128 .f32) (t : Fin cfg0.N) :
    ((cfg0.win 10).blk t).view.read (Elt Ideal) (Cert.Sage.stack f) = f (rowBlock0 t) :=
  funext fun y => read_stack0_10_apply f t y

/-- An index of the array is in point `t`'s block of output window 10 iff each coordinate is in the block's range. -/
theorem mem_blk0_10 (t : Fin cfg0.N) (i : S4096x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v5_0).slice (win0_10.rect t)).set ↔ _
  rw [View.set_slice_whole, Rect.mem_set_unit]
  exact Iff.rfl

/-- Every row is in the block of the point numbered by its row block. -/
theorem cover0_10 (i : S4096x128.Idx) : ∃ t : Fin cfg0.N, (cfg0.win 10).flush t = true ∧ i ∈ ((cfg0.win 10).blk t).view.set := by
  have hi0 : (i 0).val < 4096 := (i 0).isLt
  have hi1 : (i 1).val < 128 := (i 1).isLt
  let t : Fin cfg0.N := ⟨(i 0).val / 512, (by omega : (i 0).val / 512 < 8).trans_eq N_0.symm⟩
  have ht : t.val = (i 0).val / 512 := rfl
  refine ⟨t, flush0_10 t, ?_⟩
  rw [mem_blk0_10]
  have f := idx_facts0 t
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 128 ≤ (i 1).val ∧ (i 1).val < win0_10.index t (1 : Fin 2) * 128 + 128; omega

/-! ## Output window 10: the first layer's narrow left product -/

/-- What the body leaves in output window 10's buffer is the specification's chain at the tile's product. -/
theorem out0_10_eq (x0 : Vec Ideal S512x4096 .f32) (x1 : Vec Ideal S4096x128 .bf16) (x2 : Vec Ideal S512x128 .f32)
    (x3 : Vec Ideal S512x1 .f32) (x4 x5 : Vec Ideal S128x256 .f32) (x6 : Vec Ideal S1x256 .f32)
    (x7 x8 : Vec Ideal S256x128 .f32) (x9 : Vec Ideal S1x128 .f32) :
    out0_10 (F := Ideal) x0 x1 x2 x3 x4 x5 x6 x7 x8 x9
      = Cert.ReferenceIdeal.Gen.k0_pay5 (F := Ideal) (tileProd x0 x1) x3 x2 x4 x5 x6 x7 := by
  unfold out0_10
  rw [View.canon_unit_zero zeroOffsets]
  simp only [View.ld_unit_zero (S := S512x4096) zeroOffsets, View.ld_unit_zero (S := S4096x128) zeroOffsets,
    View.ld_unit_zero (S := S512x1) zeroOffsets, View.ld_unit_zero (S := S128x256) zeroOffsets,
    View.ld_unit_zero (S := S512x128) zeroOffsets, View.ld_unit_zero (S := S1x256) zeroOffsets,
    View.ld_unit_zero (S := S256x128) zeroOffsets]
  exact left_eq x0 x1 x3 x4 x2 x5 x6 x7

/-- The first layer's narrow left product as an array: block `i` is the specification's chain of block `i`'s neighbour sum,
    scales and own rows. -/
def leftArr (c : Dev nD) : Vec Ideal Cert.ReferenceIdeal.S4096x128 .f32 :=
  Cert.Sage.stack fun i => Cert.ReferenceIdeal.Gen.k0_pay5 (F := Ideal) (Cert.Sage.aggOf (V c main_arg1) (V c main_v0) i)
    (Cert.Sage.rows1Of (V c main_v1) i) (Cert.Sage.rowsOf (V c main_arg0) i) (V c main_arg3) (V c main_arg4) (V c main_arg5) (V c main_v2)

/-- What point `t` writes back through output window 10 is block `t` of that array. -/
theorem flushed0_10_eq (c : Dev nD) (t : Fin cfg0.N) :
    (dat0 V c).flushed 10 t = ((cfg0.win 10).blk t).view.read (Elt Ideal) (leftArr V c) := by
  show (cfg0.win 10).cut (grid0.coords t) ((dat0 V c).after 10 t) = _
  unfold leftArr
  rw [after0_10, out0_10_eq (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t), read_stack0_10,
    tileProd_eq_agg (V c main_arg1) (V c main_v0) (rowBlock0 t) (iblk0 V c 0 t) (iblk0 V c 1 t) (tile0_apply V c t)
      (fun k q => congrFun (whole0_1 V c t) (ix2 k q)),
    rows0_3, rows0_2, whole0_4, whole0_5, whole0_6, whole0_7]
  rfl

/-- Output window 10's array after the region. -/
theorem arr0_10 (c : Dev nD) : (dat0 V c).arrAt 10 cfg0.N = leftArr V c :=
  (dat0 V c).arrAt_eq_of_cover 10 (leftArr V c) (fun t _ => flushed0_10_eq V c t) cover0_10

/-! ## Output window 11: the first layer's narrow right product plus its bias -/

/-- Output window 11's block at point `t` of a stacked array is the stack's block `t`, entry by entry. -/
theorem read_stack0_11_apply (f : Fin 8 → Vec Ideal Cert.ReferenceIdeal.S512x128 .f32) (t : Fin cfg0.N) (y : S512x128.Idx) :
    Cert.Sage.stack f (((cfg0.win 11).blk t).view.emb y) = f (rowBlock0 t) y := by
  have he : ((cfg0.win 11).blk t).view.emb y = ix2 (Cert.Sage.rowIx (rowBlock0 t) ⟨(y 0).val, idx2_lt0 y⟩) ⟨(y 1).val, idx2_lt1 y⟩ := by
    funext a; apply Fin.ext
    have f := idx_facts0 t
    match a with
    | ⟨0, _⟩ => show win0_11.index t (0 : Fin 2) * 512 + 1 * (y 0).val = 512 * t.val + (y 0).val; omega
    | ⟨1, _⟩ => show win0_11.index t (1 : Fin 2) * 128 + 1 * (y 1).val = (y 1).val; omega
  refine (congrArg (Cert.Sage.stack f) he).trans ((Cert.Sage.stack_apply f (rowBlock0 t) ⟨(y 0).val, idx2_lt0 y⟩ ⟨(y 1).val, idx2_lt1 y⟩).trans ?_)
  exact congrArg (f (rowBlock0 t)) (funext fun a => by match a with | ⟨0, _⟩ => rfl | ⟨1, _⟩ => rfl)

/-- The same as whole blocks. -/
theorem read_stack0_11 (f : Fin 8 → Vec Ideal Cert.ReferenceIdeal.S512x128 .f32) (t : Fin cfg0.N) :
    ((cfg0.win 11).blk t).view.read (Elt Ideal) (Cert.Sage.stack f) = f (rowBlock0 t) :=
  funext fun y => read_stack0_11_apply f t y

/-- An index of the array is in point `t`'s block of output window 11 iff each coordinate is in the block's range. -/
theorem mem_blk0_11 (t : Fin cfg0.N) (i : S4096x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v5_1).slice (win0_11.rect t)).set ↔ _
  rw [View.set_slice_whole, Rect.mem_set_unit]
  exact Iff.rfl

/-- Every row is in the block of the point numbered by its row block. -/
theorem cover0_11 (i : S4096x128.Idx) : ∃ t : Fin cfg0.N, (cfg0.win 11).flush t = true ∧ i ∈ ((cfg0.win 11).blk t).view.set := by
  have hi0 : (i 0).val < 4096 := (i 0).isLt
  have hi1 : (i 1).val < 128 := (i 1).isLt
  let t : Fin cfg0.N := ⟨(i 0).val / 512, (by omega : (i 0).val / 512 < 8).trans_eq N_0.symm⟩
  have ht : t.val = (i 0).val / 512 := rfl
  refine ⟨t, flush0_11 t, ?_⟩
  rw [mem_blk0_11]
  have f := idx_facts0 t
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 128 ≤ (i 1).val ∧ (i 1).val < win0_11.index t (1 : Fin 2) * 128 + 128; omega

/-- What the body leaves in output window 11's buffer is the specification's chain at the tile's product. -/
theorem out0_11_eq (x0 : Vec Ideal S512x4096 .f32) (x1 : Vec Ideal S4096x128 .bf16) (x2 : Vec Ideal S512x128 .f32)
    (x3 : Vec Ideal S512x1 .f32) (x4 x5 : Vec Ideal S128x256 .f32) (x6 : Vec Ideal S1x256 .f32)
    (x7 x8 : Vec Ideal S256x128 .f32) (x9 : Vec Ideal S1x128 .f32) :
    out0_11 (F := Ideal) x0 x1 x2 x3 x4 x5 x6 x7 x8 x9
      = Cert.ReferenceIdeal.Gen.k0_pay3 (F := Ideal) (Cert.ReferenceIdeal.Gen.k0_pay4 (F := Ideal) (tileProd x0 x1) x3 x2 x4 x5 x6) x8 x9 := by
  unfold out0_11
  rw [View.canon_unit_zero zeroOffsets]
  simp only [View.ld_unit_zero (S := S512x4096) zeroOffsets, View.ld_unit_zero (S := S4096x128) zeroOffsets,
    View.ld_unit_zero (S := S512x1) zeroOffsets, View.ld_unit_zero (S := S128x256) zeroOffsets,
    View.ld_unit_zero (S := S512x128) zeroOffsets, View.ld_unit_zero (S := S1x256) zeroOffsets,
    View.ld_unit_zero (S := S256x128) zeroOffsets, View.ld_unit_zero (S := S1x128) zeroOffsets]
  exact right_eq x0 x1 x3 x4 x2 x5 x6 x8 x9

/-- The first layer's narrow right product plus bias as an array, block by block. -/
def rightArr (c : Dev nD) : Vec Ideal Cert.ReferenceIdeal.S4096x128 .f32 :=
  Cert.Sage.stack fun i => Cert.ReferenceIdeal.Gen.k0_pay3 (F := Ideal)
    (Cert.ReferenceIdeal.Gen.k0_pay4 (F := Ideal) (Cert.Sage.aggOf (V c main_arg1) (V c main_v0) i)
      (Cert.Sage.rows1Of (V c main_v1) i) (Cert.Sage.rowsOf (V c main_arg0) i) (V c main_arg3) (V c main_arg4) (V c main_arg5))
    (V c main_v3) (V c main_v4)

/-- What point `t` writes back through output window 11 is block `t` of that array. -/
theorem flushed0_11_eq (c : Dev nD) (t : Fin cfg0.N) :
    (dat0 V c).flushed 11 t = ((cfg0.win 11).blk t).view.read (Elt Ideal) (rightArr V c) := by
  show (cfg0.win 11).cut (grid0.coords t) ((dat0 V c).after 11 t) = _
  unfold rightArr
  rw [after0_11, out0_11_eq (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t), read_stack0_11,
    tileProd_eq_agg (V c main_arg1) (V c main_v0) (rowBlock0 t) (iblk0 V c 0 t) (iblk0 V c 1 t) (tile0_apply V c t)
      (fun k q => congrFun (whole0_1 V c t) (ix2 k q)),
    rows0_3, rows0_2, whole0_4, whole0_5, whole0_6, whole0_8, whole0_9]
  rfl

/-- Output window 11's array after the region. -/
theorem arr0_11 (c : Dev nD) : (dat0 V c).arrAt 11 cfg0.N = rightArr V c :=
  (dat0 V c).arrAt_eq_of_cover 11 (rightArr V c) (fun t _ => flushed0_11_eq V c t) cover0_11

end Cert.KernelIdeal.Hand

end
-- ==== Proof.KerValueC.lean ====
/- Region 1 (the second layer), from blocks to arrays. Point t of its eight works on row block t: the adjacency tile of
   rows 512·t … 512·t+511 against all 4096 columns of the first layer's left product (a whole array at every point),
   the same rows of the scale column and of the first layer's right product. The output window writes block t back at
   point t and the eight blocks tile the 4096 rows, so after the region the output array is the stack of the
   specification's second-layer chain of the eight blocks, at any contents the region is entered with. -/
import proofs.«175566_g2000702591456375_pallasbulk_739_2_alg».proof.Proof.Gen.KernelIdeal.Frame
import proofs.«175566_g2000702591456375_pallasbulk_739_2_alg».proof.Proof.Spec
import proofs.«175566_g2000702591456375_pallasbulk_739_2_alg».proof.Proof.KerValueA
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

theorem zeroOffsets1 : (![0, 0] : Fin 2 → Nat) = fun _ => 0 := funext fun a => by fin_cases a <;> rfl

/-- Region 1's index maps over the grid: the row windows sit at row block `t`, the whole-array window at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The row block a point of region 1 works on. -/
def rowBlock1 (t : Fin cfg1.N) : Fin 8 := ⟨t.val, t.isLt.trans_eq N_1⟩

/-- The adjacency tile at point `t` is row block `t` of the adjacency matrix. -/
theorem tile1_apply (c : Dev nD) (t : Fin cfg1.N) (p : Fin 512) (k : Fin 4096) :
    iblk1 V c 0 t (ix2 p k) = V c main_arg1 (ix2 (Cert.Sage.rowIx (rowBlock1 t) p) k) := by
  show V c main_arg1 (((cfg1.win 0).blk t).view.emb (ix2 p k)) = _
  refine congrArg _ (funext fun a => Fin.ext ?_)
  have f := idx_facts1 t
  match a with
  | ⟨0, _⟩ => show win1_0.index t (0 : Fin 2) * 512 + 1 * p.val = 512 * t.val + p.val; omega
  | ⟨1, _⟩ => show win1_0.index t (1 : Fin 2) * 4096 + 1 * k.val = k.val; omega

/-- The right operand's window holds the first layer's left product whole at every point. -/
theorem whole1_1 (c : Dev nD) (t : Fin cfg1.N) : iblk1 V c 1 t = V c main_v5_0 := by
  funext y
  show V c main_v5_0 (((cfg1.win 1).blk t).view.emb y) = V c main_v5_0 y
  refine congrArg _ (funext fun a => Fin.ext ?_)
  have f := idx_facts1 t
  match a with
  | ⟨0, _⟩ => show win1_1.index t (0 : Fin 2) * 4096 + 1 * (y 0).val = (y 0).val; omega
  | ⟨1, _⟩ => show win1_1.index t (1 : Fin 2) * 128 + 1 * (y 1).val = (y 1).val; omega

/-- The block's scales. -/
theorem rows1_2 (c : Dev nD) (t : Fin cfg1.N) : iblk1 V c 2 t = Cert.Sage.rows1Of (V c main_v1) (rowBlock1 t) := by
  funext y
  show V c main_v1 (((cfg1.win 2).blk t).view.emb y) = V c main_v1 (ix2 (Cert.Sage.rowIx (rowBlock1 t) ⟨(y 0).val, _⟩) ⟨(y 1).val, _⟩)
  refine congrArg _ (funext fun a => Fin.ext ?_)
  have f := idx_facts1 t
  match a with
  | ⟨0, _⟩ => show win1_2.index t (0 : Fin 2) * 512 + 1 * (y 0).val = 512 * t.val + (y 0).val; omega
  | ⟨1, _⟩ => show win1_2.index t (1 : Fin 2) * 1 + 1 * (y 1).val = (y 1).val; omega

/-- The block's rows of the first layer's right product. -/
theorem rows1_3 (c : Dev nD) (t : Fin cfg1.N) : iblk1 V c 3 t = Cert.Sage.rowsOf (V c main_v5_1) (rowBlock1 t) := by
  funext y
  show V c main_v5_1 (((cfg1.win 3).blk t).view.emb y) = V c main_v5_1 (ix2 (Cert.Sage.rowIx (rowBlock1 t) ⟨(y 0).val, _⟩) ⟨(y 1).val, _⟩)
  refine congrArg _ (funext fun a => Fin.ext ?_)
  have f := idx_facts1 t
  match a with
  | ⟨0, _⟩ => show win1_3.index t (0 : Fin 2) * 512 + 1 * (y 0).val = 512 * t.val + (y 0).val; omega
  | ⟨1, _⟩ => show win1_3.index t (1 : Fin 2) * 128 + 1 * (y 1).val = (y 1).val; omega

/-! ## An array stacked from its eight row blocks, read through the output window's block; the blocks cover the rows -/

/-- The output window's block at point `t` of a stacked array is the stack's block `t`, entry by entry. -/
theorem read_stack1_4_apply (f : Fin 8 → Vec Ideal Cert.ReferenceIdeal.S512x128 .f32) (t : Fin cfg1.N) (y : S512x128.Idx) :
    Cert.Sage.stack f (((cfg1.win 4).blk t).view.emb y) = f (rowBlock1 t) y := by
  have he : ((cfg1.win 4).blk t).view.emb y = ix2 (Cert.Sage.rowIx (rowBlock1 t) ⟨(y 0).val, idx2_lt0 y⟩) ⟨(y 1).val, idx2_lt1 y⟩ := by
    funext a; apply Fin.ext
    have f := idx_facts1 t
    match a with
    | ⟨0, _⟩ => show win1_4.index t (0 : Fin 2) * 512 + 1 * (y 0).val = 512 * t.val + (y 0).val; omega
    | ⟨1, _⟩ => show win1_4.index t (1 : Fin 2) * 128 + 1 * (y 1).val = (y 1).val; omega
  refine (congrArg (Cert.Sage.stack f) he).trans ((Cert.Sage.stack_apply f (rowBlock1 t) ⟨(y 0).val, idx2_lt0 y⟩ ⟨(y 1).val, idx2_lt1 y⟩).trans ?_)
  exact congrArg (f (rowBlock1 t)) (funext fun a => by match a with | ⟨0, _⟩ => rfl | ⟨1, _⟩ => rfl)

/-- The same as whole blocks. -/
theorem read_stack1_4 (f : Fin 8 → Vec Ideal Cert.ReferenceIdeal.S512x128 .f32) (t : Fin cfg1.N) :
    ((cfg1.win 4).blk t).view.read (Elt Ideal) (Cert.Sage.stack f) = f (rowBlock1 t) :=
  funext fun y => read_stack1_4_apply f t y

/-- An index of the array is in point `t`'s block of the output window iff each coordinate is in the block's range. -/
theorem mem_blk1_4 (t : Fin cfg1.N) (i : S4096x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v6).slice (win1_4.rect t)).set ↔ _
  rw [View.set_slice_whole, Rect.mem_set_unit]
  exact Iff.rfl

/-- Every row is in the block of the point numbered by its row block. -/
theorem cover1_4 (i : S4096x128.Idx) : ∃ t : Fin cfg1.N, (cfg1.win 4).flush t = true ∧ i ∈ ((cfg1.win 4).blk t).view.set := by
  have hi0 : (i 0).val < 4096 := (i 0).isLt
  have hi1 : (i 1).val < 128 := (i 1).isLt
  let t : Fin cfg1.N := ⟨(i 0).val / 512, (by omega : (i 0).val / 512 < 8).trans_eq N_1.symm⟩
  have ht : t.val = (i 0).val / 512 := rfl
  refine ⟨t, flush1_4 t, ?_⟩
  rw [mem_blk1_4]
  have f := idx_facts1 t
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 128 ≤ (i 1).val ∧ (i 1).val < win1_4.index t (1 : Fin 2) * 128 + 128; omega

/-! ## The output window: the second layer -/

/-- What the body leaves in the output window's buffer is the specification's chain at the tile's product. -/
theorem out1_4_eq (x0 : Vec Ideal S512x4096 .f32) (x1 : Vec Ideal S4096x128 .bf16) (x2 : Vec Ideal S512x1 .f32)
    (x3 : Vec Ideal S512x128 .f32) :
    out1_4 (F := Ideal) x0 x1 x2 x3 = Cert.ReferenceIdeal.Gen.k1_pay3 (F := Ideal) (tileProd x0 x1) x2 x3 := by
  unfold out1_4
  rw [View.canon_unit_zero zeroOffsets1]
  simp only [View.ld_unit_zero (S := S512x4096) zeroOffsets1, View.ld_unit_zero (S := S4096x128) zeroOffsets1,
    View.ld_unit_zero (S := S512x1) zeroOffsets1, View.ld_unit_zero (S := S512x128) zeroOffsets1]
  exact layer2_eq x0 x1 x2 x3

/-- The second layer as an array: block `i` is the specification's chain of block `i`'s neighbour sum of the first layer's
    left product, its scales and its rows of the right product. -/
def outArr (c : Dev nD) : Vec Ideal Cert.ReferenceIdeal.S4096x128 .f32 :=
  Cert.Sage.stack fun i => Cert.ReferenceIdeal.Gen.k1_pay3 (F := Ideal) (Cert.Sage.aggOf (V c main_arg1) (V c main_v5_0) i)
    (Cert.Sage.rows1Of (V c main_v1) i) (Cert.Sage.rowsOf (V c main_v5_1) i)

/-- What point `t` writes back through the output window is block `t` of that array. -/
theorem flushed1_4_eq (c : Dev nD) (t : Fin cfg1.N) :
    (dat1 V c).flushed 4 t = ((cfg1.win 4).blk t).view.read (Elt Ideal) (outArr V c) := by
  show (cfg1.win 4).cut (grid1.coords t) ((dat1 V c).after 4 t) = _
  unfold outArr
  rw [after1_4, out1_4_eq (iblk1 V c 0 t) (iblk1 V c 1 t) (iblk1 V c 2 t) (iblk1 V c 3 t), read_stack1_4,
    tileProd_eq_agg (V c main_arg1) (V c main_v5_0) (rowBlock1 t) (iblk1 V c 0 t) (iblk1 V c 1 t) (tile1_apply V c t)
      (fun k q => congrFun (whole1_1 V c t) (ix2 k q)),
    rows1_2, rows1_3]
  rfl

/-- The output window's array after the region. -/
theorem arr1_4 (c : Dev nD) : (dat1 V c).arrAt 4 cfg1.N = outArr V c :=
  (dat1 V c).arrAt_eq_of_cover 4 (outArr V c) (fun t _ => flushed1_4_eq V c t) cover1_4

end Cert.KernelIdeal.Hand

end
-- ==== Proof.KerHost.lean ====
/- The kernel program's opening host stretches, read at the arrays its first region stages, over the extended reals. The
   features change float format (the identity on the extended reals); the per-node scale is reshaped into a column; the
   two narrow weight matrices and the narrow bias are padded on the right with 64 columns of the value the integer
   constant 0 converts to, which is the real number 0. The arguments the region stages directly come through unchanged:
   no host operation writes an argument. -/
import proofs.«175566_g2000702591456375_pallasbulk_739_2_alg».proof.Proof.Gen.KernelIdeal.Frame
import proofs.«175566_g2000702591456375_pallasbulk_739_2_alg».proof.Proof.Spec
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

variable (m : (ℓ : Loc nD τ sig) → Buf (Elt Ideal) ℓ) (ρ : Dev nD → PrngReg)

/-! ## What each opening stretch writes, and what it therefore leaves alone -/

/-- The buffers the six opening stretches write, stretch by stretch. -/
abbrev wr0 : List (Ref sig .tc) := [main_v0, main_v1, main_c]
abbrev wr1 : List (Ref sig .tc) := [main_call0_v0, main_v2]
abbrev wr2 : List (Ref sig .tc) := [main_c_0]
abbrev wr3 : List (Ref sig .tc) := [main_call1_v0, main_v3]
abbrev wr4 : List (Ref sig .tc) := [main_c_1]
abbrev wr5 : List (Ref sig .tc) := [main_call2_v0, main_v4]

theorem writes0 : (hostOps0 : List (HloOp τ sig (Elt Ideal))).Forall fun op => op.writes ⊆ (wr0.map (Proc.devRef (τ := τ) .tc)).toFinset := by
  simp only [List.Forall]
  exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩
theorem writes1 : (hostOps0_1 : List (HloOp τ sig (Elt Ideal))).Forall fun op => op.writes ⊆ (wr1.map (Proc.devRef (τ := τ) .tc)).toFinset := by
  simp only [List.Forall]
  exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩
theorem writes2 : (hostOps0_2 : List (HloOp τ sig (Elt Ideal))).Forall fun op => op.writes ⊆ (wr2.map (Proc.devRef (τ := τ) .tc)).toFinset := by
  simp only [List.Forall]
  simp only [StableHlo.nullary_writes, StableHlo.unary_writes, StableHlo.binary_writes, StableHlo.reshape_writes, Finset.singleton_subset_iff, List.mem_toFinset]; exact List.mem_map_of_mem (by decide)
theorem writes3 : (hostOps0_3 : List (HloOp τ sig (Elt Ideal))).Forall fun op => op.writes ⊆ (wr3.map (Proc.devRef (τ := τ) .tc)).toFinset := by
  simp only [List.Forall]
  exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩
theorem writes4 : (hostOps0_4 : List (HloOp τ sig (Elt Ideal))).Forall fun op => op.writes ⊆ (wr4.map (Proc.devRef (τ := τ) .tc)).toFinset := by
  simp only [List.Forall]
  simp only [StableHlo.nullary_writes, StableHlo.unary_writes, StableHlo.binary_writes, StableHlo.reshape_writes, Finset.singleton_subset_iff, List.mem_toFinset]; exact List.mem_map_of_mem (by decide)
theorem writes5 : (hostOps0_5 : List (HloOp τ sig (Elt Ideal))).Forall fun op => op.writes ⊆ (wr5.map (Proc.devRef (τ := τ) .tc)).toFinset := by
  simp only [List.Forall]
  exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩

/-- A buffer the last k stretches do not write is, after all six, what it was after the first 6 − k. -/
theorem W6_eq_W5 (c : Dev nD) (r : Ref sig .tc) (h5 : r ∉ wr5) :
    W6 m ρ c (Proc.devRef .tc r) = W5 m ρ c (Proc.devRef .tc r) :=
  StableHlo.after_of_writes_sub hostOps0_5 _ writes5 h5
theorem W6_eq_W2 (c : Dev nD) (r : Ref sig .tc) (h2 : r ∉ wr2) (h3 : r ∉ wr3) (h4 : r ∉ wr4) (h5 : r ∉ wr5) :
    W6 m ρ c (Proc.devRef .tc r) = W2 m ρ c (Proc.devRef .tc r) :=
  calc W6 m ρ c (Proc.devRef .tc r)
    _ = W5 m ρ c (Proc.devRef .tc r) := StableHlo.after_of_writes_sub hostOps0_5 _ writes5 h5
    _ = W4 m ρ c (Proc.devRef .tc r) := StableHlo.after_of_writes_sub hostOps0_4 _ writes4 h4
    _ = W3 m ρ c (Proc.devRef .tc r) := StableHlo.after_of_writes_sub hostOps0_3 _ writes3 h3
    _ = W2 m ρ c (Proc.devRef .tc r) := StableHlo.after_of_writes_sub hostOps0_2 _ writes2 h2
theorem W6_eq_W1 (c : Dev nD) (r : Ref sig .tc) (h1 : r ∉ wr1) (h2 : r ∉ wr2) (h3 : r ∉ wr3) (h4 : r ∉ wr4) (h5 : r ∉ wr5) :
    W6 m ρ c (Proc.devRef .tc r) = W1 m ρ c (Proc.devRef .tc r) :=
  (W6_eq_W2 m ρ c r h2 h3 h4 h5).trans (StableHlo.after_of_writes_sub hostOps0_1 _ writes1 h1)
theorem W4_eq_W1 (c : Dev nD) (r : Ref sig .tc) (h1 : r ∉ wr1) (h2 : r ∉ wr2) (h3 : r ∉ wr3) :
    W4 m ρ c (Proc.devRef .tc r) = W1 m ρ c (Proc.devRef .tc r) :=
  calc W4 m ρ c (Proc.devRef .tc r)
    _ = W3 m ρ c (Proc.devRef .tc r) := StableHlo.after_of_writes_sub hostOps0_3 _ writes3 h3
    _ = W2 m ρ c (Proc.devRef .tc r) := StableHlo.after_of_writes_sub hostOps0_2 _ writes2 h2
    _ = W1 m ρ c (Proc.devRef .tc r) := StableHlo.after_of_writes_sub hostOps0_1 _ writes1 h1
/-- A buffer no opening stretch writes reaches the first region as launched. -/
theorem W6_keep (c : Dev nD) (r : Ref sig .tc) (h0 : r ∉ wr0) (h1 : r ∉ wr1) (h2 : r ∉ wr2) (h3 : r ∉ wr3) (h4 : r ∉ wr4) (h5 : r ∉ wr5) :
    W6 m ρ c (Proc.devRef .tc r) = m ((c : Thread nD τ).loc r) :=
  (W6_eq_W1 m ρ c r h1 h2 h3 h4 h5).trans ((StableHlo.after_of_writes_sub hostOps0 _ writes0 h0).trans rfl)

/-! ## The first stretch's two results -/

theorem v0_after (V : Valuation τ sig (Elt Ideal)) :
    StableHlo.after hostOps0 V (Proc.devRef .tc main_v0) = V (Proc.devRef .tc main_arg0) := by
  after_results
  rfl

theorem v1_after (V : Valuation τ sig (Elt Ideal)) :
    StableHlo.after hostOps0 V (Proc.devRef .tc main_v1) = Cert.Sage.Dcol (V (Proc.devRef .tc main_arg2)) := by
  after_results
  funext j
  show shapeCast _ (V (Proc.devRef .tc main_arg2)) shapeCasts_S4096_S4096x1 j = _
  refine (shapeCast_apply _ _ j (ix1 ⟨(j 0).val, idx2_lt0 j⟩) ?_).trans rfl
  rw [Shape.rowMajor_val_one]
  refine Eq.trans ?_ (Shape.rowMajor_val_two (d := ![4096, 1]) j).symm
  show (j 0).val = (j 0).val * 1 + (j 1).val
  have := idx2_lt1 j
  omega

/-- The integer constant the first stretch writes is the zero word. -/
theorem c_after (V : Valuation τ sig (Elt Ideal)) :
    StableHlo.after hostOps0 V (Proc.devRef .tc main_c) = constantI S_ 32 0#32 := by
  after_results

/-! ## A padded array, entry by entry -/

/-- A 256×64 matrix padded on the right with 64 columns of the value the zero word converts to is the matrix with
    zero columns. -/
theorem pad_cols_zero (x : Vec Ideal S256x64 .f32) :
    pad S256x128 ![0, 0] ![0, 64] ![0, 0] x (sitofp (F := Ideal) .f32 (constantI S_ 32 0#32)) pads_S256x64_S256x128_000_0640 h_S_
      = Cert.Sage.padCols x := by
  funext j
  unfold Cert.Sage.padCols
  by_cases h : (j 1).val < 64
  · rw [dif_pos h]
    exact pad_apply_of_inside _ _ _ x _ pads_S256x64_S256x128_000_0640 h_S_ j (ix2 ⟨(j 0).val, idx2_lt0 j⟩ ⟨(j 1).val, h⟩) (fun a => by
      match a with
      | ⟨0, _⟩ => show (j 0).val = 0 + (j 0).val * (0 + 1); omega
      | ⟨1, _⟩ => show (j 1).val = 0 + (j 1).val * (0 + 1); omega)
  · rw [dif_neg h]
    refine (pad_apply_of_not_inside _ _ _ x _ pads_S256x64_S256x128_000_0640 h_S_ j (1 : Fin 2) (fun hin => h ?_)).trans ?_
    · have h3 : ((j 1).val - 0) / (0 + 1) < 64 := hin.2.2
      omega
    · show Scalar.sitofp (F := Ideal) .f32 0#32 = 0
      exact sitofp_zero

/-- The same for a 1×64 row. -/
theorem pad_row_zero (x : Vec Ideal S1x64 .f32) :
    pad S1x128 ![0, 0] ![0, 64] ![0, 0] x (sitofp (F := Ideal) .f32 (constantI S_ 32 0#32)) pads_S1x64_S1x128_000_0640 h_S_
      = Cert.Sage.padRow x := by
  funext j
  unfold Cert.Sage.padRow
  by_cases h : (j 1).val < 64
  · rw [dif_pos h]
    exact pad_apply_of_inside _ _ _ x _ pads_S1x64_S1x128_000_0640 h_S_ j (ix2 ⟨(j 0).val, idx2_lt0 j⟩ ⟨(j 1).val, h⟩) (fun a => by
      match a with
      | ⟨0, _⟩ => show (j 0).val = 0 + (j 0).val * (0 + 1); omega
      | ⟨1, _⟩ => show (j 1).val = 0 + (j 1).val * (0 + 1); omega)
  · rw [dif_neg h]
    refine (pad_apply_of_not_inside _ _ _ x _ pads_S1x64_S1x128_000_0640 h_S_ j (1 : Fin 2) (fun hin => h ?_)).trans ?_
    · have h3 : ((j 1).val - 0) / (0 + 1) < 64 := hin.2.2
      omega
    · show Scalar.sitofp (F := Ideal) .f32 0#32 = 0
      exact sitofp_zero

/-! ## The three padding calls -/

theorem v2_after (V : Valuation τ sig (Elt Ideal)) :
    StableHlo.after hostOps0_1 V (Proc.devRef .tc main_v2)
      = pad S256x128 ![0, 0] ![0, 64] ![0, 0] (V (Proc.devRef .tc main_arg6)) (sitofp (F := Ideal) .f32 (V (Proc.devRef .tc main_c))) pads_S256x64_S256x128_000_0640 h_S_ := by
  after_results
  rfl

theorem c0_after (V : Valuation τ sig (Elt Ideal)) :
    StableHlo.after hostOps0_2 V (Proc.devRef .tc main_c_0) = constantI S_ 32 0#32 := by
  after_results
theorem v3_after (V : Valuation τ sig (Elt Ideal)) :
    StableHlo.after hostOps0_3 V (Proc.devRef .tc main_v3)
      = pad S256x128 ![0, 0] ![0, 64] ![0, 0] (V (Proc.devRef .tc main_arg7)) (sitofp (F := Ideal) .f32 (V (Proc.devRef .tc main_c_0))) pads_S256x64_S256x128_000_0640 h_S_ := by
  after_results
  rfl
theorem c1_after (V : Valuation τ sig (Elt Ideal)) :
    StableHlo.after hostOps0_4 V (Proc.devRef .tc main_c_1) = constantI S_ 32 0#32 := by
  after_results
theorem v4_after (V : Valuation τ sig (Elt Ideal)) :
    StableHlo.after hostOps0_5 V (Proc.devRef .tc main_v4)
      = pad S1x128 ![0, 0] ![0, 64] ![0, 0] (V (Proc.devRef .tc main_arg8)) (sitofp (F := Ideal) .f32 (V (Proc.devRef .tc main_c_1))) pads_S1x64_S1x128_000_0640 h_S_ := by
  after_results
  rfl

/-! ## The arrays the first region stages -/

/-- The features in the narrow float format are the feature argument. -/
theorem W6_v0 (c : Dev nD) : W6 m ρ c (Proc.devRef .tc main_v0) = (m ((c : Thread nD τ).loc main_arg0)) :=
  (W6_eq_W1 m ρ c main_v0 (by decide) (by decide) (by decide) (by decide) (by decide)).trans ((v0_after (W0 m ρ c)).trans rfl)
/-- The per-node scale as the regions find it is the scale argument as a column. -/
theorem W6_v1 (c : Dev nD) : W6 m ρ c (Proc.devRef .tc main_v1) = Cert.Sage.Dcol (m ((c : Thread nD τ).loc main_arg2)) :=
  (W6_eq_W1 m ρ c main_v1 (by decide) (by decide) (by decide) (by decide) (by decide)).trans ((v1_after (W0 m ρ c)).trans rfl)
/-- The two narrow weights and the narrow bias are the arguments padded with zero columns. -/
theorem W6_v2 (c : Dev nD) : W6 m ρ c (Proc.devRef .tc main_v2) = Cert.Sage.padCols (m ((c : Thread nD τ).loc main_arg6)) := by
  refine (W6_eq_W2 m ρ c main_v2 (by decide) (by decide) (by decide) (by decide)).trans ((v2_after (W1 m ρ c)).trans ?_)
  have hc : W1 m ρ c (Proc.devRef .tc main_c) = constantI S_ 32 0#32 := c_after (W0 m ρ c)
  have ha : W1 m ρ c (Proc.devRef .tc main_arg6) = m ((c : Thread nD τ).loc main_arg6) :=
    (StableHlo.after_of_writes_sub hostOps0 _ writes0 (by decide)).trans rfl
  rw [hc, ha]
  exact pad_cols_zero _
theorem W6_v3 (c : Dev nD) : W6 m ρ c (Proc.devRef .tc main_v3) = Cert.Sage.padCols (m ((c : Thread nD τ).loc main_arg7)) := by
  refine (W6_eq_W5 m ρ c main_v3 (by decide)).trans ((StableHlo.after_of_writes_sub hostOps0_4 _ writes4 (by decide)).trans ((v3_after (W3 m ρ c)).trans ?_))
  have hc : W3 m ρ c (Proc.devRef .tc main_c_0) = constantI S_ 32 0#32 := c0_after (W2 m ρ c)
  have ha : W3 m ρ c (Proc.devRef .tc main_arg7) = m ((c : Thread nD τ).loc main_arg7) :=
    calc W3 m ρ c (Proc.devRef .tc main_arg7)
      _ = W2 m ρ c (Proc.devRef .tc main_arg7) := StableHlo.after_of_writes_sub hostOps0_2 _ writes2 (by decide)
      _ = W1 m ρ c (Proc.devRef .tc main_arg7) := StableHlo.after_of_writes_sub hostOps0_1 _ writes1 (by decide)
      _ = W0 m ρ c (Proc.devRef .tc main_arg7) := StableHlo.after_of_writes_sub hostOps0 _ writes0 (by decide)
      _ = m ((c : Thread nD τ).loc main_arg7) := rfl
  rw [hc, ha]
  exact pad_cols_zero _
theorem W6_v4 (c : Dev nD) : W6 m ρ c (Proc.devRef .tc main_v4) = Cert.Sage.padRow (m ((c : Thread nD τ).loc main_arg8)) := by
  refine (v4_after (W5 m ρ c)).trans ?_
  have hc : W5 m ρ c (Proc.devRef .tc main_c_1) = constantI S_ 32 0#32 := c1_after (W4 m ρ c)
  have ha : W5 m ρ c (Proc.devRef .tc main_arg8) = m ((c : Thread nD τ).loc main_arg8) :=
    calc W5 m ρ c (Proc.devRef .tc main_arg8)
      _ = W4 m ρ c (Proc.devRef .tc main_arg8) := StableHlo.after_of_writes_sub hostOps0_4 _ writes4 (by decide)
      _ = W1 m ρ c (Proc.devRef .tc main_arg8) := W4_eq_W1 m ρ c main_arg8 (by decide) (by decide) (by decide)
      _ = W0 m ρ c (Proc.devRef .tc main_arg8) := StableHlo.after_of_writes_sub hostOps0 _ writes0 (by decide)
      _ = m ((c : Thread nD τ).loc main_arg8) := rfl
  rw [hc, ha]
  exact pad_row_zero _
/-- The arguments the first region stages directly reach it as launched. -/
theorem W6_arg0 (c : Dev nD) : W6 m ρ c (Proc.devRef .tc main_arg0) = (m ((c : Thread nD τ).loc main_arg0)) :=
  W6_keep m ρ c main_arg0 (by decide) (by decide) (by decide) (by decide) (by decide) (by decide)
theorem W6_arg1 (c : Dev nD) : W6 m ρ c (Proc.devRef .tc main_arg1) = (m ((c : Thread nD τ).loc main_arg1)) :=
  W6_keep m ρ c main_arg1 (by decide) (by decide) (by decide) (by decide) (by decide) (by decide)
theorem W6_arg3 (c : Dev nD) : W6 m ρ c (Proc.devRef .tc main_arg3) = (m ((c : Thread nD τ).loc main_arg3)) :=
  W6_keep m ρ c main_arg3 (by decide) (by decide) (by decide) (by decide) (by decide) (by decide)
theorem W6_arg4 (c : Dev nD) : W6 m ρ c (Proc.devRef .tc main_arg4) = (m ((c : Thread nD τ).loc main_arg4)) :=
  W6_keep m ρ c main_arg4 (by decide) (by decide) (by decide) (by decide) (by decide) (by decide)
theorem W6_arg5 (c : Dev nD) : W6 m ρ c (Proc.devRef .tc main_arg5) = (m ((c : Thread nD τ).loc main_arg5)) :=
  W6_keep m ρ c main_arg5 (by decide) (by decide) (by decide) (by decide) (by decide) (by decide)

end Cert.KernelIdeal.Hand

end
-- ==== Proof.KerValue.lean ====
/- The kernel program read as values over the extended reals. Each of its two regions makes one pass over the eight row
   blocks with a single product against all 4096 columns, which is the neighbour sum itself; what follows the sum is the
   same operation chain as the specification's, the changes of float format being the identity. With the host
   operations before the regions read at an index (the scale as a column, the narrow weights and bias padded with
   zeros) and the closing slice, the result buffer is the specification's result of the nine arguments. -/
import proofs.«175566_g2000702591456375_pallasbulk_739_2_alg».proof.Proof.KerRun
import proofs.«175566_g2000702591456375_pallasbulk_739_2_alg».proof.Proof.Spec
import proofs.«175566_g2000702591456375_pallasbulk_739_2_alg».proof.Proof.KerValueB
import proofs.«175566_g2000702591456375_pallasbulk_739_2_alg».proof.Proof.KerValueC
import proofs.«175566_g2000702591456375_pallasbulk_739_2_alg».proof.Proof.KerHost
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

variable (m : (ℓ : Loc nD τ sig) → Buf (Elt Ideal) ℓ) (ρ : Dev nD → PrngReg)

/-- The closing slice keeps the first 64 columns. -/
theorem slice_eq (O : Vec Ideal S4096x128 .f32) :
    extractStridedSlice S4096x64 ![0, 0] O slices_S4096x128_S4096x64_0_0 = Cert.Sage.firstCols O := by
  funext j
  refine extractStridedSlice_apply _ O _ j (ix2 ⟨(j 0).val, idx2_lt0 j⟩ ⟨(j 1).val, by have := idx2_lt1 j; omega⟩) fun a => ?_
  match a with
  | ⟨0, _⟩ => show (j 0).val = 0 + (j 0).val; omega
  | ⟨1, _⟩ => show (j 1).val = 0 + (j 1).val; omega

/-- The result buffer at the last boundary is the slice of region 1's output array. -/
theorem W9_v7 (c : Dev nD) :
    W9 m ρ c (Proc.devRef .tc main_v7)
      = extractStridedSlice S4096x64 ![0, 0] (W8 m ρ c (Proc.devRef .tc main_v6)) slices_S4096x128_S4096x64_0_0 := by
  show StableHlo.after hostOps2 (W8 m ρ c) (Proc.devRef .tc main_v7) = _
  after_results

/-- Region 1's output array at its exit is the second layer's stack of what region 1 was entered with. -/
theorem W8_v6 (c : Dev nD) : W8 m ρ c (Proc.devRef .tc main_v6) = outArr (V7 m ρ) c :=
  (W8_arr m ρ c 4).trans (arr1_4 (V7 m ρ) c)

/-- Region 0 leaves the adjacency matrix and the scale column as it found them, and its two outputs at their stacks. -/
theorem W7_arg1 (c : Dev nD) : W7 m ρ c (Proc.devRef .tc main_arg1) = W6 m ρ c (Proc.devRef .tc main_arg1) :=
  (W7_arr m ρ c 0).trans (((dat0 (V6 m ρ) c).arrAt_in 0 rfl _).trans (A_eq0 (V6 m ρ) c 0))
theorem W7_v1 (c : Dev nD) : W7 m ρ c (Proc.devRef .tc main_v1) = W6 m ρ c (Proc.devRef .tc main_v1) :=
  (W7_arr m ρ c 3).trans (((dat0 (V6 m ρ) c).arrAt_in 3 rfl _).trans (A_eq0 (V6 m ρ) c 3))
theorem W7_v5_0 (c : Dev nD) : W7 m ρ c (Proc.devRef .tc main_v5_0) = leftArr (V6 m ρ) c :=
  (W7_arr m ρ c 10).trans (arr0_10 (V6 m ρ) c)
theorem W7_v5_1 (c : Dev nD) : W7 m ρ c (Proc.devRef .tc main_v5_1) = rightArr (V6 m ρ) c :=
  (W7_arr m ρ c 11).trans (arr0_11 (V6 m ρ) c)

/-- With the host operations before the regions read, region 0's first output is the specification's left product … -/
theorem left_is_Z2 (c : Dev nD) : leftArr (V6 m ρ) c
    = Cert.Sage.Z2 (m ((c : Thread nD τ).loc main_arg1)) (m ((c : Thread nD τ).loc main_arg0)) (Cert.Sage.Dcol (m ((c : Thread nD τ).loc main_arg2))) (m ((c : Thread nD τ).loc main_arg3)) (m ((c : Thread nD τ).loc main_arg4)) (m ((c : Thread nD τ).loc main_arg5)) (Cert.Sage.padCols (m ((c : Thread nD τ).loc main_arg6))) := by
  unfold leftArr Cert.Sage.Z2
  dsimp only [V6]
  rw [W6_arg1, W6_v0, W6_v1, W6_arg0, W6_arg3, W6_arg4, W6_arg5, W6_v2]

/-- … and its second output the specification's right product plus bias. -/
theorem right_is_S2 (c : Dev nD) : rightArr (V6 m ρ) c
    = Cert.Sage.S2 (m ((c : Thread nD τ).loc main_arg1)) (m ((c : Thread nD τ).loc main_arg0)) (Cert.Sage.Dcol (m ((c : Thread nD τ).loc main_arg2))) (m ((c : Thread nD τ).loc main_arg3)) (m ((c : Thread nD τ).loc main_arg4)) (m ((c : Thread nD τ).loc main_arg5)) (Cert.Sage.padCols (m ((c : Thread nD τ).loc main_arg7))) (Cert.Sage.padRow (m ((c : Thread nD τ).loc main_arg8))) := by
  unfold rightArr Cert.Sage.S2
  dsimp only [V6]
  rw [W6_arg1, W6_v0, W6_v1, W6_arg0, W6_arg3, W6_arg4, W6_arg5, W6_v3, W6_v4]

/-- The result buffer at the last boundary of @main is the specification's result of the launch memory's arguments. -/
theorem ker_result (c : Dev nD) :
    W9 m ρ c (Proc.devRef .tc main_v7)
      = Cert.Sage.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [W9_v7, W8_v6, slice_eq]
  unfold Cert.Sage.result
  refine congrArg Cert.Sage.firstCols ?_
  unfold outArr Cert.Sage.OUT
  dsimp only [V7]
  rw [W7_arg1, W7_v5_0, W7_v1, W7_v5_1, left_is_Z2, right_is_S2, W6_arg1, W6_v1]

end Cert.KernelIdeal.Hand

end
-- ==== Proof.RefEntry.lean ====
/- The contents a kernel region of the reference program is entered from: one buffer per TensorCore reference, per core.
   Both regions' statements take such a family as a parameter. -/
import proofs.«175566_g2000702591456375_pallasbulk_739_2_alg».proof.Proof.Gen.ReferenceIdeal.Launch

noncomputable section

namespace Cert.ReferenceIdeal.Hand

open Idealize.ShloMosaic Idealize.ShloMosaic.TcCoe
open Cert.ReferenceIdeal

/-- The TensorCore's buffer contents when a region is entered: one buffer per reference, per core. -/
abbrev EntryVal (F : FTy → Type) : Type := (c : Dev nD) → (b : Ref sig .tc) → Buf (Elt F) ((c : Thread nD τ).loc b)

end Cert.ReferenceIdeal.Hand

end
-- ==== Proof.RefRegion0RunA.lean ====
/- Region 0 of the reference program, the body's first control case and what the three cases share: the two branch
   conditions in closed form over the grid, where the output windows are idle, the staging memrefs at a point, the
   carried accumulator as a memref, and the body's run at a point of the first column block. -/
import proofs.«175566_g2000702591456375_pallasbulk_739_2_alg».proof.Proof.RefEntry
import proofs.«175566_g2000702591456375_pallasbulk_739_2_alg».proof.Proof.Gen.ReferenceIdeal.Launch
import proofs.«175566_g2000702591456375_pallasbulk_739_2_alg».proof.Proof.Gen.ReferenceIdeal.Skeleton
import proofs.«175566_g2000702591456375_pallasbulk_739_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ReferenceIdeal Cert.ReferenceIdeal.Gen

variable {F : FTy → Type} [FloatOps F]

local notation "𝕄" => MT nD τ sig Unit (Elt F) ℕ (UR sig nD τ) ℕ

/-! ## The body's two branch conditions, in closed form over the grid -/

/-- The first conditional's condition (the column block is the first one), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition (the column block is the last one). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Output 9 is idle off the last column block, and not written back there. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
/-- Output 10 is idle off the last column block, and not written back there. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

/-! ## The staging memrefs at a point, the carried buffer -/

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
/-- The carried accumulator: a whole scoped buffer of the kernel's own. -/
abbrev scM0_0 : Memref sig .tc .vmem S512x128 .f32 := Memref.whole cc0_scratch0
abbrev VS0_0 : View sig .tc .vmem S512x128 .f32 := scM0_0.view
abbrev VO0_9 : View sig .tc .vmem S512x128 .f32 := (Memref.whole cc0_stg9_0 : Memref sig .tc .vmem S512x128 .f32).view
abbrev VO0_10 : View sig .tc .vmem S512x128 .f32 := (Memref.whole cc0_stg10_0 : Memref sig .tc .vmem S512x128 .f32).view

/-- The core's other scoped buffers (the second region's staging buffers and accumulator), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the region, with the carried accumulator as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

set_option maxHeartbeats 1000000 in
/-- The body at a point of the first column block (the first conditional taken, the second not): the carried
    accumulator at anything (it is reset before it is read); otherwise as for a middle block. -/
noncomputable def kernelRun0_A (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) :
    { LS0 : List (View.Piece (Elt F) S512x128 .f32) //
      ∀ (xi9 xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__sage_layer1_kernel i arg2 harg2 arg3 harg3 arg4 harg4 arg5 harg5 arg6 harg6 arg7 harg7 arg8 harg8 arg9 harg9 arg10 harg10 arg11 harg11 arg12 harg12 arg13 harg13) K } := by
  refine ⟨?_, fun xi9 xi10 E K => ?run⟩
  case run =>
    simp only [cc0__sage_layer1_kernel_eq_skeleton]; unfold cc0__sage_layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.ReferenceIdeal.Hand

end
-- ==== Proof.RefRegion0RunB.lean ====
/- Region 0 of the reference program: the body's run at a point of a middle column block. -/
import proofs.«175566_g2000702591456375_pallasbulk_739_2_alg».proof.Proof.RefRegion0RunA

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ReferenceIdeal Cert.ReferenceIdeal.Gen

variable {F : FTy → Type} [FloatOps F]

local notation "𝕄" => MT nD τ sig Unit (Elt F) ℕ (UR sig nD τ) ℕ

set_option maxHeartbeats 1000000 in
/-- The body at a point of a middle column block (neither conditional taken): on whole staging memrefs, the inputs at
    their contents, the two outputs at contents handed back untouched, the carried accumulator at what the point before
    left, it runs to the continuation holding the inputs and outputs as they were and the accumulator with the found
    pieces written. -/
noncomputable def kernelRun0_B (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) :
    { LS0 : List (View.Piece (Elt F) S512x128 .f32) //
      ∀ (xi9 xi10 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__sage_layer1_kernel i arg2 harg2 arg3 harg3 arg4 harg4 arg5 harg5 arg6 harg6 arg7 harg7 arg8 harg8 arg9 harg9 arg10 harg10 arg11 harg11 arg12 harg12 arg13 harg13) K } := by
  refine ⟨?_, fun xi9 xi10 E K => ?run⟩
  case run =>
    simp only [cc0__sage_layer1_kernel_eq_skeleton]; unfold cc0__sage_layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.ReferenceIdeal.Hand

end
-- ==== Proof.RefRegion0RunC.lean ====
/- Region 0 of the reference program: the body's run at a point of the last column block (the accumulation step,
   then the layer's epilogue into the two output windows). -/
import proofs.«175566_g2000702591456375_pallasbulk_739_2_alg».proof.Proof.RefRegion0RunA

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ReferenceIdeal Cert.ReferenceIdeal.Gen

variable {F : FTy → Type} [FloatOps F]

local notation "𝕄" => MT nD τ sig Unit (Elt F) ℕ (UR sig nD τ) ℕ

set_option maxHeartbeats 1000000 in
/-- The body at a point of the last column block (the first conditional not taken, the second taken): the two outputs
    at anything, each left with the found pieces written; the accumulator at what the point before left. -/
noncomputable def kernelRun0_C (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) :
    Σ' (L9 : List (View.Piece (Elt F) S512x128 .f32)) (L10 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0__sage_layer1_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__sage_layer1_kernel_eq_skeleton]; unfold cc0__sage_layer1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS0

end Cert.ReferenceIdeal.Hand

end
-- ==== Proof.RefRegion0.lean ====
/- Region 0 of the reference program (the first layer: the neighbour sum accumulated over eight column blocks in a
   carried buffer, then the layer's epilogue at the last column block): what each staging buffer and the carried
   accumulator hold after every grid point, and that the kernel body runs between those contents. -/
import proofs.«175566_g2000702591456375_pallasbulk_739_2_alg».proof.Proof.RefEntry
import proofs.«175566_g2000702591456375_pallasbulk_739_2_alg».proof.Proof.Gen.ReferenceIdeal.Launch
import proofs.«175566_g2000702591456375_pallasbulk_739_2_alg».proof.Proof.Gen.ReferenceIdeal.Skeleton
import proofs.«175566_g2000702591456375_pallasbulk_739_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import proofs.«175566_g2000702591456375_pallasbulk_739_2_alg».proof.Proof.RefRegion0RunB
import proofs.«175566_g2000702591456375_pallasbulk_739_2_alg».proof.Proof.RefRegion0RunC

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ReferenceIdeal Cert.ReferenceIdeal.Gen

variable {F : FTy → Type} [FloatOps F]

local notation "𝕄" => MT nD τ sig Unit (Elt F) ℕ (UR sig nD τ) ℕ

/-! ## Region 0: blocks, the two row slices of the resident feature array, the carried accumulator -/

/-- Window `w`'s block at point `t`, read off its array as the region finds it. -/
def iblk0 (V : EntryVal F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hz2 : (![0, 0] : Fin 2 → Nat) = fun _ => 0 := by funext a; fin_cases a <;> rfl

/-- The row-block slice is inside the feature array at every grid point, whatever the column block. -/
theorem k0_off2_inb' : ∀ i : grid0.Coords, ∀ a, (k0_off2 i) a + S512x128.size a ≤ S4096x128.size a := by decide +kernel

/-- The two slices' offsets from the point's position in the grid. -/
theorem off1_closed : ∀ t : Fin cfg0.N, k0_off1 (grid0.coords t) = ![512 * (t.val % 8), 0] :=
  (by decide +kernel : ∀ t : Fin grid0.N, k0_off1 (grid0.coords t) = ![512 * (t.val % 8), 0])
theorem off2_closed : ∀ t : Fin cfg0.N, k0_off2 (grid0.coords t) = ![512 * (t.val / 8), 0] :=
  (by decide +kernel : ∀ t : Fin grid0.N, k0_off2 (grid0.coords t) = ![512 * (t.val / 8), 0])

/-- Rows `512·k … 512·k+511` of the resident feature array, `k = t mod 8` the column block of point `t`. -/
def xk0 (V : EntryVal F) (c : Dev nD) (t : Fin cfg0.N) : Vec F S512x128 .f32 :=
  View.ld (iblk0 V c 1 t : Vec F S4096x128 .f32) (Rect.unit (s := S4096x128) (k0_off1 (grid0.coords t)) S512x128.size (k0_off1_inb (grid0.coords t)))

/-- Rows `512·i … 512·i+511` of the resident feature array, `i = t / 8` the row block of point `t`. -/
def xi0 (V : EntryVal F) (c : Dev nD) (t : Fin cfg0.N) : Vec F S512x128 .f32 :=
  View.ld (iblk0 V c 1 t : Vec F S4096x128 .f32) (Rect.unit (s := S4096x128) (k0_off2 (grid0.coords t)) S512x128.size (k0_off2_inb' (grid0.coords t)))

/-- Window 1's block is the whole feature array at every point. -/
theorem iblk0_1 (V : EntryVal F) (c : Dev nD) (t : Fin cfg0.N) : (iblk0 V c 1 t : Vec F S4096x128 .f32) = V c main_v7 := by
  have hz : (fun a => (win0_1.index t) a * main_v7.ty.shape.size a) = fun _ => 0 := funext fun a => by fin_cases a <;> rfl
  exact Memref.read_access_unit_zero (Elt F) main_v7 hz _ _

theorem xk0_apply (V : EntryVal F) (c : Dev nD) (t : Fin cfg0.N) (p : Fin 512) (q : Fin 128) :
    xk0 V c t (ix2 p q) = (V c main_v7 : Vec F S4096x128 .f32) (ix2 ⟨512 * (t.val % 8) + p.val, by omega⟩ q) := by
  unfold xk0; rw [iblk0_1]
  show (V c main_v7 : Vec F S4096x128 .f32) _ = _
  congr 1
  funext a
  apply Fin.ext
  match a with
  | ⟨0, _⟩ => show k0_off1 (grid0.coords t) 0 + 1 * p.val = 512 * (t.val % 8) + p.val; rw [off1_closed t]; simp
  | ⟨1, _⟩ => show k0_off1 (grid0.coords t) 1 + 1 * q.val = q.val; rw [off1_closed t]; simp

theorem xi0_apply (V : EntryVal F) (c : Dev nD) (t : Fin cfg0.N) (p : Fin 512) (q : Fin 128) :
    xi0 V c t (ix2 p q) = (V c main_v7 : Vec F S4096x128 .f32) (ix2 ⟨512 * (t.val / 8) + p.val, by have := t.isLt; have : cfg0.N = 64 := N_0; omega⟩ q) := by
  unfold xi0; rw [iblk0_1]
  show (V c main_v7 : Vec F S4096x128 .f32) _ = _
  congr 1
  funext a
  apply Fin.ext
  match a with
  | ⟨0, _⟩ => show k0_off2 (grid0.coords t) 0 + 1 * p.val = 512 * (t.val / 8) + p.val; rw [off2_closed t]; simp
  | ⟨1, _⟩ => show k0_off2 (grid0.coords t) 1 + 1 * q.val = q.val; rw [off2_closed t]; simp

/-- The carried accumulator after point `n`. -/
def acc0 (V : EntryVal F) (c : Dev nD) : (n : ℕ) → n < cfg0.N → Vec F S512x128 .f32
  | 0, hn => k0_pay2 (xk0 V c ⟨0, hn⟩) (k0_pay1 (F := F)) (iblk0 V c 0 ⟨0, hn⟩)
  | n + 1, hn =>
    if (n + 1) % 8 = 0 then k0_pay2 (xk0 V c ⟨n + 1, hn⟩) (k0_pay1 (F := F)) (iblk0 V c 0 ⟨n + 1, hn⟩)
    else k0_pay2 (xk0 V c ⟨n + 1, hn⟩) (acc0 V c n (Nat.lt_of_succ_lt hn)) (iblk0 V c 0 ⟨n + 1, hn⟩)

theorem acc0_first (V : EntryVal F) (c : Dev nD) (t : Fin cfg0.N) (h : t.val % 8 = 0) :
    acc0 V c t.val t.isLt = k0_pay2 (xk0 V c t) (k0_pay1 (F := F)) (iblk0 V c 0 t) := by
  obtain ⟨n, hn⟩ := t
  cases n with
  | zero => rfl
  | succ n => exact if_pos h

theorem acc0_next (V : EntryVal F) (c : Dev nD) (t : Fin cfg0.N) (h : t.val % 8 ≠ 0) :
    acc0 V c t.val t.isLt = k0_pay2 (xk0 V c t) (acc0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

theorem scover0_A (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S512x128.size (by sl_kernel_rfl) y

/-- What a first column block's point leaves in the accumulator, read back through any view over any prior contents:
    the accumulation step over the reset accumulator. -/
theorem sout0_A (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (v : View sig .tc .vmem S512x128 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)
      = k0_pay2 (View.ld x1 (Rect.unit (s := S4096x128) (k0_off1 i) S512x128.size (k0_off1_inb i))) (k0_pay1 (F := F)) x0 := by
  rw [View.read_writes_eq_canon _ _ _ (scover0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A; dsimp only; sl_unfold_run_names
  rw [View.canon_cons_unit_zero (S := S512x128) hz2]
  simp only [View.readAt_eq_ld, Memref.IsWhole.read_unread, View.readCov_unit_zero (S := S512x128) _ hz2, View.ld_unit_zero (S := S512x128) hz2, View.ld_unit_zero (S := S512x512) hz2]

theorem scover0_B (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) (y : S512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 S512x128.size (by sl_kernel_rfl) y

/-- What a middle column block's point leaves in the accumulator, read back through any view over any prior contents:
    the accumulation step over what the point before left. -/
theorem sout0_B (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) (v : View sig .tc .vmem S512x128 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1)
      = k0_pay2 (View.ld x1 (Rect.unit (s := S4096x128) (k0_off1 i) S512x128.size (k0_off1_inb i))) xs0 x0 := by
  rw [View.read_writes_eq_canon _ _ _ (scover0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_B; dsimp only; sl_unfold_run_names
  rw [View.canon_unit_zero hz2]
  simp only [View.readAt_eq_ld, Memref.IsWhole.read_unread, View.ld_unit_zero (S := S512x128) hz2, View.ld_unit_zero (S := S512x512) hz2]

theorem cover0_C_9 (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) (y : S512x128.Idx) : ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 S512x128.size (by sl_kernel_rfl) y
theorem cover0_C_10 (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) (y : S512x128.Idx) : ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 S512x128.size (by sl_kernel_rfl) y
theorem scover0_C (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) (y : S512x128.Idx) : ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1 S512x128.size (by sl_kernel_rfl) y

/-- What a last column block's point leaves in the accumulator: the accumulation step over what the point before left. -/
theorem sout0_C (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) (v : View sig .tc .vmem S512x128 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1) = (k0_pay2 (View.ld x1 (Rect.unit (s := S4096x128) (k0_off1 i) S512x128.size (k0_off1_inb i))) xs0 x0) := by
  rw [View.read_writes_eq_canon _ _ _ (scover0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C; dsimp only; sl_unfold_run_names
  rw [View.canon_unit_zero hz2]
  simp only [View.readAt_eq_ld, Memref.IsWhole.read_unread, View.readCov_unit_zero (S := S512x128) _ hz2, View.ld_unit_zero (S := S512x128) hz2, View.ld_unit_zero (S := S512x512) hz2, View.ld_unit_zero (S := S512x1) hz2, View.ld_unit_zero (S := S128x256) hz2, View.ld_unit_zero (S := S1x256) hz2, View.ld_unit_zero (S := S256x128) hz2, View.ld_unit_zero (S := S1x128) hz2]

/-- What it leaves in the first output window's buffer: the epilogue's second projection of the normalised, rectified
    hidden rows, from this point's accumulator. -/
theorem out0_C_9 (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) (v : View sig .tc .vmem S512x128 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1) = k0_pay5 (k0_pay2 (View.ld x1 (Rect.unit (s := S4096x128) (k0_off1 i) S512x128.size (k0_off1_inb i))) xs0 x0) x2 (View.ld x1 (Rect.unit (s := S4096x128) (k0_off2 i) S512x128.size (k0_off2_inb i hc1))) x3 x4 x5 x6 := by
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C; dsimp only; sl_unfold_run_names
  rw [View.canon_unit_zero hz2]
  simp only [View.readAt_eq_ld, Memref.IsWhole.read_unread, View.readCov_unit_zero (S := S512x128) _ hz2, View.ld_unit_zero (S := S512x128) hz2, View.ld_unit_zero (S := S512x512) hz2, View.ld_unit_zero (S := S512x1) hz2, View.ld_unit_zero (S := S128x256) hz2, View.ld_unit_zero (S := S1x256) hz2, View.ld_unit_zero (S := S256x128) hz2, View.ld_unit_zero (S := S1x128) hz2]

/-- What it leaves in the second output window's buffer. -/
theorem out0_C_10 (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs0 : Vec F S512x128 .f32) (v : View sig .tc .vmem S512x128 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1) = k0_pay3 (k0_pay4 (k0_pay2 (View.ld x1 (Rect.unit (s := S4096x128) (k0_off1 i) S512x128.size (k0_off1_inb i))) xs0 x0) x2 (View.ld x1 (Rect.unit (s := S4096x128) (k0_off2 i) S512x128.size (k0_off2_inb i hc1))) x3 x4 x5) x7 x8 := by
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C; dsimp only; sl_unfold_run_names
  rw [View.canon_unit_zero hz2]
  simp only [View.readAt_eq_ld, Memref.IsWhole.read_unread, View.readCov_unit_zero (S := S512x128) _ hz2, View.ld_unit_zero (S := S512x128) hz2, View.ld_unit_zero (S := S512x512) hz2, View.ld_unit_zero (S := S512x1) hz2, View.ld_unit_zero (S := S128x256) hz2, View.ld_unit_zero (S := S1x256) hz2, View.ld_unit_zero (S := S256x128) hz2, View.ld_unit_zero (S := S1x128) hz2]

/-! ## The input windows: each staging buffer holds its block at every point -/

theorem before0_0_of (V : EntryVal F) {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (V : EntryVal F) {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (V : EntryVal F) {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (V : EntryVal F) {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of (V : EntryVal F) {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of (V : EntryVal F) {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of (V : EntryVal F) {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of (V : EntryVal F) {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of (V : EntryVal F) {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the two output windows hold after a point of the last column block -/

/-- The first output's block: the epilogue's projection of the hidden rows, from the point's accumulator. -/
def out0_9 (V : EntryVal F) (c : Dev nD) (t : Fin cfg0.N) : Vec F S512x128 .f32 :=
  k0_pay5 (acc0 V c t.val t.isLt) (iblk0 V c 2 t) (xi0 V c t) (iblk0 V c 3 t) (iblk0 V c 4 t) (iblk0 V c 5 t) (iblk0 V c 6 t)

/-- The second output's block. -/
def out0_10 (V : EntryVal F) (c : Dev nD) (t : Fin cfg0.N) : Vec F S512x128 .f32 :=
  k0_pay3 (k0_pay4 (acc0 V c t.val t.isLt) (iblk0 V c 2 t) (xi0 V c t) (iblk0 V c 3 t) (iblk0 V c 4 t) (iblk0 V c 5 t)) (iblk0 V c 7 t) (iblk0 V c 8 t)

/-! ## The region invariant: the accumulator carried between points -/

/-- Before the first point what the launch hands the region (the accumulator at anything); before any later point
    the accumulator at what the point before left, the other scoped buffers at anything, the generator register at
    some state. -/
def PhiS (V : EntryVal F) (c : Dev nD) : (n : ℕ) → n ≤ cfg0.N → sProp 𝕄
  | 0, _ => Pipeline.ΦA spec0 c
  | n + 1, hn => iprop(iprop(owns (c : Thread nD τ) scM0_0 fullShare (acc0 V c n hn) ∗ rest0 (F := F) c) ∗ (∃ r, prngReg c r))

theorem PhiS_zero (V : EntryVal F) (c : Dev nD) (n : ℕ) (h : n ≤ cfg0.N) (hz : n = 0) : PhiS V c n h = Pipeline.ΦA spec0 c := by
  subst hz; rfl

theorem PhiS_succ (V : EntryVal F) (c : Dev nD) (n : ℕ) (hn : n < cfg0.N) :
    PhiS V c (n + 1) hn = iprop(iprop(owns (c : Thread nD τ) scM0_0 fullShare (acc0 V c n hn) ∗ rest0 (F := F) c) ∗ (∃ r, prngReg c r)) := rfl

theorem PhiS_pos (V : EntryVal F) (c : Dev nD) (n : ℕ) (h : n ≤ cfg0.N) (hz : n ≠ 0) :
    PhiS V c n h = iprop(iprop(owns (c : Thread nD τ) scM0_0 fullShare (acc0 V c (n - 1) (by omega)) ∗ rest0 (F := F) c) ∗ (∃ r, prngReg c r)) := by
  cases n with
  | zero => exact absurd rfl hz
  | succ n => rfl

/-! ## The proof data, the body obligation -/

def dat0 (V : EntryVal F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 V c t
    | ⟨10, _⟩ => out0_10 V c t
  Φ t := PhiS V c t.val (Nat.le_of_lt_succ t.isLt)
  q _ := fullShare
  owed _ := 0

theorem A_eq0 (V : EntryVal F) (c : Dev nD) (w : Fin cfg0.W) : (dat0 V c).A w = V c (Pipeline.arrRef spec0 w) := by
  dsimp only [dat0]
theorem share0 (V : EntryVal F) (c : Dev nD) (w : Fin cfg0.W) : (dat0 V c).q w = fullShare := by
  dsimp only [dat0]
theorem owed0 (V : EntryVal F) (c : Dev nD) (t : Fin (cfg0.N + 1)) : (dat0 V c).owed t = 0 := by
  dsimp only [dat0]
theorem recorded0 (V : EntryVal F) (c : Dev nD) : (dat0 V c).recorded 0 = Set.univ := by
  dsimp only [dat0]

theorem after0_0 (V : EntryVal F) (c : Dev nD) (t : Fin cfg0.N) : (dat0 V c).after 0 t = iblk0 V c 0 t := by dsimp only [dat0]
theorem after0_1 (V : EntryVal F) (c : Dev nD) (t : Fin cfg0.N) : (dat0 V c).after 1 t = iblk0 V c 1 t := by dsimp only [dat0]
theorem after0_2 (V : EntryVal F) (c : Dev nD) (t : Fin cfg0.N) : (dat0 V c).after 2 t = iblk0 V c 2 t := by dsimp only [dat0]
theorem after0_3 (V : EntryVal F) (c : Dev nD) (t : Fin cfg0.N) : (dat0 V c).after 3 t = iblk0 V c 3 t := by dsimp only [dat0]
theorem after0_4 (V : EntryVal F) (c : Dev nD) (t : Fin cfg0.N) : (dat0 V c).after 4 t = iblk0 V c 4 t := by dsimp only [dat0]
theorem after0_5 (V : EntryVal F) (c : Dev nD) (t : Fin cfg0.N) : (dat0 V c).after 5 t = iblk0 V c 5 t := by dsimp only [dat0]
theorem after0_6 (V : EntryVal F) (c : Dev nD) (t : Fin cfg0.N) : (dat0 V c).after 6 t = iblk0 V c 6 t := by dsimp only [dat0]
theorem after0_7 (V : EntryVal F) (c : Dev nD) (t : Fin cfg0.N) : (dat0 V c).after 7 t = iblk0 V c 7 t := by dsimp only [dat0]
theorem after0_8 (V : EntryVal F) (c : Dev nD) (t : Fin cfg0.N) : (dat0 V c).after 8 t = iblk0 V c 8 t := by dsimp only [dat0]
theorem after0_9 (V : EntryVal F) (c : Dev nD) (t : Fin cfg0.N) : (dat0 V c).after 9 t = out0_9 V c t := by dsimp only [dat0]
theorem after0_10 (V : EntryVal F) (c : Dev nD) (t : Fin cfg0.N) : (dat0 V c).after 10 t = out0_10 V c t := by dsimp only [dat0]

theorem after0_9_last (V : EntryVal F) (c : Dev nD) (t : Fin cfg0.N) (h : t.val % 8 = 7) :
    (dat0 V c).after 9 t = k0_pay5 (acc0 V c t.val t.isLt) (iblk0 V c 2 t) (xi0 V c t) (iblk0 V c 3 t) (iblk0 V c 4 t) (iblk0 V c 5 t) (iblk0 V c 6 t) := by
  rw [after0_9]; unfold out0_9; rfl

theorem after0_10_last (V : EntryVal F) (c : Dev nD) (t : Fin cfg0.N) (h : t.val % 8 = 7) :
    (dat0 V c).after 10 t = k0_pay3 (k0_pay4 (acc0 V c t.val t.isLt) (iblk0 V c 2 t) (xi0 V c t) (iblk0 V c 3 t) (iblk0 V c 4 t) (iblk0 V c 5 t)) (iblk0 V c 7 t) (iblk0 V c 8 t) := by
  rw [after0_10]; unfold out0_10; rfl

theorem before0_0 (V : EntryVal F) (c : Dev nD) (t : Fin cfg0.N) (d) : (dat0 V c).before 0 t d = iblk0 V c 0 t :=
  before0_0_of V (dat0 V c) (A_eq0 V c 0) (after0_0 V c) t d
theorem before0_1 (V : EntryVal F) (c : Dev nD) (t : Fin cfg0.N) (d) : (dat0 V c).before 1 t d = iblk0 V c 1 t :=
  before0_1_of V (dat0 V c) (A_eq0 V c 1) (after0_1 V c) t d
theorem before0_2 (V : EntryVal F) (c : Dev nD) (t : Fin cfg0.N) (d) : (dat0 V c).before 2 t d = iblk0 V c 2 t :=
  before0_2_of V (dat0 V c) (A_eq0 V c 2) (after0_2 V c) t d
theorem before0_3 (V : EntryVal F) (c : Dev nD) (t : Fin cfg0.N) (d) : (dat0 V c).before 3 t d = iblk0 V c 3 t :=
  before0_3_of V (dat0 V c) (A_eq0 V c 3) (after0_3 V c) t d
theorem before0_4 (V : EntryVal F) (c : Dev nD) (t : Fin cfg0.N) (d) : (dat0 V c).before 4 t d = iblk0 V c 4 t :=
  before0_4_of V (dat0 V c) (A_eq0 V c 4) (after0_4 V c) t d
theorem before0_5 (V : EntryVal F) (c : Dev nD) (t : Fin cfg0.N) (d) : (dat0 V c).before 5 t d = iblk0 V c 5 t :=
  before0_5_of V (dat0 V c) (A_eq0 V c 5) (after0_5 V c) t d
theorem before0_6 (V : EntryVal F) (c : Dev nD) (t : Fin cfg0.N) (d) : (dat0 V c).before 6 t d = iblk0 V c 6 t :=
  before0_6_of V (dat0 V c) (A_eq0 V c 6) (after0_6 V c) t d
theorem before0_7 (V : EntryVal F) (c : Dev nD) (t : Fin cfg0.N) (d) : (dat0 V c).before 7 t d = iblk0 V c 7 t :=
  before0_7_of V (dat0 V c) (A_eq0 V c 7) (after0_7 V c) t d
theorem before0_8 (V : EntryVal F) (c : Dev nD) (t : Fin cfg0.N) (d) : (dat0 V c).before 8 t d = iblk0 V c 8 t :=
  before0_8_of V (dat0 V c) (A_eq0 V c 8) (after0_8 V c) t d

theorem PhiS_castSucc (V : EntryVal F) (c : Dev nD) (t : Fin cfg0.N) :
    (dat0 V c).Φ t.castSucc = PhiS V c t.val (Nat.le_of_lt t.isLt) := by
  dsimp only [dat0]; simp only [Fin.coe_castSucc]

/-- What the body is called with at point `t`: the invariant, the tallies, each window's current staging buffer at
    what the pipeline left in it. -/
def bodyPre0 (V : EntryVal F) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (V : EntryVal F) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 4800000 in
/-- The body at any point: the inputs' buffers hold their blocks; the closed forms of the two conditions say which of
    the three cases the point is in, and that case's run applies. The invariant hands the body the accumulator at what
    the point before left (at anything before the first point) and takes it back at this point's contents, which the
    found pieces read back as; off the last column block the two outputs pass through untouched, at it each is left at
    the epilogue's value. The tallies pass through unread. -/
theorem sound_body0 (V : EntryVal F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 9 t (idleAt0_9 t hc1) (noFlush0_9 t hc1)]
    rw [Dat.leavesExact_idle (dat0 V c) 10 t (idleAt0_10 t hc1) (noFlush0_10 t hc1)]
    rw [acc0_first V c t h0]; unfold xk0
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, ⟨%es0, HS0⟩⟩
      isplitl [HS0 Hr Hg]
      · isplitl [HS0 Hr]
        · isplitl [HS0]
          · unfold owns; iexists _; isplitr
            swap; · iexact HS0
            ipureintro; exact sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexists _; iexact HS0
      iintro ⟨H0, H1, H2, H3, H4, H5, H6, H7, H8, H9, H10, ⟨%es0, HS0⟩⟩
      isplitl [HS0 Hr Hg]
      · isplitl [HS0 Hr]
        · isplitl [HS0]
          · unfold owns; iexists _; isplitr
            swap; · iexact HS0
            ipureintro; exact sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
  · have hc0 : ¬cond0_0 (grid0.coords t) := fun h => h0 ((hcond0_0 t).mp h)
    have hz : t.val ≠ 0 := fun e => h0 (by rw [e])
    by_cases h1 : t.val % 8 = 7
    · have hc1 : cond0_1 (grid0.coords t) := (hcond0_1 t).mpr h1
      rw [show (dat0 V c).leavesExact 9 t = owns (c : Thread nD τ) (ms0_9 t) fullShare ((dat0 V c).after 9 t) from by
        unfold Dat.leavesExact; rw [liveAt0_9 t hc1], after0_9]
      rw [show (dat0 V c).leavesExact 10 t = owns (c : Thread nD τ) (ms0_10 t) fullShare ((dat0 V c).after 10 t) from by
        unfold Dat.leavesExact; rw [liveAt0_10 t hc1], after0_10]
      unfold out0_9 out0_10
      rw [acc0_next V c t h0]; unfold xk0 xi0
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hr Hg]
      · isplitl [HS0 Hr]
        · isplitl [HS0]
          · unfold owns; iexists _; isplitr
            swap; · iexact HS0
            ipureintro; exact sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _ _
      unfold owns; iexists _; isplitr
      swap; · iexact H10
      ipureintro; exact out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _ _
    · have hc1 : ¬cond0_1 (grid0.coords t) := fun h => h1 ((hcond0_1 t).mp h)
      rw [Dat.leavesExact_idle (dat0 V c) 9 t (idleAt0_9 t hc1) (noFlush0_9 t hc1)]
      rw [Dat.leavesExact_idle (dat0 V c) 10 t (idleAt0_10 t hc1) (noFlush0_10 t hc1)]
      rw [acc0_next V c t h0]; unfold xk0
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, ⟨%es0, HS0⟩⟩
      isplitl [HS0 Hr Hg]
      · isplitl [HS0 Hr]
        · isplitl [HS0]
          · unfold owns; iexists _; isplitr
            swap; · iexact HS0
            ipureintro; exact sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem body_obligation0 (V : EntryVal F) (c : Dev nD) : BodyObligation (dat0 (F := F) V c) (defs₀ (F := F)) Variants.none () Set.univ := fun t => by
  rw [bigSep_W0, bigSep_W0]
  exact sound_body0 V c t

theorem hin0 (V : EntryVal F) (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

theorem hout0 (V : EntryVal F) (c : Dev nD) : (dat0 V c).Φ (Fin.last cfg0.N) ⊢ (Pipeline.ΦA spec0 c : sProp 𝕄) := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr⟩, Hg⟩
  isplitl [HS0 Hr]
  · isplitl [HS0]
    · iexists _; iexact HS0
    iexact Hr
  iexact Hg

end Cert.ReferenceIdeal.Hand

end
-- ==== Proof.RefRegion1.lean ====
/- Region 1 of the reference program (the second layer: the neighbour sum of the first layer's result accumulated over
   eight column blocks in a carried buffer, then normalisation and the masked log-softmax at the last column block):
   what each staging buffer and the carried accumulator hold after every grid point, and that the kernel body runs
   between those contents. -/
import proofs.«175566_g2000702591456375_pallasbulk_739_2_alg».proof.Proof.RefEntry
import proofs.«175566_g2000702591456375_pallasbulk_739_2_alg».proof.Proof.Gen.ReferenceIdeal.Launch
import proofs.«175566_g2000702591456375_pallasbulk_739_2_alg».proof.Proof.Gen.ReferenceIdeal.Skeleton
import proofs.«175566_g2000702591456375_pallasbulk_739_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ReferenceIdeal Cert.ReferenceIdeal.Gen

variable {F : FTy → Type} [FloatOps F]

local notation "𝕄" => MT nD τ sig Unit (Elt F) ℕ (UR sig nD τ) ℕ

/-! ## The body's two conditions on the grid point, in closed form -/

/-- The first conditional of the body: the point is in the first column block (the accumulator is reset there). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional of the body: the point is in the last column block (the epilogue runs there). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last column block nothing is stored into the output window, and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last column block the output window is stored into. -/
theorem liveAt1_4 : ∀ t : Fin cfg1.N, cond1_1 (grid1.coords t) → cfg1.idle 4 (grid1.coords t) = false := by decide +kernel

/-! ## The staging memrefs at a point, the carried buffer -/

abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .f32 := win1_4.stage (cfg1.slots t 4)
abbrev hs1_4 (t : Fin cfg1.N) : (ms1_4 t).IsWhole := hstage1_4 ((cfg1.slots t 4).cast nbuf1_4)
/-- The carried buffer: a whole scoped buffer of the kernel's own, passed beside the windows. -/
abbrev scM1 : Memref sig .tc .vmem S512x128 .f32 := Memref.whole cc1_scratch0
/-- The same as a view: what it holds is stated through it. -/
abbrev VS1 : View sig .tc .vmem S512x128 .f32 := scM1.view
/-- One staging buffer of the output window, through which its contents are stated. -/
abbrev VO1 : View sig .tc .vmem S512x128 .f32 := (Memref.whole cc1_stg4_0 : Memref sig .tc .vmem S512x128 .f32).view

/-- The core's scoped buffers that are no staging buffer of this region, the carried buffer last at contents `X`. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_scratch0), ((c : Thread nD τ).loc cc0_scratch0) ↦{fullShare} f) ∗ X)

/-- The others of those buffers, each whole at some contents. -/
def others (c : Dev nD) : sProp 𝕄 := restWith (F := F) c iprop(emp)

theorem restWith_out (c : Dev nD) (X : sProp 𝕄) : restWith c X ⊢ iprop(others (F := F) c ∗ X) := by
  unfold others restWith
  iintro ⟨R1, R2, R3, R4, R5, R6, R7, R8, R9, R10, R11, R12, R13, R14, R15, R16, HX⟩
  isplitr [HX]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    iempintro
  · iexact HX

theorem restWith_in (c : Dev nD) (X : sProp 𝕄) : iprop(others (F := F) c ∗ X) ⊢ restWith c X := by
  unfold others restWith
  iintro ⟨⟨R1, R2, R3, R4, R5, R6, R7, R8, R9, R10, R11, R12, R13, R14, R15, R16, -⟩, HX⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexact HX

/-- The carried buffer splits off the rest. -/
theorem restWith_eq (c : Dev nD) (X : sProp 𝕄) : restWith c X = iprop(others (F := F) c ∗ X) :=
  BI.equiv_iff.mp ⟨restWith_out c X, restWith_in c X⟩

/-- What the launch hands the region, with the carried buffer as a memref owned at some contents. -/
theorem PhiA1_eq (c : Dev nD) :
    (Pipeline.ΦA spec1 c : sProp 𝕄)
      = iprop(iprop(others (F := F) c ∗ (∃ d, owns (c : Thread nD τ) scM1 fullShare d)) ∗ (∃ r, prngReg c r)) := by
  rw [← restWith_eq]
  unfold Pipeline.ΦA restWith; rw [scopedRest1_eq]; simp only [scM1, owns_whole]; try rfl

/-! ## The kernel body on any staging memrefs, case by case -/

set_option maxHeartbeats 1000000 in
/-- A middle column block (neither conditional taken): on whole memrefs, the inputs' at their contents, the output's at
    contents handed back untouched, the carried buffer at what the point before left, the body runs to the continuation
    holding the inputs' as they were and the carried buffer with the pieces of its one store written. -/
noncomputable def kernelRun1_B (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i) (hc1 : ¬cond1_1 i)
    (x0 : Vec F S512x512 .bf16) (x1 : Vec F S4096x128 .f32) (x2 : Vec F S512x1 .f32) (x3 : Vec F S512x128 .f32) (xs0 : Vec F S512x128 .f32) :
    { LS0 : List (View.Piece (Elt F) S512x128 .f32) //
      ∀ (xi4 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__sage_layer2_kernel i arg2 harg2 arg3 harg3 arg4 harg4 arg5 harg5 arg6 harg6 arg7 harg7) K } := by
  refine ⟨?_, fun xi4 E K => ?run⟩
  case run =>
    simp only [cc1__sage_layer2_kernel_eq_skeleton]; unfold cc1__sage_layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The first column block (the first conditional taken, the second not): the carried buffer may hold anything; it is
    reset, read back and updated. -/
noncomputable def kernelRun1_A (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : cond1_0 i) (hc1 : ¬cond1_1 i)
    (x0 : Vec F S512x512 .bf16) (x1 : Vec F S4096x128 .f32) (x2 : Vec F S512x1 .f32) (x3 : Vec F S512x128 .f32) :
    { LS0 : List (View.Piece (Elt F) S512x128 .f32) //
      ∀ (xi4 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__sage_layer2_kernel i arg2 harg2 arg3 harg3 arg4 harg4 arg5 harg5 arg6 harg6 arg7 harg7) K } := by
  refine ⟨?_, fun xi4 E K => ?run⟩
  case run =>
    simp only [cc1__sage_layer2_kernel_eq_skeleton]; unfold cc1__sage_layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The last column block (the first conditional not taken, the second taken): the carried buffer is updated and read
    back, and the epilogue's result is stored into the output window's buffer, which may hold anything before. -/
noncomputable def kernelRun1_C (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i) (hc1 : cond1_1 i)
    (x0 : Vec F S512x512 .bf16) (x1 : Vec F S4096x128 .f32) (x2 : Vec F S512x1 .f32) (x3 : Vec F S512x128 .f32) (xs0 : Vec F S512x128 .f32) :
    Σ' (L4 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__sage_layer2_kernel i arg2 harg2 arg3 harg3 arg4 harg4 arg5 harg5 arg6 harg6 arg7 harg7) K } := by
  refine ⟨?_, ?_, fun E K => ?run⟩
  case run =>
    simp only [cc1__sage_layer2_kernel_eq_skeleton]; unfold cc1__sage_layer2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves, read back -/

/-- The zero offsets of a whole-buffer access, as a constant function. -/
theorem hz2 : (![0, 0] : Fin 2 → Nat) = fun _ => 0 := by funext a; fin_cases a <;> rfl

/-- A middle column block's one store covers the carried buffer. -/
theorem scover1_B (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i) (hc1 : ¬cond1_1 i)
    (x0 : Vec F S512x512 .bf16) (x1 : Vec F S4096x128 .f32) (x2 : Vec F S512x1 .f32) (x3 : Vec F S512x128 .f32) (xs0 : Vec F S512x128 .f32) (y : S512x128.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S512x128.size (by sl_kernel_rfl) y

/-- What a middle column block leaves in the carried buffer: the update of what it held by this block's product. -/
theorem sout1_B (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i) (hc1 : ¬cond1_1 i)
    (x0 : Vec F S512x512 .bf16) (x1 : Vec F S4096x128 .f32) (x2 : Vec F S512x1 .f32) (x3 : Vec F S512x128 .f32) (xs0 : Vec F S512x128 .f32) (v : View sig .tc .vmem S512x128 .f32) (f : v.ty.Contents (Elt F)) :
    v.read (Elt F) (v.writes (Elt F) f (kernelRun1_B c i arg2 harg2 arg3 harg3 arg4 harg4 arg5 harg5 arg6 harg6 arg7 harg7 hc0 hc1 x0 x1 x2 x3 xs0).1) = k1_pay2 (View.ld x1 (Rect.unit (s := S4096x128) (k1_off1 i) S512x128.size (k1_off1_inb i))) xs0 x0 := by
  rw [View.read_writes_eq_canon _ _ _ (scover1_B c i arg2 harg2 arg3 harg3 arg4 harg4 arg5 harg5 arg6 harg6 arg7 harg7 hc0 hc1 x0 x1 x2 x3 xs0)]
  unfold kernelRun1_B; dsimp only; sl_unfold_run_names
  rw [View.canon_unit_zero hz2]
  simp only [View.readAt_eq_ld, harg2.read_unread, harg3.read_unread, harg7.read_unread, View.ld_unit_zero (S := S512x128) hz2, View.ld_unit_zero (S := S512x512) hz2]

/-- The first column block's stores cover the carried buffer. -/
theorem scover1_A (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : cond1_0 i) (hc1 : ¬cond1_1 i)
    (x0 : Vec F S512x512 .bf16) (x1 : Vec F S4096x128 .f32) (x2 : Vec F S512x1 .f32) (x3 : Vec F S512x128 .f32) (y : S512x128.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S512x128.size (by sl_kernel_rfl) y

/-- What the first column block leaves in the carried buffer: the update of the reset value by this block's product. -/
theorem sout1_A (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : cond1_0 i) (hc1 : ¬cond1_1 i)
    (x0 : Vec F S512x512 .bf16) (x1 : Vec F S4096x128 .f32) (x2 : Vec F S512x1 .f32) (x3 : Vec F S512x128 .f32) (v : View sig .tc .vmem S512x128 .f32) (f : v.ty.Contents (Elt F)) :
    v.read (Elt F) (v.writes (Elt F) f (kernelRun1_A c i arg2 harg2 arg3 harg3 arg4 harg4 arg5 harg5 arg6 harg6 arg7 harg7 hc0 hc1 x0 x1 x2 x3).1) = k1_pay2 (View.ld x1 (Rect.unit (s := S4096x128) (k1_off1 i) S512x128.size (k1_off1_inb i))) (k1_pay1 (F := F)) x0 := by
  rw [View.read_writes_eq_canon _ _ _ (scover1_A c i arg2 harg2 arg3 harg3 arg4 harg4 arg5 harg5 arg6 harg6 arg7 harg7 hc0 hc1 x0 x1 x2 x3)]
  unfold kernelRun1_A; dsimp only; sl_unfold_run_names
  rw [View.canon_cons_unit_zero (S := S512x128) hz2]
  simp only [View.readAt_eq_ld, harg2.read_unread, harg3.read_unread, View.readCov_unit_zero (S := S512x128) _ hz2, View.ld_unit_zero (S := S512x128) hz2, View.ld_unit_zero (S := S512x512) hz2]

/-- The last column block's one store into the carried buffer covers it. -/
theorem scover1_C (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i) (hc1 : cond1_1 i)
    (x0 : Vec F S512x512 .bf16) (x1 : Vec F S4096x128 .f32) (x2 : Vec F S512x1 .f32) (x3 : Vec F S512x128 .f32) (xs0 : Vec F S512x128 .f32) (y : S512x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S512x128.size (by sl_kernel_rfl) y

/-- Its one store into the output window's buffer covers it. -/
theorem cover1_C (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i) (hc1 : cond1_1 i)
    (x0 : Vec F S512x512 .bf16) (x1 : Vec F S4096x128 .f32) (x2 : Vec F S512x1 .f32) (x3 : Vec F S512x128 .f32) (xs0 : Vec F S512x128 .f32) (y : S512x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S512x128.size (by sl_kernel_rfl) y

/-- What the last column block leaves in the carried buffer. -/
theorem sout1_C (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i) (hc1 : cond1_1 i)
    (x0 : Vec F S512x512 .bf16) (x1 : Vec F S4096x128 .f32) (x2 : Vec F S512x1 .f32) (x3 : Vec F S512x128 .f32) (xs0 : Vec F S512x128 .f32) (v : View sig .tc .vmem S512x128 .f32) (f : v.ty.Contents (Elt F)) :
    v.read (Elt F) (v.writes (Elt F) f (kernelRun1_C c i arg2 harg2 arg3 harg3 arg4 harg4 arg5 harg5 arg6 harg6 arg7 harg7 hc0 hc1 x0 x1 x2 x3 xs0).2.1) = k1_pay2 (View.ld x1 (Rect.unit (s := S4096x128) (k1_off1 i) S512x128.size (k1_off1_inb i))) xs0 x0 := by
  rw [View.read_writes_eq_canon _ _ _ (scover1_C c i arg2 harg2 arg3 harg3 arg4 harg4 arg5 harg5 arg6 harg6 arg7 harg7 hc0 hc1 x0 x1 x2 x3 xs0)]
  unfold kernelRun1_C; dsimp only; sl_unfold_run_names
  rw [View.canon_unit_zero hz2]
  simp only [View.readAt_eq_ld, harg2.read_unread, harg3.read_unread, harg7.read_unread, View.ld_unit_zero (S := S512x128) hz2, View.ld_unit_zero (S := S512x512) hz2]

/-- What the last column block leaves in the output window's buffer: the epilogue of the finished accumulator. -/
theorem out1_C (c : Dev nD) (i : grid1.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i) (hc1 : cond1_1 i)
    (x0 : Vec F S512x512 .bf16) (x1 : Vec F S4096x128 .f32) (x2 : Vec F S512x1 .f32) (x3 : Vec F S512x128 .f32) (xs0 : Vec F S512x128 .f32) (v : View sig .tc .vmem S512x128 .f32) (f : v.ty.Contents (Elt F)) :
    v.read (Elt F) (v.writes (Elt F) f (kernelRun1_C c i arg2 harg2 arg3 harg3 arg4 harg4 arg5 harg5 arg6 harg6 arg7 harg7 hc0 hc1 x0 x1 x2 x3 xs0).1) = k1_pay3 (k1_pay2 (View.ld x1 (Rect.unit (s := S4096x128) (k1_off1 i) S512x128.size (k1_off1_inb i))) xs0 x0) x2 x3 := by
  rw [View.read_writes_eq_canon _ _ _ (cover1_C c i arg2 harg2 arg3 harg3 arg4 harg4 arg5 harg5 arg6 harg6 arg7 harg7 hc0 hc1 x0 x1 x2 x3 xs0)]
  unfold kernelRun1_C; dsimp only; sl_unfold_run_names
  rw [View.canon_unit_zero hz2]
  simp only [View.readAt_eq_ld, harg2.read_unread, harg3.read_unread, harg4.read_unread, harg5.read_unread, harg7.read_unread, View.readCov_unit_zero (S := S512x128) _ hz2, View.ld_unit_zero (S := S512x128) hz2, View.ld_unit_zero (S := S512x512) hz2, View.ld_unit_zero (S := S512x1) hz2]

/-! ## Region 1: blocks, the row slice of the resident first-layer result, the carried accumulator -/

/-- Window `w`'s block at point `t`, read off its array as the region finds it. -/
def iblk1 (V : EntryVal F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem before1_0_of (V : EntryVal F) {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (V : EntryVal F) {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (V : EntryVal F) {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (V : EntryVal F) {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangle of the body's load from the resident array at grid point `i`: 512 rows from the column block's offset. -/
abbrev zrect (i : grid1.Coords) : Rect S4096x128 := Rect.unit (s := S4096x128) (k1_off1 i) S512x128.size (k1_off1_inb i)

/-- Rows `512·k … 512·k+511` of the resident first-layer result, `k = t mod 8` the column block of point `t`. -/
def zk1 (V : EntryVal F) (c : Dev nD) (t : Fin cfg1.N) : Vec F S512x128 .f32 :=
  View.ld (iblk1 V c 1 t : Vec F S4096x128 .f32) (zrect (grid1.coords t))

/-- The load's offsets and the resident window's block index at every point, decided over the grid. -/
theorem zfacts : ∀ t : Fin cfg1.N, k1_off1 (grid1.coords t) (0 : Fin 2) = 512 * (t.val % 8) ∧ k1_off1 (grid1.coords t) (1 : Fin 2) = 0
    ∧ win1_1.index t (0 : Fin 2) = 0 ∧ win1_1.index t (1 : Fin 2) = 0 :=
  (by decide +kernel : ∀ t : Fin grid1.N, k1_off1 (grid1.coords t) (0 : Fin 2) = 512 * (t.val % 8) ∧ k1_off1 (grid1.coords t) (1 : Fin 2) = 0
    ∧ win1_1.index t (0 : Fin 2) = 0 ∧ win1_1.index t (1 : Fin 2) = 0)

/-- The slice at an index: the resident window's block is the whole array, and the load starts `512·(t mod 8)` rows down. -/
theorem zk1_apply (V : EntryVal F) (c : Dev nD) (t : Fin cfg1.N) (p : Fin 512) (q : Fin 128) :
    zk1 V c t (ix2 p q) = (V c main_v23_0 : Vec F S4096x128 .f32) (ix2 ⟨512 * (t.val % 8) + p.val, by omega⟩ q) := by
  obtain ⟨e0, e1, e2, e3⟩ := zfacts t
  unfold zk1 iblk1
  show (V c main_v23_0 : Vec F S4096x128 .f32) (((cfg1.win 1).blk t).view.emb ((zrect (grid1.coords t)).idx (ix2 p q))) = _
  refine congrArg (V c main_v23_0 : Vec F S4096x128 .f32) ?_
  funext a; apply Fin.ext
  match a with
  | ⟨0, _⟩ => show win1_1.index t (0 : Fin 2) * 4096 + 1 * (k1_off1 (grid1.coords t) (0 : Fin 2) + 1 * p.val) = 512 * (t.val % 8) + p.val; omega
  | ⟨1, _⟩ => show win1_1.index t (1 : Fin 2) * 128 + 1 * (k1_off1 (grid1.coords t) (1 : Fin 2) + 1 * q.val) = q.val; omega

/-- The carried accumulator after point `n`. -/
def acc1 (V : EntryVal F) (c : Dev nD) : (n : ℕ) → n < cfg1.N → Vec F S512x128 .f32
  | 0, hn => k1_pay2 (zk1 V c ⟨0, hn⟩) (k1_pay1 (F := F)) (iblk1 V c 0 ⟨0, hn⟩)
  | n + 1, hn =>
    if (n + 1) % 8 = 0 then k1_pay2 (zk1 V c ⟨n + 1, hn⟩) (k1_pay1 (F := F)) (iblk1 V c 0 ⟨n + 1, hn⟩)
    else k1_pay2 (zk1 V c ⟨n + 1, hn⟩) (acc1 V c n (Nat.lt_of_succ_lt hn)) (iblk1 V c 0 ⟨n + 1, hn⟩)

theorem acc1_first (V : EntryVal F) (c : Dev nD) (t : Fin cfg1.N) (h : t.val % 8 = 0) :
    acc1 V c t.val t.isLt = k1_pay2 (zk1 V c t) (k1_pay1 (F := F)) (iblk1 V c 0 t) := by
  obtain ⟨n, hn⟩ := t
  cases n with
  | zero => exact rfl
  | succ n => exact (if_pos h).trans rfl

theorem acc1_next (V : EntryVal F) (c : Dev nD) (t : Fin cfg1.N) (h : t.val % 8 ≠ 0) :
    acc1 V c t.val t.isLt = k1_pay2 (zk1 V c t) (acc1 V c (t.val - 1) (Nat.lt_of_le_of_lt (Nat.sub_le _ _) t.isLt)) (iblk1 V c 0 t) := by
  obtain ⟨n, hn⟩ := t
  cases n with
  | zero => exact absurd (Nat.zero_mod _) h
  | succ n => exact (if_neg h).trans rfl

/-! ## The invariant that carries the accumulator between points -/

/-- Before the first point what the launch hands over (the carried buffer at anything); afterwards the other scoped
    buffers at anything, the carried buffer at the accumulator the point before left, the generator register at some state. -/
def PhiS1 (V : EntryVal F) (c : Dev nD) : (n : ℕ) → n ≤ cfg1.N → sProp 𝕄
  | 0, _ => Pipeline.ΦA spec1 c
  | n + 1, hn => iprop(iprop(others (F := F) c ∗ owns (c : Thread nD τ) scM1 fullShare (acc1 V c n hn)) ∗ (∃ r, prngReg c r))

theorem PhiS1_zero (V : EntryVal F) (c : Dev nD) (n : ℕ) (h : n ≤ cfg1.N) (hz : n = 0) : PhiS1 V c n h = Pipeline.ΦA spec1 c := by
  subst hz; rfl

theorem PhiS1_succ (V : EntryVal F) (c : Dev nD) (n : ℕ) (hn : n < cfg1.N) :
    PhiS1 V c (n + 1) hn = iprop(iprop(others (F := F) c ∗ owns (c : Thread nD τ) scM1 fullShare (acc1 V c n hn)) ∗ (∃ r, prngReg c r)) := rfl

theorem PhiS1_pos (V : EntryVal F) (c : Dev nD) (n : ℕ) (h : n ≤ cfg1.N) (hz : n ≠ 0) :
    PhiS1 V c n h = iprop(iprop(others (F := F) c ∗ owns (c : Thread nD τ) scM1 fullShare (acc1 V c (n - 1) (by omega))) ∗ (∃ r, prngReg c r)) := by
  cases n with
  | zero => exact absurd rfl hz
  | succ n => rfl

/-! ## The proof data, the body obligation -/

def dat1 (V : EntryVal F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 2 t) (iblk1 V c 3 t)
  Φ t := PhiS1 V c t.val (Nat.le_of_lt_succ t.isLt)
  q _ := fullShare
  owed _ := 0

theorem A_eq1 (V : EntryVal F) (c : Dev nD) (w : Fin cfg1.W) : (dat1 V c).A w = V c (Pipeline.arrRef spec1 w) := by
  dsimp only [dat1]
theorem share1 (V : EntryVal F) (c : Dev nD) (w : Fin cfg1.W) : (dat1 V c).q w = fullShare := by
  dsimp only [dat1]
theorem owed1 (V : EntryVal F) (c : Dev nD) (t : Fin (cfg1.N + 1)) : (dat1 V c).owed t = 0 := by
  dsimp only [dat1]
theorem recorded1 (V : EntryVal F) (c : Dev nD) : (dat1 V c).recorded 0 = Set.univ := by
  dsimp only [dat1]

theorem PhiS1_castSucc (V : EntryVal F) (c : Dev nD) (t : Fin cfg1.N) :
    (dat1 V c).Φ t.castSucc = PhiS1 V c t.val (Nat.le_of_lt t.isLt) := by
  dsimp only [dat1]; simp only [Fin.coe_castSucc]

theorem after1_0 (V : EntryVal F) (c : Dev nD) (t : Fin cfg1.N) : (dat1 V c).after 0 t = iblk1 V c 0 t := by dsimp only [dat1]
theorem after1_1 (V : EntryVal F) (c : Dev nD) (t : Fin cfg1.N) : (dat1 V c).after 1 t = iblk1 V c 1 t := by dsimp only [dat1]
theorem after1_2 (V : EntryVal F) (c : Dev nD) (t : Fin cfg1.N) : (dat1 V c).after 2 t = iblk1 V c 2 t := by dsimp only [dat1]
theorem after1_3 (V : EntryVal F) (c : Dev nD) (t : Fin cfg1.N) : (dat1 V c).after 3 t = iblk1 V c 3 t := by dsimp only [dat1]
theorem after1_4 (V : EntryVal F) (c : Dev nD) (t : Fin cfg1.N) :
    (dat1 V c).after 4 t = k1_pay3 (acc1 V c t.val t.isLt) (iblk1 V c 2 t) (iblk1 V c 3 t) := by dsimp only [dat1]

theorem after1_4_last (V : EntryVal F) (c : Dev nD) (t : Fin cfg1.N) (h : t.val % 8 = 7) :
    (dat1 V c).after 4 t = k1_pay3 (acc1 V c t.val t.isLt) (iblk1 V c 2 t) (iblk1 V c 3 t) := after1_4 V c t

theorem before1_0 (V : EntryVal F) (c : Dev nD) (t : Fin cfg1.N) (d) : (dat1 V c).before 0 t d = iblk1 V c 0 t :=
  before1_0_of V (dat1 V c) (A_eq1 V c 0) (after1_0 V c) t d
theorem before1_1 (V : EntryVal F) (c : Dev nD) (t : Fin cfg1.N) (d) : (dat1 V c).before 1 t d = iblk1 V c 1 t :=
  before1_1_of V (dat1 V c) (A_eq1 V c 1) (after1_1 V c) t d
theorem before1_2 (V : EntryVal F) (c : Dev nD) (t : Fin cfg1.N) (d) : (dat1 V c).before 2 t d = iblk1 V c 2 t :=
  before1_2_of V (dat1 V c) (A_eq1 V c 2) (after1_2 V c) t d
theorem before1_3 (V : EntryVal F) (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (V : EntryVal F) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (V : EntryVal F) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in; the
    invariant hands the body the carried buffer at what the point before left (at anything before the first point) and
    takes it back at this point's accumulator; off the last column block the output window's buffer is handed back as
    found, at it the epilogue's result is left there; the core owes nothing throughout. -/
theorem sound_body1 (V : EntryVal F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [acc1_first V c t h0]
    unfold zk1
    by_cases hz : t.val = 0
    · rw [PhiS1_castSucc V c t, PhiS1_zero V c _ _ hz, PhiA1_eq]
      iintro ⟨⟨⟨HR, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR HS0 Hg]
      · isplitl [HR HS0]
        · isplitl [HR]; · iexact HR
          unfold owns; iexists _; isplitr
          swap; · iexact HS0
          ipureintro; exact sout1_A c (grid1.coords t) _ _ _ _ _ _ _ _ _ _ _ _ hc0 hc1 (iblk1 V c 0 t) (iblk1 V c 1 t) (iblk1 V c 2 t) (iblk1 V c 3 t) _ _
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HR HS0 Hg]
      · isplitl [HR HS0]
        · isplitl [HR]; · iexact HR
          unfold owns; iexists _; isplitr
          swap; · iexact HS0
          ipureintro; exact sout1_A c (grid1.coords t) _ _ _ _ _ _ _ _ _ _ _ _ hc0 hc1 (iblk1 V c 0 t) (iblk1 V c 1 t) (iblk1 V c 2 t) (iblk1 V c 3 t) _ _
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun h => h0 (by rw [h])
    rw [acc1_next V c t h0]
    unfold zk1
    rw [PhiS1_castSucc V c t, PhiS1_pos V c _ _ hz]
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, acc1_next V c t h0]
      unfold zk1
      iintro ⟨⟨⟨HR, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR HS0 Hg]
      · isplitl [HR HS0]
        · isplitl [HR]; · iexact HR
          unfold owns; iexists _; isplitr
          swap; · iexact HS0
          ipureintro; exact sout1_C c (grid1.coords t) _ _ _ _ _ _ _ _ _ _ _ _ hc0 hc1 (iblk1 V c 0 t) (iblk1 V c 1 t) (iblk1 V c 2 t) (iblk1 V c 3 t) _ _ _
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact out1_C c (grid1.coords t) _ _ _ _ _ _ _ _ _ _ _ _ hc0 hc1 (iblk1 V c 0 t) (iblk1 V c 1 t) (iblk1 V c 2 t) (iblk1 V c 3 t) _ _ _
    · have hc1 : ¬cond1_1 (grid1.coords t) := fun h => h1 ((hcond1_1 t).mp h)
      rw [Dat.leavesExact_idle (dat1 V c) 4 t (idleAt1_4 t hc1) (noFlush1_4 t hc1)]
      iintro ⟨⟨⟨HR, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR HS0 Hg]
      · isplitl [HR HS0]
        · isplitl [HR]; · iexact HR
          unfold owns; iexists _; isplitr
          swap; · iexact HS0
          ipureintro; exact sout1_B c (grid1.coords t) _ _ _ _ _ _ _ _ _ _ _ _ hc0 hc1 (iblk1 V c 0 t) (iblk1 V c 1 t) (iblk1 V c 2 t) (iblk1 V c 3 t) _ _ _
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (V : EntryVal F) (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (V : EntryVal F) (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the carried buffer's named contents are forgotten. -/
theorem Phi_out1 (V : EntryVal F) (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

theorem hout1 (V : EntryVal F) (c : Dev nD) : (dat1 V c).Φ (Fin.last cfg1.N) ⊢ (Pipeline.ΦA spec1 c : sProp 𝕄) :=
  Phi_out1 V c _ (by rw [Fin.val_last]; have : cfg1.N = 64 := N_1; omega)

end Cert.ReferenceIdeal.Hand

end
-- ==== Proof.RefLaunch.lean ====
/- The reference program's run: @main is one stretch of host operations, the first-layer region, the second-layer
   region, and one closing host operation. The buffer contents at each boundary are a fold from the launch memory: a
   host stretch applies its operations; a region leaves each of its arrays at what its write-backs amount to and every
   other buffer as entered. Every weakly fair execution terminates with every unscoped buffer at the last boundary's
   contents; the argument arrays come through unchanged. -/
import proofs.«175566_g2000702591456375_pallasbulk_739_2_alg».proof.Proof.RefRegion0
import proofs.«175566_g2000702591456375_pallasbulk_739_2_alg».proof.Proof.RefRegion1
import proofs.«175566_g2000702591456375_pallasbulk_739_2_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev B0 (c : Dev nD) : Valuation τ sig (Elt F) := fun b => m (c, b)
/-- After the opening host stretch: the first-layer region's entry. -/
abbrev B1 (c : Dev nD) : Valuation τ sig (Elt F) := StableHlo.after hostOps0 (B0 m c)
/-- The same read at the TensorCore's references. -/
abbrev E1 : EntryVal F := fun c b => B1 m c b
/-- At the first-layer region's exit: its arrays at what its write-backs leave, every other buffer as entered. -/
def B2 (c : Dev nD) : Valuation τ sig (Elt F) :=
  Pipeline.withArrays spec0 c (B1 m c) fun w => (dat0 (E1 m) c).arrAt w cfg0.N
/-- The same read at the TensorCore's references: the second-layer region's entry. -/
abbrev E2 : EntryVal F := fun c b => B2 m c b
/-- At the second-layer region's exit. -/
def B3 (c : Dev nD) : Valuation τ sig (Elt F) :=
  Pipeline.withArrays spec1 c (B2 m c) fun w => (dat1 (E2 m) c).arrAt w cfg1.N
/-- After the closing host operation. -/
abbrev B4 (c : Dev nD) : Valuation τ sig (Elt F) := StableHlo.after hostOps2 (B3 m c)

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb

/-! ## The arguments come through unchanged

No window of either region stages an argument array and no host operation writes one, so the fold at an argument's
buffer walks back to the launch memory: the closing operation does not write it, neither region's arrays include it,
the opening stretch does not write it. -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (by decide)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl
theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (by decide)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl
theorem B4_main_arg2 (c : Dev nD) : B4 m c (Proc.devRef .tc main_arg2) = m ((c : Thread nD τ).loc main_arg2) :=
  calc B4 m c (Proc.devRef .tc main_arg2)
    _ = B3 m c (Proc.devRef .tc main_arg2) := StableHlo.after_of_writes_sub hostOps2 _ hostOps2_writes (by decide)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B4_main_arg3 (c : Dev nD) : B4 m c (Proc.devRef .tc main_arg3) = m ((c : Thread nD τ).loc main_arg3) :=
  calc B4 m c (Proc.devRef .tc main_arg3)
    _ = B3 m c (Proc.devRef .tc main_arg3) := StableHlo.after_of_writes_sub hostOps2 _ hostOps2_writes (by decide)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B4_main_arg4 (c : Dev nD) : B4 m c (Proc.devRef .tc main_arg4) = m ((c : Thread nD τ).loc main_arg4) :=
  calc B4 m c (Proc.devRef .tc main_arg4)
    _ = B3 m c (Proc.devRef .tc main_arg4) := StableHlo.after_of_writes_sub hostOps2 _ hostOps2_writes (by decide)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl
theorem B4_main_arg5 (c : Dev nD) : B4 m c (Proc.devRef .tc main_arg5) = m ((c : Thread nD τ).loc main_arg5) :=
  calc B4 m c (Proc.devRef .tc main_arg5)
    _ = B3 m c (Proc.devRef .tc main_arg5) := StableHlo.after_of_writes_sub hostOps2 _ hostOps2_writes (by decide)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B4_main_arg6 (c : Dev nD) : B4 m c (Proc.devRef .tc main_arg6) = m ((c : Thread nD τ).loc main_arg6) :=
  calc B4 m c (Proc.devRef .tc main_arg6)
    _ = B3 m c (Proc.devRef .tc main_arg6) := StableHlo.after_of_writes_sub hostOps2 _ hostOps2_writes (by decide)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := StableHlo.after_of_writes_sub hostOps0 _ hostOps0_writes (by decide)
    _ = m ((c : Thread nD τ).loc main_arg6) := rfl
theorem B4_main_arg7 (c : Dev nD) : B4 m c (Proc.devRef .tc main_arg7) = m ((c : Thread nD τ).loc main_arg7) :=
  calc B4 m c (Proc.devRef .tc main_arg7)
    _ = B3 m c (Proc.devRef .tc main_arg7) := StableHlo.after_of_writes_sub hostOps2 _ hostOps2_writes (by decide)
    _ = B2 m c (Proc.devRef .tc main_arg7) := B3_of_ne m c main_arg7 (by decide)
    _ = B1 m c (Proc.devRef .tc main_arg7) := B2_of_ne m c main_arg7 (by decide)
    _ = B0 m c (Proc.devRef .tc main_arg7) := StableHlo.after_of_writes_sub hostOps0 _ hostOps0_writes (by decide)
    _ = m ((c : Thread nD τ).loc main_arg7) := rfl
theorem B4_main_arg8 (c : Dev nD) : B4 m c (Proc.devRef .tc main_arg8) = m ((c : Thread nD τ).loc main_arg8) :=
  calc B4 m c (Proc.devRef .tc main_arg8)
    _ = B3 m c (Proc.devRef .tc main_arg8) := StableHlo.after_of_writes_sub hostOps2 _ hostOps2_writes (by decide)
    _ = B2 m c (Proc.devRef .tc main_arg8) := B3_of_ne m c main_arg8 (by decide)
    _ = B1 m c (Proc.devRef .tc main_arg8) := B2_of_ne m c main_arg8 (by decide)
    _ = B0 m c (Proc.devRef .tc main_arg8) := StableHlo.after_of_writes_sub hostOps0 _ hostOps0_writes (by decide)
    _ = m ((c : Thread nD τ).loc main_arg8) := rfl

/-! ## The regions' exit contents, read at the TensorCore's references -/

/-- The second-layer region's exit contents, read at the TensorCore's references. -/
abbrev E3 : EntryVal F := fun c b => B3 m c b

/-- At the first-layer region's exit each of its arrays holds what its write-backs leave, and every other buffer
    what it held at entry. -/
theorem B2_hF (c : Dev nD) (w : Fin cfg0.W) : (dat0 (E1 m) c).arrAt w cfg0.N = E2 m c (Pipeline.arrRef spec0 w) :=
  (B2_arr m c w).symm
theorem B2_hrest (c : Dev nD) : ∀ b, b ∉ Finset.univ.image (Pipeline.arrRef spec0) → E2 m c b = E1 m c b :=
  fun b hb => B2_of_ne m c b fun w e => hb (Finset.mem_image.mpr ⟨w, Finset.mem_univ _, e⟩)
/-- The same at the second-layer region's exit. -/
theorem B3_hF (c : Dev nD) (w : Fin cfg1.W) : (dat1 (E2 m) c).arrAt w cfg1.N = E3 m c (Pipeline.arrRef spec1 w) :=
  (B3_arr m c w).symm
theorem B3_hrest (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## The proof data family and the thread state -/

/-- Both pipelines' proof data, each at its region's entry contents: a literal match on the pipeline index, so that
    the pinned configuration at a numeral reduces to the printed one. -/
def runDats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every segment: the core's generator register at some state and its dues,
    at nothing. -/
abbrev Rr (c : Dev nD) : sProp 𝕄 := iprop((∃ r, prngReg c r) ∗ ∃ W, owes (c : Thread nD τ) (0 : CellTallies nD τ sig Unit) W)
/-- A host stretch as a segment over the unscoped references from the contents `W`, `Rr` riding along; it leaves
    those references at the contents after the stretch's operations. -/
abbrev runHost (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- The last thread state without the dues: every unscoped buffer at the last boundary's contents, the generator
    register at some state. -/
abbrev Tend (c : Dev nD) : sProp 𝕄 := iprop(StableHlo.held (c : Thread nD τ) (Pipeline.ucRefs τ sig) (B4 m c) ∗ ∃ r, prngReg c r)

/-- A core owing nothing, whatever pairs its waits have recorded, owes what the proof data say it owes before a point
    where that is nothing and the bound on the recorded pairs is everything. -/
theorem owesAt_of_owes_zero {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

/-- Conversely, before a point where the proof data say the core owes nothing, it owes nothing. -/
theorem owes_zero_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## The regions as segments -/

-- a library lemma stated over the pinned configuration unifies with the printed one only when unification may unfold
-- plain definitions in a metavariable's type
set_option backward.isDefEq.respectTransparency.types false in
/-- Region 0 over the thread state: entered from every unscoped buffer at `B1`, left at `B2`. Its arrays are split
    out of the unscoped buffers at entry and put back at their exit contents; the generator register and the scoped
    buffers no window stages go into the region's invariant at the first point and come back from it at the last;
    nothing is owed at any point; the kernel has no semaphore of its own. -/
def runReg0 : Pipeline.RegionSeg (pcfgs (F := F)) adm (runDats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lr lvr 0 fun c t => owed0 (E1 m) c t
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (runDats m) launch0.win launch0.arr_whole c
      ((runDats m 0 c).share_full fun w => share0 (E1 m) c w) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply owesAt_of_owes_zero (runDats m 0 c) 0 (owed0 (E1 m) c 0) (recorded0 (E1 m) c); iexact HO
    isplitl [Hp]; · iexact Hp
    iexact Hrest
  hin c := by
    refine Idealize.SL.BI.BIBase.Entails.trans ?_ (hin0 (E1 m) c)
    unfold Pipeline.ΦA
    iintro ⟨Hp, -, Hr⟩
    isplitl [Hr]; · iexact Hr
    iexact Hp
  hout c := by
    rw [Pipeline.ownSems0_none]
    refine Idealize.SL.BI.BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (runDats m) ((runDats m 0 c).share_full fun w => share0 (E1 m) c w)
      (E1 m c) (E2 m c) ((runDats m 0 c).arrAt · cfg0.N) (B2_hF m c) (B2_hrest m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply owes_zero_of_owesAt (runDats m 0 c) (Fin.last _) (owed0 (E1 m) c (Fin.last _)); iexact HO

-- a library lemma stated over the pinned configuration unifies with the printed one only when unification may unfold
-- plain definitions in a metavariable's type
set_option backward.isDefEq.respectTransparency.types false in
/-- Region 1 over the thread state: entered from every unscoped buffer at `B2`, left at `B3`. Its arrays are split
    out of the unscoped buffers at entry and put back at their exit contents; the generator register and the scoped
    buffers no window stages go into the region's invariant at the first point and come back from it at the last;
    nothing is owed at any point; the kernel has no semaphore of its own. -/
def runReg1 : Pipeline.RegionSeg (pcfgs (F := F)) adm (runDats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lr lvr 1 fun c t => owed1 (E2 m) c t
  pre c := iprop(StableHlo.held (c : Thread nD τ) (Pipeline.ucRefs τ sig) (B2 m c) ∗ Rr c)
  post c := iprop(StableHlo.held (c : Thread nD τ) (Pipeline.ucRefs τ sig) (B3 m c) ∗ Rr c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (runDats m) launch1.win launch1.arr_whole c
      ((runDats m 1 c).share_full fun w => share1 (E2 m) c w) (E2 m c) fun w => A_eq1 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply owesAt_of_owes_zero (runDats m 1 c) 0 (owed1 (E2 m) c 0) (recorded1 (E2 m) c); iexact HO
    isplitl [Hp]; · iexact Hp
    iexact Hrest
  hin c := by
    refine Idealize.SL.BI.BIBase.Entails.trans ?_ (hin1 (E2 m) c)
    unfold Pipeline.ΦA
    iintro ⟨Hp, -, Hr⟩
    isplitl [Hr]; · iexact Hr
    iexact Hp
  hout c := by
    rw [Pipeline.ownSems0_none]
    refine Idealize.SL.BI.BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (runDats m) ((runDats m 1 c).share_full fun w => share1 (E2 m) c w)
      (E2 m c) (E3 m c) ((runDats m 1 c).arrAt · cfg1.N) (B3_hF m c) (B3_hrest m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply owes_zero_of_owesAt (runDats m 1 c) (Fin.last _) (owed1 (E2 m) c (Fin.last _)); iexact HO

/-! ## @main as segments, and the launch -/

/-- @main's four segments in order: the opening host stretch from the launch contents, the two regions, the closing
    host operation from the second region's exit contents. -/
abbrev runSegs : List (Pipeline.Seg (pcfgs (F := F)) adm (runDats m) () defs₀ 𝒱r Lr lvr) :=
  [ .host (runHost hostOps0 hostOps0_sub hostOps0_fresh (B0 m)),
    .region (runReg0 m),
    .region (runReg1 m),
    .host (runHost hostOps2 hostOps2_sub hostOps2_fresh (B3 m)) ]
/-- @main is the run of the segments. -/
theorem main_runSegs (c : Dev nD) : main (F := F) c = Pipeline.Seg.run (runSegs m) := (main_chain c).trans (by chain_rfl)

/-! ## The run -/

-- the launch theorem's implicit arguments are found by unifying its conclusion with this one, which takes unfolding
-- plain definitions in a metavariable's type
set_option backward.isDefEq.respectTransparency.types false in
/-- Every weakly fair execution of @main from `m` with zero counters terminates, and every final memory holds every
    unscoped TensorCore buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B4 m c b) :=
  Pipeline.θ_run_regions_kit (pcfgs (F := F)) adm (runDats m) () cellOf_inj emb₁ defs₀ 𝒱r Lr lvr m ρ main (runSegs m)
    (fun c Q => by rw [main_runSegs m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tend m)
    (hch := ⟨fun _ => .rfl, fun _ => .rfl, fun _ => .rfl, fun _ => .rfl, fun c => by
      dsimp only [Pipeline.Seg.post, runHost, Pipeline.HostSeg.ofOps]
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.ReferenceIdeal.Hand

end
-- ==== Proof.LibScatterSet.lean ====
/- A host scatter whose body returns the update (`x.at[…].set(v)`), when every update index has a target inside the operand and
   distinct update indices have distinct targets: the result holds the update's element at each target and the operand's
   element everywhere else. For matrices, the case of an update placed in the top-left corner is worked out: the update
   inside the corner, the operand outside it. The scatter is a fold of single-element overwrites over the update indices in row-major
   order; with distinct targets no overwrite is undone, whatever the order and however many indices there are. -/
import Idealize.ShloMosaic.Lib.ValueIdx

namespace Cert.LibScatterSet

open Idealize.ShloMosaic

section Fold

variable {ι κ α : Type} [DecidableEq κ]

/-- One overwrite: the element at `key n` becomes `val n`. -/
def put (key : ι → κ) (val : ι → α) (r : κ → α) (n : ι) : κ → α := fun i => if i = key n then val n else r i

/-- Overwrites at keys other than `i` leave `i` alone. -/
theorem foldl_put_miss (key : ι → κ) (val : ι → α) (L : List ι) (r : κ → α) (i : κ) (h : ∀ n ∈ L, key n ≠ i) :
    L.foldl (put key val) r i = r i := by
  induction L generalizing r with
  | nil => rfl
  | cons a t ih =>
    rw [List.foldl_cons, ih (put key val r a) (fun n hn => h n (List.mem_cons_of_mem _ hn))]
    exact if_neg (fun e => h a List.mem_cons_self e.symm)

/-- With distinct keys, the element at `key n₀` ends as `val n₀`. -/
theorem foldl_put_hit (key : ι → κ) (val : ι → α) (hkey : Function.Injective key) (L : List ι) (hL : L.Nodup) (r : κ → α)
    (n₀ : ι) (hn : n₀ ∈ L) : L.foldl (put key val) r (key n₀) = val n₀ := by
  induction L generalizing r with
  | nil => cases hn
  | cons a t ih =>
    rw [List.foldl_cons]
    rcases List.mem_cons.1 hn with rfl | ht
    · rw [foldl_put_miss key val t _ _ (fun n hnt e => (List.nodup_cons.1 hL).1 (by have hh : n = n₀ := hkey e; exact hh ▸ hnt))]
      exact if_pos rfl
    · exact ih (List.nodup_cons.1 hL).2 _ ht

end Fold

variable {α : Type} {s si u : Shape} {w : Nat}

/-- The scatter as a fold of overwrites, once every update index's target is known to be `e j`. -/
theorem scatter_eq_foldl (d : ScatterDims s si u) (x : s.Idx → α) (idx : IVec si w) (upd : u.Idx → α) (e : u.Idx → s.Idx)
    (he : ∀ j, d.resultIdx? j idx = some (e j)) :
    Host.scatter d (fun _ b => b) x idx upd
      = (List.finRange u.numel).foldl (put (fun n => e (u.rowMajor.symm n)) (fun n => upd (u.rowMajor.symm n))) x := by
  unfold Host.scatter
  congr 1
  funext r n
  rw [he]
  rfl

/-- At the target of update index `j` the result holds the update's element. -/
theorem scatter_set_hit (d : ScatterDims s si u) (x : s.Idx → α) (idx : IVec si w) (upd : u.Idx → α) (e : u.Idx → s.Idx)
    (he : ∀ j, d.resultIdx? j idx = some (e j)) (hinj : Function.Injective e) (j : u.Idx) :
    Host.scatter d (fun _ b => b) x idx upd (e j) = upd j := by
  rw [scatter_eq_foldl d x idx upd e he]
  have h := foldl_put_hit (fun n => e (u.rowMajor.symm n)) (fun n => upd (u.rowMajor.symm n))
    (fun a b hab => u.rowMajor.symm.injective (hinj hab)) (List.finRange u.numel) (List.nodup_finRange _) x (u.rowMajor j)
    (List.mem_finRange _)
  simpa only [Equiv.symm_apply_apply] using h

/-- Away from every target the result holds the operand's element. -/
theorem scatter_set_miss (d : ScatterDims s si u) (x : s.Idx → α) (idx : IVec si w) (upd : u.Idx → α) (e : u.Idx → s.Idx)
    (he : ∀ j, d.resultIdx? j idx = some (e j)) (i : s.Idx) (hi : ∀ j, e j ≠ i) :
    Host.scatter d (fun _ b => b) x idx upd i = x i := by
  rw [scatter_eq_foldl d x idx upd e he]
  exact foldl_put_miss _ _ _ x i (fun n _ => hi _)

/-! ## `x.at[:k0, :k1].set(a)` on matrices: the update sits in the top-left corner -/

section Corner

open Idealize.ShloMosaic.ValueIdx

variable {α : Type} {n0 n1 k0 k1 : ℕ} {si : Shape} {w : Nat}

/-- The corner embedding: an index of the `k0 × k1` update as an index of the `n0 × n1` operand. -/
def corner (h0 : k0 ≤ n0) (h1 : k1 ≤ n1) (j : (⟨2, ![k0, k1]⟩ : Shape).Idx) : (⟨2, ![n0, n1]⟩ : Shape).Idx :=
  ix2 ⟨(j 0).val, lt_of_lt_of_le (idx2_lt0 j) h0⟩ ⟨(j 1).val, lt_of_lt_of_le (idx2_lt1 j) h1⟩

theorem corner_injective (h0 : k0 ≤ n0) (h1 : k1 ≤ n1) : Function.Injective (corner (n0 := n0) (n1 := n1) h0 h1) := by
  intro a b hab
  have e0 : (a 0).val = (b 0).val := congrArg (fun i : (⟨2, ![n0, n1]⟩ : Shape).Idx => (i 0).val) hab
  have e1 : (a 1).val = (b 1).val := congrArg (fun i : (⟨2, ![n0, n1]⟩ : Shape).Idx => (i 1).val) hab
  funext d
  match d with
  | ⟨0, _⟩ => exact Fin.ext e0
  | ⟨1, _⟩ => exact Fin.ext e1

/-- When both axes of the update are window axes, no operand axis is inserted, and the window starts at 0 on every
    axis, update index `j` lands on its corner embedding. -/
theorem resultIdx_corner_of_start_zero (d : ScatterDims (⟨2, ![n0, n1]⟩ : Shape) si (⟨2, ![k0, k1]⟩ : Shape))
    (hu : d.updateWindowDims = [0, 1]) (hi : d.insertedWindowDims = [])
    (h0 : k0 ≤ n0) (h1 : k1 ≤ n1) (idx : IVec si w) (j : (⟨2, ![k0, k1]⟩ : Shape).Idx)
    (hst : ∀ a, d.start j idx a = 0) :
    d.resultIdx? j idx = some (corner h0 h1 j) := by
  obtain ⟨uw, iw, sd, iv, wf⟩ := d
  dsimp only at hu hi
  subst hu hi
  let D : ScatterDims (⟨2, ![n0, n1]⟩ : Shape) si (⟨2, ![k0, k1]⟩ : Shape) := ⟨[0, 1], [], sd, iv, wf⟩
  have hst : ∀ a, D.start j idx a = 0 := hst
  have hw0 : D.window j (0 : Fin 2) = (j 0).val := rfl
  have hw1 : D.window j (1 : Fin 2) = (j 1).val := rfl
  have hs0 : ((⟨2, ![n0, n1]⟩ : Shape).size (0 : Fin 2)) = n0 := rfl
  have hs1 : ((⟨2, ![n0, n1]⟩ : Shape).size (1 : Fin 2)) = n1 := rfl
  have hj0 := idx2_lt0 j
  have hj1 := idx2_lt1 j
  show D.resultIdx? j idx = some (corner h0 h1 j)
  unfold ScatterDims.resultIdx?
  split
  · rename_i h
    congr 1
    funext a
    apply Fin.ext
    match a with
    | ⟨0, _⟩ =>
      show (D.start j idx (0 : Fin 2) + ↑(D.window j (0 : Fin 2))).toNat = (j 0).val
      rw [hst, hw0]; simp
    | ⟨1, _⟩ =>
      show (D.start j idx (1 : Fin 2) + ↑(D.window j (1 : Fin 2))).toNat = (j 1).val
      rw [hst, hw1]; simp
  · rename_i h
    refine absurd (fun a => ?_) h
    match a with
    | ⟨0, _⟩ =>
      show 0 ≤ D.start j idx (0 : Fin 2) + ↑(D.window j (0 : Fin 2)) ∧
        D.start j idx (0 : Fin 2) + ↑(D.window j (0 : Fin 2)) < ↑((⟨2, ![n0, n1]⟩ : Shape).size (0 : Fin 2))
      rw [hst, hw0, hs0]; omega
    | ⟨1, _⟩ =>
      show 0 ≤ D.start j idx (1 : Fin 2) + ↑(D.window j (1 : Fin 2)) ∧
        D.start j idx (1 : Fin 2) + ↑(D.window j (1 : Fin 2)) < ↑((⟨2, ![n0, n1]⟩ : Shape).size (1 : Fin 2))
      rw [hst, hw1, hs1]; omega

/-- No operand axis takes a start index: the window starts at 0 everywhere. -/
theorem start_zero_of_nil (d : ScatterDims (⟨2, ![n0, n1]⟩ : Shape) si (⟨2, ![k0, k1]⟩ : Shape))
    (hs : d.scatterDimsToOperandDims = []) (idx : IVec si w) (j : (⟨2, ![k0, k1]⟩ : Shape).Idx) (a : Fin 2) :
    d.start j idx a = 0 := by
  unfold ScatterDims.start
  exact dif_neg (by rw [hs]; exact List.not_mem_nil)

/-- The start indices are all the zero word: the window starts at 0 everywhere, whichever axes take a start index. -/
theorem start_zero_of_idx_zero (d : ScatterDims (⟨2, ![n0, n1]⟩ : Shape) si (⟨2, ![k0, k1]⟩ : Shape))
    (idx : IVec si w) (hidx : ∀ k, idx k = 0#w) (j : (⟨2, ![k0, k1]⟩ : Shape).Idx) (a : Fin 2) :
    d.start j idx a = 0 := by
  unfold ScatterDims.start
  split
  · rw [hidx]; exact BitVec.toInt_zero
  · rfl

/-- Inside the corner the result holds the update. -/
theorem scatter_corner_inside (d : ScatterDims (⟨2, ![n0, n1]⟩ : Shape) si (⟨2, ![k0, k1]⟩ : Shape))
    (hu : d.updateWindowDims = [0, 1]) (hi : d.insertedWindowDims = []) (h0 : k0 ≤ n0) (h1 : k1 ≤ n1)
    (x : (⟨2, ![n0, n1]⟩ : Shape).Idx → α) (idx : IVec si w) (upd : (⟨2, ![k0, k1]⟩ : Shape).Idx → α)
    (hst : ∀ j a, d.start j idx a = 0) (j : (⟨2, ![k0, k1]⟩ : Shape).Idx) :
    Host.scatter d (fun _ b => b) x idx upd (corner h0 h1 j) = upd j :=
  scatter_set_hit d x idx upd (corner h0 h1)
    (fun j => resultIdx_corner_of_start_zero d hu hi h0 h1 idx j (hst j)) (corner_injective h0 h1) j

/-- Outside the corner the result holds the operand. -/
theorem scatter_corner_outside (d : ScatterDims (⟨2, ![n0, n1]⟩ : Shape) si (⟨2, ![k0, k1]⟩ : Shape))
    (hu : d.updateWindowDims = [0, 1]) (hi : d.insertedWindowDims = []) (h0 : k0 ≤ n0) (h1 : k1 ≤ n1)
    (x : (⟨2, ![n0, n1]⟩ : Shape).Idx → α) (idx : IVec si w) (upd : (⟨2, ![k0, k1]⟩ : Shape).Idx → α)
    (hst : ∀ j a, d.start j idx a = 0) (i : (⟨2, ![n0, n1]⟩ : Shape).Idx) (hout : ¬((i 0).val < k0 ∧ (i 1).val < k1)) :
    Host.scatter d (fun _ b => b) x idx upd i = x i :=
  scatter_set_miss d x idx upd (corner h0 h1)
    (fun j => resultIdx_corner_of_start_zero d hu hi h0 h1 idx j (hst j)) i
    (fun j e => hout ⟨by rw [← e]; exact idx2_lt0 j, by rw [← e]; exact idx2_lt1 j⟩)

end Corner

end Cert.LibScatterSet
-- ==== Proof.RefHost.lean ====
/- The reference program's opening host stretch, read at the arrays the first-layer region stages, over the extended reals.
   Each argument is written into a zero array of the padded shape; where the shapes agree the result is the argument
   itself, and where the zero array is wider (the two narrow weight matrices and the narrow bias, 64 columns into 128)
   the result is the argument in the first 64 columns and zero in the rest. The adjacency then changes float format, the
   identity on the extended reals; the per-node scale is first reshaped into a column. -/
import proofs.«175566_g2000702591456375_pallasbulk_739_2_alg».proof.Proof.RefLaunch
import proofs.«175566_g2000702591456375_pallasbulk_739_2_alg».proof.Proof.Spec
import proofs.«175566_g2000702591456375_pallasbulk_739_2_alg».proof.Proof.LibScatterSet
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Idealize.ShloMosaic Idealize.ShloMosaic.TcCoe
open Idealize.ShloMosaic.Pipeline (Dat Cfg Window)
open Idealize.ShloMosaic.ValueIdx
open Cert.ReferenceIdeal Cert.ReferenceIdeal.Gen

namespace HostStretch

/-! ## Writing an update into the corner of a matrix -/

/-- Writing an update of the operand's own shape over the whole operand leaves the update. -/
theorem scatter_whole {α : Type} {n0 n1 : ℕ} {si : Shape} {w : ℕ}
    (d : ScatterDims (⟨2, ![n0, n1]⟩ : Shape) si (⟨2, ![n0, n1]⟩ : Shape))
    (hu : d.updateWindowDims = [0, 1]) (hi : d.insertedWindowDims = []) (hs : d.scatterDimsToOperandDims = [])
    (x : (⟨2, ![n0, n1]⟩ : Shape).Idx → α) (idx : IVec si w) (upd : (⟨2, ![n0, n1]⟩ : Shape).Idx → α) :
    Host.scatter d (fun _ b => b) x idx upd = upd := by
  funext i
  have hc : Cert.LibScatterSet.corner (le_refl n0) (le_refl n1) i = i := by
    funext a
    match a with
    | ⟨0, _⟩ => rfl
    | ⟨1, _⟩ => rfl
  have h := Cert.LibScatterSet.scatter_corner_inside d hu hi (le_refl n0) (le_refl n1) x idx upd
    (fun j a => Cert.LibScatterSet.start_zero_of_nil d hs idx j a) i
  rw [hc] at h
  exact h

/-- Writing an update with fewer columns into the leading columns of the operand, the start index being the zero word:
    the update in the leading columns, the operand in the rest. -/
theorem scatter_cols {α : Type} {n0 n1 k1 : ℕ} {si : Shape} {w : ℕ}
    (d : ScatterDims (⟨2, ![n0, n1]⟩ : Shape) si (⟨2, ![n0, k1]⟩ : Shape))
    (hu : d.updateWindowDims = [0, 1]) (hi : d.insertedWindowDims = []) (h1 : k1 ≤ n1)
    (x : (⟨2, ![n0, n1]⟩ : Shape).Idx → α) (idx : IVec si w) (hidx : ∀ k, idx k = 0#w)
    (upd : (⟨2, ![n0, k1]⟩ : Shape).Idx → α) (i : (⟨2, ![n0, n1]⟩ : Shape).Idx) :
    Host.scatter d (fun _ b => b) x idx upd i
      = if h : (i 1).val < k1 then upd (ix2 ⟨(i 0).val, idx2_lt0 i⟩ ⟨(i 1).val, h⟩) else x i := by
  by_cases h : (i 1).val < k1
  · rw [dif_pos h]
    have hc : Cert.LibScatterSet.corner (le_refl n0) h1 (ix2 ⟨(i 0).val, idx2_lt0 i⟩ ⟨(i 1).val, h⟩) = i := by
      funext a
      match a with
      | ⟨0, _⟩ => rfl
      | ⟨1, _⟩ => rfl
    have hh := Cert.LibScatterSet.scatter_corner_inside d hu hi (le_refl n0) h1 x idx upd
      (fun j a => Cert.LibScatterSet.start_zero_of_idx_zero d idx hidx j a) (ix2 ⟨(i 0).val, idx2_lt0 i⟩ ⟨(i 1).val, h⟩)
    rw [hc] at hh
    exact hh
  · rw [dif_neg h]
    exact Cert.LibScatterSet.scatter_corner_outside d hu hi (le_refl n0) h1 x idx upd
      (fun j a => Cert.LibScatterSet.start_zero_of_idx_zero d idx hidx j a) i (fun hh => h hh.2)

/-- A vector of 4096 reshaped into a 4096×1 column: entry `(r, 0)` of the column is entry `r` of the vector, the two having
    the same row-major position. -/
theorem column_of_vector {α : Type} (x : S4096.Idx → α) (h : S4096.ShapeCasts S4096x1) (j : S4096x1.Idx) :
    shapeCast S4096x1 x h j = x (ix1 ⟨(j 0).val, idx2_lt0 j⟩) := by
  refine shapeCast_apply x h j (ix1 ⟨(j 0).val, idx2_lt0 j⟩) ?_
  rw [Shape.rowMajor_val_one, Shape.rowMajor_val_two]
  show (j 0).val = (j 0).val * 1 + (j 1).val
  have := idx2_lt1 j
  omega

/-! ## Each staged array after the stretch, over any contents the stretch starts from -/

/-- The first layer's left dense weight: the argument written over a zero array of its own shape. -/
theorem after0_v9 (V : Valuation τ sig (Elt Ideal)) :
    StableHlo.after (hostOps0 (F := Ideal)) V (Proc.devRef .tc main_v9) = V (Proc.devRef .tc main_arg3) := by
  after_results
  exact scatter_whole _ rfl rfl rfl _ _ _

/-- The first layer's right dense weight likewise. -/
theorem after0_v11 (V : Valuation τ sig (Elt Ideal)) :
    StableHlo.after (hostOps0 (F := Ideal)) V (Proc.devRef .tc main_v11) = V (Proc.devRef .tc main_arg4) := by
  after_results
  exact scatter_whole _ rfl rfl rfl _ _ _

/-- The first layer's bias likewise. -/
theorem after0_v13 (V : Valuation τ sig (Elt Ideal)) :
    StableHlo.after (hostOps0 (F := Ideal)) V (Proc.devRef .tc main_v13) = V (Proc.devRef .tc main_arg5) := by
  after_results
  exact scatter_whole _ rfl rfl rfl _ _ _

/-- The features likewise. -/
theorem after0_v7 (V : Valuation τ sig (Elt Ideal)) :
    StableHlo.after (hostOps0 (F := Ideal)) V (Proc.devRef .tc main_v7) = V (Proc.devRef .tc main_arg0) := by
  after_results
  exact scatter_whole _ rfl rfl rfl _ _ _

/-- The adjacency likewise, and then a change of float format, which is the identity on the extended reals. -/
theorem after0_v2 (V : Valuation τ sig (Elt Ideal)) :
    StableHlo.after (hostOps0 (F := Ideal)) V (Proc.devRef .tc main_v2) = V (Proc.devRef .tc main_arg1) := by
  after_results
  funext i
  exact (truncf_apply (φ := .f32) _ bitsLt_bf16_f32 i).trans (congrFun (scatter_whole _ rfl rfl rfl _ _ _) i)

/-- The per-node scale: reshaped into a column, then written over a zero column. -/
theorem after0_v5 (V : Valuation τ sig (Elt Ideal)) :
    StableHlo.after (hostOps0 (F := Ideal)) V (Proc.devRef .tc main_v5) = Cert.Sage.Dcol (V (Proc.devRef .tc main_arg2)) := by
  after_results
  refine (scatter_whole _ rfl rfl rfl _ _ _).trans ?_
  funext j
  unfold Cert.Sage.Dcol
  exact column_of_vector _ _ j

/-- The second layer's left weight: 64 columns written into the leading columns of a zero array of 128. -/
theorem after0_v16 (V : Valuation τ sig (Elt Ideal)) :
    StableHlo.after (hostOps0 (F := Ideal)) V (Proc.devRef .tc main_v16) = Cert.Sage.padCols (V (Proc.devRef .tc main_arg6)) := by
  after_results
  funext i
  refine (scatter_cols _ rfl rfl (by decide) _ _ (fun k => rfl) _ i).trans ?_
  unfold Cert.Sage.padCols
  by_cases h : (i 1).val < 64
  · rw [dif_pos h, dif_pos h]
  · rw [dif_neg h, dif_neg h]
    show Ideal.ofBits .f32 0x00000000#32 = 0
    exact Ideal.ofBits_zero_f32

/-- The second layer's right weight likewise. -/
theorem after0_v19 (V : Valuation τ sig (Elt Ideal)) :
    StableHlo.after (hostOps0 (F := Ideal)) V (Proc.devRef .tc main_v19) = Cert.Sage.padCols (V (Proc.devRef .tc main_arg7)) := by
  after_results
  funext i
  refine (scatter_cols _ rfl rfl (by decide) _ _ (fun k => rfl) _ i).trans ?_
  unfold Cert.Sage.padCols
  by_cases h : (i 1).val < 64
  · rw [dif_pos h, dif_pos h]
  · rw [dif_neg h, dif_neg h]
    show Ideal.ofBits .f32 0x00000000#32 = 0
    exact Ideal.ofBits_zero_f32

/-- The second layer's bias likewise, one row. -/
theorem after0_v22 (V : Valuation τ sig (Elt Ideal)) :
    StableHlo.after (hostOps0 (F := Ideal)) V (Proc.devRef .tc main_v22) = Cert.Sage.padRow (V (Proc.devRef .tc main_arg8)) := by
  after_results
  funext i
  refine (scatter_cols _ rfl rfl (by decide) _ _ (fun k => rfl) _ i).trans ?_
  unfold Cert.Sage.padRow
  by_cases h : (i 1).val < 64
  · rw [dif_pos h, dif_pos h]
  · rw [dif_neg h, dif_neg h]
    show Ideal.ofBits .f32 0x00000000#32 = 0
    exact Ideal.ofBits_zero_f32

end HostStretch

variable (m : (ℓ : Loc nD τ sig) → Buf (Elt Ideal) ℓ)

/-- The adjacency as the regions find it is the adjacency argument. -/
theorem B1_v2 (c : Dev nD) : B1 m c (Proc.devRef .tc main_v2) = (m ((c : Thread nD τ).loc main_arg1)) := by
  show StableHlo.after hostOps0 (B0 m c) (Proc.devRef .tc main_v2) = _
  exact HostStretch.after0_v2 (B0 m c)
/-- The features as the regions find them are the feature argument. -/
theorem B1_v7 (c : Dev nD) : B1 m c (Proc.devRef .tc main_v7) = (m ((c : Thread nD τ).loc main_arg0)) := by
  show StableHlo.after hostOps0 (B0 m c) (Proc.devRef .tc main_v7) = _
  exact HostStretch.after0_v7 (B0 m c)
/-- The per-node scale as the regions find it is the scale argument as a column. -/
theorem B1_v5 (c : Dev nD) : B1 m c (Proc.devRef .tc main_v5) = Cert.Sage.Dcol (m ((c : Thread nD τ).loc main_arg2)) := by
  show StableHlo.after hostOps0 (B0 m c) (Proc.devRef .tc main_v5) = _
  exact HostStretch.after0_v5 (B0 m c)
/-- The first layer's two dense weights and its bias are the arguments. -/
theorem B1_v9 (c : Dev nD) : B1 m c (Proc.devRef .tc main_v9) = (m ((c : Thread nD τ).loc main_arg3)) := by
  show StableHlo.after hostOps0 (B0 m c) (Proc.devRef .tc main_v9) = _
  exact HostStretch.after0_v9 (B0 m c)
theorem B1_v11 (c : Dev nD) : B1 m c (Proc.devRef .tc main_v11) = (m ((c : Thread nD τ).loc main_arg4)) := by
  show StableHlo.after hostOps0 (B0 m c) (Proc.devRef .tc main_v11) = _
  exact HostStretch.after0_v11 (B0 m c)
theorem B1_v13 (c : Dev nD) : B1 m c (Proc.devRef .tc main_v13) = (m ((c : Thread nD τ).loc main_arg5)) := by
  show StableHlo.after hostOps0 (B0 m c) (Proc.devRef .tc main_v13) = _
  exact HostStretch.after0_v13 (B0 m c)
/-- The two narrow weights and the narrow bias are the arguments padded with zero columns. -/
theorem B1_v16 (c : Dev nD) : B1 m c (Proc.devRef .tc main_v16) = Cert.Sage.padCols (m ((c : Thread nD τ).loc main_arg6)) := by
  show StableHlo.after hostOps0 (B0 m c) (Proc.devRef .tc main_v16) = _
  exact HostStretch.after0_v16 (B0 m c)
theorem B1_v19 (c : Dev nD) : B1 m c (Proc.devRef .tc main_v19) = Cert.Sage.padCols (m ((c : Thread nD τ).loc main_arg7)) := by
  show StableHlo.after hostOps0 (B0 m c) (Proc.devRef .tc main_v19) = _
  exact HostStretch.after0_v19 (B0 m c)
theorem B1_v22 (c : Dev nD) : B1 m c (Proc.devRef .tc main_v22) = Cert.Sage.padRow (m ((c : Thread nD τ).loc main_arg8)) := by
  show StableHlo.after hostOps0 (B0 m c) (Proc.devRef .tc main_v22) = _
  exact HostStretch.after0_v22 (B0 m c)

end Cert.ReferenceIdeal.Hand

end
-- ==== Proof.LibBlockSum.lean ====
/- A sum over `a · b` consecutive indices, regrouped as `a` consecutive blocks of `b`: over any commutative additive
   monoid, `∑ k : Fin (a·b), f k = ∑ i : Fin a, ∑ j : Fin b, f (b·i + j)`. No finiteness or cancellation is used, so the
   statement holds over the extended reals as it stands. -/
import Idealize.ShloMosaic.Lib.ValueIdx

open scoped BigOperators

namespace Cert.LibBlockSum

/-- Index `b·i + j` of block `i`, offset `j`. -/
def blockIx {a b : ℕ} (i : Fin a) (j : Fin b) : Fin (a * b) :=
  ⟨b * i.val + j.val, by
    have hi := i.isLt; have hj := j.isLt
    calc b * i.val + j.val < b * i.val + b := by omega
      _ = b * (i.val + 1) := by ring
      _ ≤ b * a := Nat.mul_le_mul_left _ hi
      _ = a * b := Nat.mul_comm _ _⟩

/-- The sum over all `a·b` indices is the sum over the blocks of each block's sum. -/
theorem sum_blocks {M : Type} [AddCommMonoid M] {a b : ℕ} (f : Fin (a * b) → M) :
    ∑ k : Fin (a * b), f k = ∑ i : Fin a, ∑ j : Fin b, f (blockIx i j) := by
  rw [← Fintype.sum_prod_type' (fun (i : Fin a) (j : Fin b) => f (blockIx i j))]
  refine (Equiv.sum_comp finProdFinEquiv f).symm.trans ?_
  refine Finset.sum_congr rfl fun p _ => congrArg f (Fin.ext ?_)
  show p.2.val + b * p.1.val = b * p.1.val + p.2.val
  omega

end Cert.LibBlockSum
-- ==== Proof.RefValue0.lean ====
/- The first-layer region of the reference program, read as values over the extended reals: after the eight column
   blocks of a row block the carried accumulator holds the neighbour sum over all 4096 columns, so the two arrays the
   region leaves are the stacks, over the eight row blocks, of the first layer's narrow products of that sum. -/
import proofs.«175566_g2000702591456375_pallasbulk_739_2_alg».proof.Proof.RefRegion0
import proofs.«175566_g2000702591456375_pallasbulk_739_2_alg».proof.Proof.Spec
import proofs.«175566_g2000702591456375_pallasbulk_739_2_alg».proof.Proof.LibBlockSum
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Idealize.ShloMosaic Idealize.ShloMosaic.TcCoe
open Idealize.ShloMosaic.Pipeline (Dat Cfg Window)
open Idealize.ShloMosaic.ValueIdx
open Cert.ReferenceIdeal Cert.ReferenceIdeal.Gen

/-! ## The accumulating product at an index -/

theorem lhs_acc_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs_acc_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhs_acc_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs_acc_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- One accumulation step at an entry: what was there plus the row of the adjacency tile against the column of the
    feature rows. -/
theorem pay2_apply (v6 v8 : Vec Ideal S512x128 .f32) (v9 : Vec Ideal S512x512 .bf16) (p : Fin 512) (q : Fin 128) :
    k0_pay2 (F := Ideal) v6 v8 v9 (ix2 p q) = v8 (ix2 p q) + ∑ kk : Fin 512, v9 (ix2 p kk) * v6 (ix2 kk q) := by
  unfold k0_pay2
  simp only [shapeCast_self, matmul]
  rw [addf_apply, Ideal.matmul_constant_zero_apply,
    ← Equiv.sum_comp (contrEquiv1 dot_S512x512_S512x128_S512x128_1_0_0_1_n_n 512 rfl rfl).symm]
  refine congrArg (v8 (ix2 p q) + ·) (Finset.sum_congr rfl fun k _ => ?_)
  have hk := contrEquiv1_symm_val dot_S512x512_S512x128_S512x128_1_0_0_1_n_n 512 rfl rfl k
  have el : dot_S512x512_S512x128_S512x128_1_0_0_1_n_n.lhsIdx (ix2 p q) ((contrEquiv1 dot_S512x512_S512x128_S512x128_1_0_0_1_n_n 512 rfl rfl).symm k) = ix2 p k :=
    funext fun a => Fin.ext (by
      match a with
      | ⟨0, _⟩ => exact lhs_acc_0 _ _
      | ⟨1, _⟩ => exact (lhs_acc_1 _ _).trans hk)
  have er : dot_S512x512_S512x128_S512x128_1_0_0_1_n_n.rhsIdx (ix2 p q) ((contrEquiv1 dot_S512x512_S512x128_S512x128_1_0_0_1_n_n 512 rfl rfl).symm k) = ix2 k q :=
    funext fun a => Fin.ext (by
      match a with
      | ⟨0, _⟩ => exact (rhs_acc_0 _ _).trans hk
      | ⟨1, _⟩ => exact rhs_acc_1 _ _)
  rw [el, er]
  rfl

/-- The accumulator's start is zero everywhere. -/
theorem pay1_apply (p : Fin 512) (q : Fin 128) : k0_pay1 (F := Ideal) (ix2 p q) = 0 := by
  unfold k0_pay1
  simp only [shapeCast_self]
  show Ideal.ofBits .f32 0x00000000#32 = 0
  exact Ideal.ofBits_zero_f32

/-! ## Where each window's block sits, decided over the grid -/

theorem idx_in0 : ∀ t : Fin cfg0.N,
    win0_0.index t (0 : Fin 2) = t.val / 8 ∧ win0_0.index t (1 : Fin 2) = t.val % 8
    ∧ win0_2.index t (0 : Fin 2) = t.val / 8 ∧ win0_2.index t (1 : Fin 2) = 0 :=
  (by decide +kernel : ∀ t : Fin grid0.N, _)

theorem idx_whole0 : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem idx_out0 : ∀ t : Fin cfg0.N,
    win0_9.index t (0 : Fin 2) = t.val / 8 ∧ win0_9.index t (1 : Fin 2) = 0
    ∧ win0_10.index t (0 : Fin 2) = t.val / 8 ∧ win0_10.index t (1 : Fin 2) = 0 :=
  (by decide +kernel : ∀ t : Fin grid0.N, _)

/-- The row block of point t. -/
def rowBlk (t : Fin cfg0.N) : Fin 8 := ⟨t.val / 8, by have := t.isLt; have : cfg0.N = 64 := N_0; omega⟩

/-- The adjacency tile of point t: rows of block t / 8, columns of block t % 8. -/
theorem iblk0_0_apply (V : EntryVal Ideal) (c : Dev nD) (t : Fin cfg0.N) (p kk : Fin 512) :
    (iblk0 V c 0 t : Vec Ideal S512x512 .bf16) (ix2 p kk)
      = (V c main_v2 : S4096x4096.Idx → EReal) (ix2 (Cert.Sage.rowIx (rowBlk t) p) ⟨512 * (t.val % 8) + kk.val, by omega⟩) := by
  obtain ⟨e0, e1, -, -⟩ := idx_in0 t
  unfold iblk0
  rw [View.read_apply]
  show V c main_v2 _ = V c main_v2 _
  congr 1
  funext a; apply Fin.ext
  match a with
  | ⟨0, _⟩ => show win0_0.index t (0 : Fin 2) * 512 + 1 * p.val = 512 * (t.val / 8) + p.val; rw [e0]; omega
  | ⟨1, _⟩ => show win0_0.index t (1 : Fin 2) * 512 + 1 * kk.val = 512 * (t.val % 8) + kk.val; rw [e1]; omega

/-- The scale column's block of point t is the rows of block t / 8. -/
theorem iblk0_2_eq (V : EntryVal Ideal) (c : Dev nD) (t : Fin cfg0.N) :
    (iblk0 V c 2 t : Vec Ideal S512x1 .f32) = Cert.Sage.rows1Of (V c main_v5) (rowBlk t) := by
  obtain ⟨-, -, e0, e1⟩ := idx_in0 t
  funext y
  unfold iblk0
  rw [View.read_apply]
  show V c main_v5 _ = V c main_v5 _
  congr 1
  funext a; apply Fin.ext
  match a with
  | ⟨0, _⟩ => show win0_2.index t (0 : Fin 2) * 512 + 1 * (y 0).val = 512 * (t.val / 8) + (y 0).val; rw [e0]; omega
  | ⟨1, _⟩ => show win0_2.index t (1 : Fin 2) * 1 + 1 * (y 1).val = (y 1).val; rw [e1]; omega

theorem iblk0_3_eq (V : EntryVal Ideal) (c : Dev nD) (t : Fin cfg0.N) :
    (iblk0 V c 3 t : Vec Ideal S128x256 .f32) = V c main_v9 := by
  obtain ⟨e0, e1, -⟩ := idx_whole0 t
  funext y
  unfold iblk0
  rw [View.read_apply]
  show V c main_v9 _ = V c main_v9 _
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

theorem iblk0_4_eq (V : EntryVal Ideal) (c : Dev nD) (t : Fin cfg0.N) :
    (iblk0 V c 4 t : Vec Ideal S128x256 .f32) = V c main_v11 := by
  obtain ⟨-, -, e0, e1, -⟩ := idx_whole0 t
  funext y
  unfold iblk0
  rw [View.read_apply]
  show V c main_v11 _ = V c main_v11 _
  congr 1
  funext a; apply Fin.ext
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

theorem iblk0_5_eq (V : EntryVal Ideal) (c : Dev nD) (t : Fin cfg0.N) :
    (iblk0 V c 5 t : Vec Ideal S1x256 .f32) = V c main_v13 := by
  obtain ⟨-, -, -, -, e0, e1, -⟩ := idx_whole0 t
  funext y
  unfold iblk0
  rw [View.read_apply]
  show V c main_v13 _ = V c main_v13 _
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

theorem iblk0_6_eq (V : EntryVal Ideal) (c : Dev nD) (t : Fin cfg0.N) :
    (iblk0 V c 6 t : Vec Ideal S256x128 .f32) = V c main_v16 := by
  obtain ⟨-, -, -, -, -, -, e0, e1, -⟩ := idx_whole0 t
  funext y
  unfold iblk0
  rw [View.read_apply]
  show V c main_v16 _ = V c main_v16 _
  congr 1
  funext a; apply Fin.ext
  match a with
  | ⟨0, _⟩ => show win0_6.index t (0 : Fin 2) * 256 + 1 * (y 0).val = (y 0).val; rw [e0]; omega
  | ⟨1, _⟩ => show win0_6.index t (1 : Fin 2) * 128 + 1 * (y 1).val = (y 1).val; rw [e1]; omega

theorem iblk0_7_eq (V : EntryVal Ideal) (c : Dev nD) (t : Fin cfg0.N) :
    (iblk0 V c 7 t : Vec Ideal S256x128 .f32) = V c main_v19 := by
  obtain ⟨-, -, -, -, -, -, -, -, e0, e1, -⟩ := idx_whole0 t
  funext y
  unfold iblk0
  rw [View.read_apply]
  show V c main_v19 _ = V c main_v19 _
  congr 1
  funext a; apply Fin.ext
  match a with
  | ⟨0, _⟩ => show win0_7.index t (0 : Fin 2) * 256 + 1 * (y 0).val = (y 0).val; rw [e0]; omega
  | ⟨1, _⟩ => show win0_7.index t (1 : Fin 2) * 128 + 1 * (y 1).val = (y 1).val; rw [e1]; omega

theorem iblk0_8_eq (V : EntryVal Ideal) (c : Dev nD) (t : Fin cfg0.N) :
    (iblk0 V c 8 t : Vec Ideal S1x128 .f32) = V c main_v22 := by
  obtain ⟨-, -, -, -, -, -, -, -, -, -, e0, e1⟩ := idx_whole0 t
  funext y
  unfold iblk0
  rw [View.read_apply]
  show V c main_v22 _ = V c main_v22 _
  congr 1
  funext a; apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- The feature rows of point t's row block. -/
theorem xi0_eq (V : EntryVal Ideal) (c : Dev nD) (t : Fin cfg0.N) :
    xi0 V c t = Cert.Sage.rowsOf (V c main_v7) (rowBlk t) := by
  funext y
  obtain ⟨p, q, rfl⟩ : ∃ (p : Fin 512) (q : Fin 128), y = ix2 p q := ⟨y 0, y 1, eq_ix2 y⟩
  rw [xi0_apply]
  rfl

/-! ## The carried accumulator: column block by column block -/

/-- Column block kb's share of the neighbour sum of row block i at entry (p, q): the 512 columns
    512·kb … 512·kb + 511; nothing past the eighth block. -/
def colShare (A : S4096x4096.Idx → EReal) (M : Vec Ideal S4096x128 .f32) (i : Fin 8) (p : Fin 512) (q : Fin 128) (kb : ℕ) : EReal :=
  if h : kb < 8 then
    ∑ kk : Fin 512, A (ix2 (Cert.Sage.rowIx i p) ⟨512 * kb + kk.val, by omega⟩) * M (ix2 ⟨512 * kb + kk.val, by omega⟩ q)
  else 0

/-- The 512 products of one column block, with the two factors named entry by entry, are that block's share. -/
theorem share_of (A : S4096x4096.Idx → EReal) (M : Vec Ideal S4096x128 .f32) (v6 : Vec Ideal S512x128 .f32)
    (v9 : Vec Ideal S512x512 .bf16) (i : Fin 8) (k : ℕ) (hk : k < 8) (p : Fin 512) (q : Fin 128)
    (h9 : ∀ kk : Fin 512, v9 (ix2 p kk) = A (ix2 (Cert.Sage.rowIx i p) ⟨512 * k + kk.val, by omega⟩))
    (h6 : ∀ kk : Fin 512, v6 (ix2 kk q) = M (ix2 ⟨512 * k + kk.val, by omega⟩ q)) :
    ∑ kk : Fin 512, v9 (ix2 p kk) * v6 (ix2 kk q) = colShare A M i p q k := by
  unfold colShare
  rw [dif_pos hk]
  exact Finset.sum_congr rfl fun kk _ => by rw [h9 kk, h6 kk]

/-- The adjacency tile of the point at column block k of row block i, entry by entry. -/
theorem tile_at (V : EntryVal Ideal) (c : Dev nD) (t : Fin cfg0.N) (i : Fin 8) (k : ℕ) (hk : k < 8)
    (ht : t.val = 8 * i.val + k) (p kk : Fin 512) :
    (iblk0 V c 0 t : Vec Ideal S512x512 .bf16) (ix2 p kk)
      = (V c main_v2 : S4096x4096.Idx → EReal) (ix2 (Cert.Sage.rowIx i p) ⟨512 * k + kk.val, by omega⟩) := by
  rw [iblk0_0_apply]
  have ha : Cert.Sage.rowIx (rowBlk t) p = Cert.Sage.rowIx i p :=
    Fin.ext (by show 512 * (t.val / 8) + p.val = 512 * i.val + p.val; omega)
  have hb : (⟨512 * (t.val % 8) + kk.val, by omega⟩ : Fin 4096) = ⟨512 * k + kk.val, by omega⟩ :=
    Fin.ext (by show 512 * (t.val % 8) + kk.val = 512 * k + kk.val; omega)
  rw [ha, hb]

/-- The feature rows that point multiplies against, entry by entry. -/
theorem rows_at (V : EntryVal Ideal) (c : Dev nD) (t : Fin cfg0.N) (i : Fin 8) (k : ℕ) (hk : k < 8)
    (ht : t.val = 8 * i.val + k) (kk : Fin 512) (q : Fin 128) :
    xk0 V c t (ix2 kk q) = (V c main_v7 : Vec Ideal S4096x128 .f32) (ix2 ⟨512 * k + kk.val, by omega⟩ q) := by
  rw [xk0_apply]
  have hb : (⟨512 * (t.val % 8) + kk.val, by omega⟩ : Fin 4096) = ⟨512 * k + kk.val, by omega⟩ :=
    Fin.ext (by show 512 * (t.val % 8) + kk.val = 512 * k + kk.val; omega)
  rw [hb]

/-- After the point at column block k of row block i the accumulator holds the shares of column blocks 0 … k. -/
theorem acc0_partial (V : EntryVal Ideal) (c : Dev nD) (i : Fin 8) (p : Fin 512) (q : Fin 128) :
    ∀ (k : ℕ) (hk : k < 8) (t : Fin cfg0.N) (ht : t.val = 8 * i.val + k),
      acc0 V c t.val t.isLt (ix2 p q)
        = ∑ kb ∈ Finset.range (k + 1), colShare (V c main_v2) (V c main_v7) i p q kb
  | 0, hk, t, ht => by
    rw [acc0_first V c t (by omega), pay2_apply, pay1_apply, zero_add, Finset.sum_range_one]
    exact share_of _ _ _ _ i 0 hk p q (fun kk => tile_at V c t i 0 hk ht p kk) (fun kk => rows_at V c t i 0 hk ht kk q)
  | k + 1, hk, t, ht => by
    have hN : cfg0.N = 64 := N_0
    have ht' : t.val - 1 < cfg0.N := by have := t.isLt; omega
    have ih := acc0_partial V c i p q k (by omega) ⟨t.val - 1, ht'⟩ (by show t.val - 1 = 8 * i.val + k; omega)
    rw [acc0_next V c t (by omega), pay2_apply, Finset.sum_range_succ]
    exact congrArg₂ (· + ·) ih
      (share_of _ _ _ _ i (k + 1) hk p q (fun kk => tile_at V c t i (k + 1) hk ht p kk) (fun kk => rows_at V c t i (k + 1) hk ht kk q))

/-- The eight shares make up the sum over all 4096 columns. -/
theorem shares_sum (A : S4096x4096.Idx → EReal) (M : Vec Ideal S4096x128 .f32) (i : Fin 8) (p : Fin 512) (q : Fin 128) :
    ∑ kb ∈ Finset.range 8, colShare A M i p q kb
      = ∑ k : Fin 4096, A (ix2 (Cert.Sage.rowIx i p) k) * M (ix2 k q) := by
  rw [Finset.sum_range]
  refine Eq.trans ?_ (Cert.LibBlockSum.sum_blocks (a := 8) (b := 512)
    (fun k : Fin (8 * 512) => A (ix2 (Cert.Sage.rowIx i p) k) * M (ix2 k q))).symm
  refine Finset.sum_congr rfl fun kb _ => ?_
  unfold colShare
  rw [dif_pos kb.isLt]
  rfl

/-- At the last column block of a row block the accumulator is the block's neighbour sum. -/
theorem acc0_last (V : EntryVal Ideal) (c : Dev nD) (t : Fin cfg0.N) (h : t.val % 8 = 7) :
    acc0 V c t.val t.isLt = Cert.Sage.aggOf (V c main_v2) (V c main_v7) (rowBlk t) := by
  funext y
  obtain ⟨p, q, rfl⟩ : ∃ (p : Fin 512) (q : Fin 128), y = ix2 p q := ⟨y 0, y 1, eq_ix2 y⟩
  rw [acc0_partial V c (rowBlk t) p q 7 (by omega) t (by show t.val = 8 * (t.val / 8) + 7; omega), shares_sum]
  rfl

/-! ## From the blocks to the two arrays -/

/-- An entry of a row-block-shaped output block sits in the array at the row of its row block. -/
theorem emb9 (t : Fin cfg0.N) (p : Fin 512) (q : Fin 128) :
    ((cfg0.win 9).blk t).view.emb (ix2 p q) = ix2 (Cert.Sage.rowIx (rowBlk t) p) q := by
  obtain ⟨e0, e1, -, -⟩ := idx_out0 t
  funext a; apply Fin.ext
  match a with
  | ⟨0, _⟩ => show win0_9.index t (0 : Fin 2) * 512 + 1 * p.val = 512 * (t.val / 8) + p.val; rw [e0]; omega
  | ⟨1, _⟩ => show win0_9.index t (1 : Fin 2) * 128 + 1 * q.val = q.val; rw [e1]; omega

theorem emb10 (t : Fin cfg0.N) (p : Fin 512) (q : Fin 128) :
    ((cfg0.win 10).blk t).view.emb (ix2 p q) = ix2 (Cert.Sage.rowIx (rowBlk t) p) q := by
  obtain ⟨-, -, e0, e1⟩ := idx_out0 t
  funext a; apply Fin.ext
  match a with
  | ⟨0, _⟩ => show win0_10.index t (0 : Fin 2) * 512 + 1 * p.val = 512 * (t.val / 8) + p.val; rw [e0]; omega
  | ⟨1, _⟩ => show win0_10.index t (1 : Fin 2) * 128 + 1 * q.val = q.val; rw [e1]; omega

/-- What a point writes back of a full row-block-shaped block is the block, entry by entry. -/
theorem cut9_apply (t : Fin cfg0.N) (X : Vec Ideal S512x128 .f32) (p : Fin 512) (q : Fin 128) :
    (cfg0.win 9).cut (grid0.coords t) X (ix2 p q) = X (ix2 p q) :=
  congrArg X (funext fun a => Fin.ext (by match a with | ⟨0, _⟩ => rfl | ⟨1, _⟩ => rfl))

theorem cut10_apply (t : Fin cfg0.N) (X : Vec Ideal S512x128 .f32) (p : Fin 512) (q : Fin 128) :
    (cfg0.win 10).cut (grid0.coords t) X (ix2 p q) = X (ix2 p q) :=
  congrArg X (funext fun a => Fin.ext (by match a with | ⟨0, _⟩ => rfl | ⟨1, _⟩ => rfl))

/-- An array read through a point's output block, entry by entry. -/
theorem read9_apply (t : Fin cfg0.N) (G : Vec Ideal S4096x128 .f32) (p : Fin 512) (q : Fin 128) :
    ((cfg0.win 9).blk t).view.read (Elt Ideal) G (ix2 p q) = G (ix2 (Cert.Sage.rowIx (rowBlk t) p) q) := by
  rw [View.read_apply, emb9]
  rfl

theorem read10_apply (t : Fin cfg0.N) (G : Vec Ideal S4096x128 .f32) (p : Fin 512) (q : Fin 128) :
    ((cfg0.win 10).blk t).view.read (Elt Ideal) G (ix2 p q) = G (ix2 (Cert.Sage.rowIx (rowBlk t) p) q) := by
  rw [View.read_apply, emb10]
  rfl

/-- What a writing point writes back to the first output is its row block of the narrow left product. -/
theorem flushed9_eq (V : EntryVal Ideal) (c : Dev nD) (t : Fin cfg0.N) (hf : (cfg0.win 9).flush t = true) :
    (dat0 V c).flushed 9 t = ((cfg0.win 9).blk t).view.read (Elt Ideal)
      (Cert.Sage.Z2 (V c main_v2) (V c main_v7) (V c main_v5) (V c main_v9) (V c main_v11) (V c main_v13) (V c main_v16)) := by
  have h7 : t.val % 8 = 7 := (flush0_9 t).mp hf
  show (cfg0.win 9).cut (grid0.coords t) ((dat0 V c).after 9 t) = _
  rw [after0_9_last V c t h7, acc0_last V c t h7, iblk0_2_eq, xi0_eq, iblk0_3_eq, iblk0_4_eq, iblk0_5_eq, iblk0_6_eq]
  funext y
  obtain ⟨p, q, rfl⟩ : ∃ (p : Fin 512) (q : Fin 128), y = ix2 p q := ⟨y 0, y 1, eq_ix2 y⟩
  refine (cut9_apply t _ p q).trans (Eq.trans ?_ (read9_apply t _ p q).symm)
  unfold Cert.Sage.Z2
  rw [Cert.Sage.stack_apply]

theorem flushed10_eq (V : EntryVal Ideal) (c : Dev nD) (t : Fin cfg0.N) (hf : (cfg0.win 10).flush t = true) :
    (dat0 V c).flushed 10 t = ((cfg0.win 10).blk t).view.read (Elt Ideal)
      (Cert.Sage.S2 (V c main_v2) (V c main_v7) (V c main_v5) (V c main_v9) (V c main_v11) (V c main_v13) (V c main_v19) (V c main_v22)) := by
  have h7 : t.val % 8 = 7 := (flush0_10 t).mp hf
  show (cfg0.win 10).cut (grid0.coords t) ((dat0 V c).after 10 t) = _
  rw [after0_10_last V c t h7, acc0_last V c t h7, iblk0_2_eq, xi0_eq, iblk0_3_eq, iblk0_4_eq, iblk0_5_eq, iblk0_7_eq, iblk0_8_eq]
  funext y
  obtain ⟨p, q, rfl⟩ : ∃ (p : Fin 512) (q : Fin 128), y = ix2 p q := ⟨y 0, y 1, eq_ix2 y⟩
  refine (cut10_apply t _ p q).trans (Eq.trans ?_ (read10_apply t _ p q).symm)
  unfold Cert.Sage.S2
  rw [Cert.Sage.stack_apply]

/-- Every entry of the first output is in the block of the last point of its row block. -/
theorem cover9 (i : S4096x128.Idx) :
    ∃ t : Fin cfg0.N, (cfg0.win 9).flush t = true ∧ i ∈ ((cfg0.win 9).blk t).view.set := by
  have hN : cfg0.N = 64 := N_0
  have h0 : (i 0).val < 4096 := idx2_lt0 i
  have h1 : (i 1).val < 128 := idx2_lt1 i
  have hlt : 8 * ((i 0).val / 512) + 7 < cfg0.N := by omega
  have hex : ∃ t : Fin cfg0.N, t.val = 8 * ((i 0).val / 512) + 7 := ⟨⟨_, hlt⟩, rfl⟩
  obtain ⟨t, ht⟩ := hex
  refine ⟨t, (flush0_9 t).mpr (by omega), ?_⟩
  obtain ⟨e0, e1, -, -⟩ := idx_out0 t
  show i ∈ ((View.whole main_v23_0).slice (win0_9.rect t)).set
  rw [View.set_slice_whole, Rect.mem_set_unit]
  intro a
  match a with
  | ⟨0, _⟩ =>
    show win0_9.index t (0 : Fin 2) * 512 ≤ (i 0).val ∧ (i 0).val < win0_9.index t (0 : Fin 2) * 512 + 512
    rw [e0]; omega
  | ⟨1, _⟩ =>
    show win0_9.index t (1 : Fin 2) * 128 ≤ (i 1).val ∧ (i 1).val < win0_9.index t (1 : Fin 2) * 128 + 128
    rw [e1]; omega

theorem cover10 (i : S4096x128.Idx) :
    ∃ t : Fin cfg0.N, (cfg0.win 10).flush t = true ∧ i ∈ ((cfg0.win 10).blk t).view.set := by
  have hN : cfg0.N = 64 := N_0
  have h0 : (i 0).val < 4096 := idx2_lt0 i
  have h1 : (i 1).val < 128 := idx2_lt1 i
  have hlt : 8 * ((i 0).val / 512) + 7 < cfg0.N := by omega
  have hex : ∃ t : Fin cfg0.N, t.val = 8 * ((i 0).val / 512) + 7 := ⟨⟨_, hlt⟩, rfl⟩
  obtain ⟨t, ht⟩ := hex
  refine ⟨t, (flush0_10 t).mpr (by omega), ?_⟩
  obtain ⟨-, -, e0, e1⟩ := idx_out0 t
  show i ∈ ((View.whole main_v23_1).slice (win0_10.rect t)).set
  rw [View.set_slice_whole, Rect.mem_set_unit]
  intro a
  match a with
  | ⟨0, _⟩ =>
    show win0_10.index t (0 : Fin 2) * 512 ≤ (i 0).val ∧ (i 0).val < win0_10.index t (0 : Fin 2) * 512 + 512
    rw [e0]; omega
  | ⟨1, _⟩ =>
    show win0_10.index t (1 : Fin 2) * 128 ≤ (i 1).val ∧ (i 1).val < win0_10.index t (1 : Fin 2) * 128 + 128
    rw [e1]; omega

/-- The region's first output array after the run: the first layer's narrow left product, node by node. -/
theorem ref_Z2 (V : EntryVal Ideal) (c : Dev nD) :
    (dat0 V c).arrAt 9 cfg0.N
      = Cert.Sage.Z2 (V c main_v2) (V c main_v7) (V c main_v5) (V c main_v9) (V c main_v11) (V c main_v13) (V c main_v16) :=
  (dat0 V c).arrAt_eq_of_cover 9 _ (flushed9_eq V c) cover9

/-- The region's second output array after the run: the first layer's narrow right product plus its bias, node by node. -/
theorem ref_S2 (V : EntryVal Ideal) (c : Dev nD) :
    (dat0 V c).arrAt 10 cfg0.N
      = Cert.Sage.S2 (V c main_v2) (V c main_v7) (V c main_v5) (V c main_v9) (V c main_v11) (V c main_v13) (V c main_v19) (V c main_v22) :=
  (dat0 V c).arrAt_eq_of_cover 10 _ (flushed10_eq V c) cover10

end Cert.ReferenceIdeal.Hand

end
-- ==== Proof.RefValue1.lean ====
/- The second-layer region of the reference program, read as values over the extended reals: after the eight column
   blocks of a row block the carried accumulator holds the neighbour sum of the first layer's result over all 4096
   columns, so the array the region leaves is the stack, over the eight row blocks, of the normalised masked
   log-softmax of that sum scaled and shifted. -/
import proofs.«175566_g2000702591456375_pallasbulk_739_2_alg».proof.Proof.RefRegion1
import proofs.«175566_g2000702591456375_pallasbulk_739_2_alg».proof.Proof.Spec
import proofs.«175566_g2000702591456375_pallasbulk_739_2_alg».proof.Proof.LibBlockSum
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Idealize.ShloMosaic Idealize.ShloMosaic.TcCoe
open Idealize.ShloMosaic.Pipeline (Dat Cfg Window)
open Idealize.ShloMosaic.ValueIdx
open Cert.ReferenceIdeal Cert.ReferenceIdeal.Gen

namespace SecondLayer

/-- The block index of each window at a grid point: row block `t / 8`, column block `t % 8`. -/
theorem idx1 : ∀ t : Fin cfg1.N,
    win1_0.index t (0 : Fin 2) = t.val / 8 ∧ win1_0.index t (1 : Fin 2) = t.val % 8
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N, _)

/-- The grid has 64 points. -/
theorem lt_of_pt (t : Fin cfg1.N) : t.val < 64 := lt_of_lt_of_eq t.isLt N_1

/-- Window 0's block at point `t` is the 512×512 tile of the neighbour matrix at row block `t / 8`, column block
    `t % 8`. -/
theorem blk0_apply (V : EntryVal Ideal) (c : Dev nD) (t : Fin cfg1.N) (p kk : Fin 512) :
    (iblk1 V c 0 t : Vec Ideal S512x512 .bf16) (ix2 p kk)
      = (V c main_v2 : Vec Ideal S4096x4096 .bf16)
          (ix2 ⟨512 * (t.val / 8) + p.val, by have := lt_of_pt t; have := p.isLt; omega⟩
               ⟨512 * (t.val % 8) + kk.val, by have := kk.isLt; omega⟩) := by
  obtain ⟨e0, e1, -⟩ := idx1 t
  unfold iblk1
  rw [View.read_apply]
  show V c main_v2 _ = V c main_v2 _
  congr 1
  funext a
  apply Fin.ext
  match a with
  | ⟨0, _⟩ => show win1_0.index t (0 : Fin 2) * 512 + 1 * p.val = 512 * (t.val / 8) + p.val; rw [e0]; omega
  | ⟨1, _⟩ => show win1_0.index t (1 : Fin 2) * 512 + 1 * kk.val = 512 * (t.val % 8) + kk.val; rw [e1]; omega

/-! ## The column-block product at an index -/

/-- The product's left operand is read at (output row, contracted position), its right operand at (contracted
    position, output column): the four coordinates, one by one. -/
theorem lhs_dot_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide),
    dif_pos (show (0 : Fin S512x512.rank) ∈ dot_S512x512_S512x128_S512x128_1_0_0_1_n_n.lhsNonContracting by decide)]
  rfl

theorem lhs_dot_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q

theorem rhs_dot_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q

theorem rhs_dot_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide),
    dif_pos (show (1 : Fin S512x128.rank) ∈ dot_S512x512_S512x128_S512x128_1_0_0_1_n_n.rhsNonContracting by decide)]
  rfl

/-- One accumulation step at an entry: what was carried, plus the row of the 512×512 tile against the column of the
    512 resident rows. -/
theorem pay2_apply (v6 : Vec Ideal S512x128 .f32) (v8 : Vec Ideal S512x128 .f32) (v9 : Vec Ideal S512x512 .bf16)
    (p : Fin 512) (q : Fin 128) :
    k1_pay2 (F := Ideal) v6 v8 v9 (ix2 p q) = v8 (ix2 p q) + ∑ kk : Fin 512, v9 (ix2 p kk) * v6 (ix2 kk q) := by
  unfold k1_pay2
  simp only [shapeCast_self]
  rw [addf_apply]
  refine congrArg (v8 (ix2 p q) + ·) ?_
  simp only [matmul]
  rw [Ideal.matmul_constant_zero_apply,
    ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p q)
      ((contrEquiv1 dot_S512x512_S512x128_S512x128_1_0_0_1_n_n 512 rfl rfl).symm k) = ix2 p k :=
    funext fun a => Fin.ext (by
      match a with
      | ⟨0, _⟩ => exact lhs_dot_0 _ _
      | ⟨1, _⟩ => exact (lhs_dot_1 _ _).trans hk)
  have er : dot_S512x512_S512x128_S512x128_1_0_0_1_n_n.rhsIdx (ix2 p q)
      ((contrEquiv1 dot_S512x512_S512x128_S512x128_1_0_0_1_n_n 512 rfl rfl).symm k) = ix2 k q :=
    funext fun a => Fin.ext (by
      match a with
      | ⟨0, _⟩ => exact (rhs_dot_0 _ _).trans hk
      | ⟨1, _⟩ => exact rhs_dot_1 _ _)
  rw [el, er]
  rfl

/-- The reset value of the carried buffer is the zero array. -/
theorem pay1_apply (p : Fin 512) (q : Fin 128) : k1_pay1 (F := Ideal) (ix2 p q) = 0 := by
  unfold k1_pay1
  simp only [shapeCast_self]
  show Ideal.ofBits .f32 0x00000000#32 = 0
  exact Ideal.ofBits_zero_f32

/-! ## The blocks of the normalisation column and of the first layer's second result -/

/-- Window 2's block at a point of row block `i` is rows `512·i … 512·i + 511` of the column. -/
theorem blk2_eq (V : EntryVal Ideal) (c : Dev nD) (t : Fin cfg1.N) (i : Fin 8) (hi : t.val / 8 = i.val) :
    (iblk1 V c 2 t : Vec Ideal S512x1 .f32) = Cert.Sage.rows1Of (V c main_v5) i := by
  obtain ⟨-, -, e0, e1, -⟩ := idx1 t
  funext y
  unfold iblk1 Cert.Sage.rows1Of
  rw [View.read_apply]
  show V c main_v5 _ = V c main_v5 _
  congr 1
  funext a
  apply Fin.ext
  match a with
  | ⟨0, _⟩ => show win1_2.index t (0 : Fin 2) * 512 + 1 * (y 0).val = 512 * i.val + (y 0).val; rw [e0, hi]; omega
  | ⟨1, _⟩ => show win1_2.index t (1 : Fin 2) * 1 + 1 * (y 1).val = (y 1).val; rw [e1]; omega

/-- Window 3's block at a point of row block `i` is rows `512·i … 512·i + 511` of the first layer's second result. -/
theorem blk3_eq (V : EntryVal Ideal) (c : Dev nD) (t : Fin cfg1.N) (i : Fin 8) (hi : t.val / 8 = i.val) :
    (iblk1 V c 3 t : Vec Ideal S512x128 .f32) = Cert.Sage.rowsOf (V c main_v23_1) i := by
  obtain ⟨-, -, -, -, e0, e1, -⟩ := idx1 t
  funext y
  unfold iblk1 Cert.Sage.rowsOf
  rw [View.read_apply]
  show V c main_v23_1 _ = V c main_v23_1 _
  congr 1
  funext a
  apply Fin.ext
  match a with
  | ⟨0, _⟩ => show win1_3.index t (0 : Fin 2) * 512 + 1 * (y 0).val = 512 * i.val + (y 0).val; rw [e0, hi]; omega
  | ⟨1, _⟩ => show win1_3.index t (1 : Fin 2) * 128 + 1 * (y 1).val = (y 1).val; rw [e1]; omega

/-! ## The carried accumulator -/

/-- Column block `n`'s share of the neighbour sum of row block `i` at entry `(p, q)`: the 512 columns
    `512·n … 512·n + 511`; nothing past the eighth block. -/
def blockTerm (A : S4096x4096.Idx → EReal) (M : Vec Ideal S4096x128 .f32) (i : Fin 8) (p : Fin 512) (q : Fin 128) (n : ℕ) : EReal :=
  if h : n < 8 then
    ∑ kk : Fin 512, A (ix2 (Cert.Sage.rowIx i p) ⟨512 * n + kk.val, by have := kk.isLt; omega⟩)
      * M (ix2 ⟨512 * n + kk.val, by have := kk.isLt; omega⟩ q)
  else 0

/-- One accumulation step at a point of row block `i` and column block `t % 8`, over any carried value, tile and
    resident rows that read the two arrays where the windows say: the carried entry plus that column block's share. -/
theorem step_apply (A : S4096x4096.Idx → EReal) (M : Vec Ideal S4096x128 .f32) (t : Fin cfg1.N) (i : Fin 8) (hi : t.val / 8 = i.val)
    (v6 : Vec Ideal S512x128 .f32) (v8 : Vec Ideal S512x128 .f32) (v9 : Vec Ideal S512x512 .bf16)
    (h6 : ∀ (kk : Fin 512) (q : Fin 128), v6 (ix2 kk q) = M (ix2 ⟨512 * (t.val % 8) + kk.val, by have := kk.isLt; omega⟩ q))
    (h9 : ∀ (p kk : Fin 512), v9 (ix2 p kk)
      = A (ix2 ⟨512 * (t.val / 8) + p.val, by have := lt_of_pt t; have := p.isLt; omega⟩
              ⟨512 * (t.val % 8) + kk.val, by have := kk.isLt; omega⟩))
    (p : Fin 512) (q : Fin 128) :
    k1_pay2 (F := Ideal) v6 v8 v9 (ix2 p q) = v8 (ix2 p q) + blockTerm A M i p q (t.val % 8) := by
  rw [pay2_apply]
  refine congrArg (v8 (ix2 p q) + ·) ?_
  unfold blockTerm
  rw [dif_pos (Nat.mod_lt _ (by decide))]
  refine Finset.sum_congr rfl fun kk _ => ?_
  rw [h6, h9]
  have e : (⟨512 * (t.val / 8) + p.val, by have := lt_of_pt t; have := p.isLt; omega⟩ : Fin 4096) = Cert.Sage.rowIx i p :=
    Fin.ext (by show 512 * (t.val / 8) + p.val = 512 * i.val + p.val; rw [hi])
  rw [e]

/-- After the point of column block `k` the carried buffer holds the shares of column blocks `0 … k`. -/
theorem acc1_apply (V : EntryVal Ideal) (c : Dev nD) (i : Fin 8) :
    ∀ (k : ℕ) (t : Fin cfg1.N), t.val % 8 = k → t.val / 8 = i.val → ∀ (p : Fin 512) (q : Fin 128),
      acc1 V c t.val t.isLt (ix2 p q)
        = ∑ n ∈ Finset.range (k + 1), blockTerm (V c main_v2) (V c main_v23_0) i p q n
  | 0, t, hk, hi, p, q => by
    rw [acc1_first V c t hk]
    refine (step_apply (V c main_v2) (V c main_v23_0) t i hi (zk1 V c t) (k1_pay1 (F := Ideal)) (iblk1 V c 0 t)
      (fun kk q => zk1_apply V c t kk q) (fun p kk => blk0_apply V c t p kk) p q).trans ?_
    rw [pay1_apply, zero_add, hk, Finset.sum_range_one]
  | k + 1, t, hk, hi, p, q => by
    have hne : t.val % 8 ≠ 0 := by omega
    rw [acc1_next V c t hne]
    refine (step_apply (V c main_v2) (V c main_v23_0) t i hi (zk1 V c t)
      (acc1 V c (t.val - 1) (Nat.lt_of_le_of_lt (Nat.sub_le _ _) t.isLt)) (iblk1 V c 0 t)
      (fun kk q => zk1_apply V c t kk q) (fun p kk => blk0_apply V c t p kk) p q).trans ?_
    have ih := acc1_apply V c i k ⟨t.val - 1, Nat.lt_of_le_of_lt (Nat.sub_le _ _) t.isLt⟩
      (by show (t.val - 1) % 8 = k; omega) (by show (t.val - 1) / 8 = i.val; omega) p q
    rw [Finset.sum_range_succ, hk]
    exact congrArg (· + blockTerm (V c main_v2) (V c main_v23_0) i p q (k + 1)) ih

/-- The eight shares add up to the neighbour sum over all 4096 columns: the columns regrouped as eight consecutive
    blocks of 512 (only commutativity and associativity of the sum are used). -/
theorem sum_blockTerm (A : S4096x4096.Idx → EReal) (M : Vec Ideal S4096x128 .f32) (i : Fin 8) (p : Fin 512) (q : Fin 128) :
    ∑ n ∈ Finset.range 8, blockTerm A M i p q n = Cert.Sage.aggOf A M i (ix2 p q) := by
  rw [Finset.sum_range]
  have hs := Cert.LibBlockSum.sum_blocks (M := EReal) (a := 8) (b := 512)
    (fun k : Fin (8 * 512) => A (ix2 (Cert.Sage.rowIx i p) k) * M (ix2 k q))
  refine Eq.trans ?_ hs.symm
  refine Finset.sum_congr rfl fun kb _ => ?_
  unfold blockTerm
  rw [dif_pos kb.isLt]
  rfl

/-- After the last column block the carried buffer holds the neighbour sum over all 4096 columns. -/
theorem acc1_last (V : EntryVal Ideal) (c : Dev nD) (t : Fin cfg1.N) (i : Fin 8) (h7 : t.val % 8 = 7) (hi : t.val / 8 = i.val) :
    acc1 V c t.val t.isLt = Cert.Sage.aggOf (V c main_v2) (V c main_v23_0) i := by
  funext y
  obtain ⟨p, q, rfl⟩ : ∃ (p : Fin 512) (q : Fin 128), y = ix2 p q := ⟨y 0, y 1, eq_ix2 y⟩
  rw [acc1_apply V c i 7 t h7 hi p q]
  exact sum_blockTerm (V c main_v2) (V c main_v23_0) i p q

/-! ## From the blocks to the array -/

/-- What the point of row block `i` and last column block leaves in the output's staging buffer. -/
theorem after1_4_block (V : EntryVal Ideal) (c : Dev nD) (t : Fin cfg1.N) (i : Fin 8) (h7 : t.val % 8 = 7) (hi : t.val / 8 = i.val) :
    (dat1 V c).after 4 t
      = k1_pay3 (F := Ideal) (Cert.Sage.aggOf (V c main_v2) (V c main_v23_0) i) (Cert.Sage.rows1Of (V c main_v5) i)
          (Cert.Sage.rowsOf (V c main_v23_1) i) := by
  rw [after1_4_last V c t h7, acc1_last V c t i h7 hi, blk2_eq V c t i hi, blk3_eq V c t i hi]

/-- What a point of the last column block writes back is its block of the second layer's array. -/
theorem flushed1_4_eq (V : EntryVal Ideal) (c : Dev nD) (t : Fin cfg1.N) (hf : (cfg1.win 4).flush t = true) :
    (dat1 V c).flushed 4 t
      = ((cfg1.win 4).blk t).view.read (Elt Ideal)
          (Cert.Sage.OUT (V c main_v2) (V c main_v5) (V c main_v23_0) (V c main_v23_1)) := by
  have h7 : t.val % 8 = 7 := (flush1_4 t).mp hf
  have hlt := lt_of_pt t
  obtain ⟨-, -, -, -, -, -, e0, e1⟩ := idx1 t
  show (cfg1.win 4).cut (grid1.coords t) ((dat1 V c).after 4 t) = _
  rw [after1_4_block V c t ⟨t.val / 8, by omega⟩ h7 rfl]
  funext y
  rw [View.read_apply]
  have hy : ((cfg1.win 4).blk t).view.emb y
      = ix2 (Cert.Sage.rowIx ⟨t.val / 8, by omega⟩ ⟨(y 0).val, idx2_lt0 y⟩) ⟨(y 1).val, idx2_lt1 y⟩ := by
    funext a
    apply Fin.ext
    match a with
    | ⟨0, _⟩ => show win1_4.index t (0 : Fin 2) * 512 + 1 * (y 0).val = 512 * (t.val / 8) + (y 0).val; rw [e0]; omega
    | ⟨1, _⟩ => show win1_4.index t (1 : Fin 2) * 128 + 1 * (y 1).val = (y 1).val; rw [e1]; omega
  rw [hy]
  unfold Cert.Sage.OUT
  rw [Cert.Sage.stack_apply]
  rfl

/-- Every entry of the output array lies in the block some point of the last column block writes back: row `r` in
    that of point `8·(r / 512) + 7`. -/
theorem cover1_4 (i : S4096x128.Idx) :
    ∃ t : Fin cfg1.N, (cfg1.win 4).flush t = true ∧ i ∈ ((cfg1.win 4).blk t).view.set := by
  have h0 : (i 0).val < 4096 := (i 0).isLt
  have h1 : (i 1).val < 128 := (i 1).isLt
  have hN : cfg1.N = 64 := N_1
  let t : Fin cfg1.N := ⟨8 * ((i 0).val / 512) + 7, by rw [hN]; omega⟩
  have ht : t.val = 8 * ((i 0).val / 512) + 7 := rfl
  obtain ⟨-, -, -, -, -, -, e0, e1⟩ := idx1 t
  refine ⟨t, (flush1_4 t).mpr (by rw [ht]; omega), ?_⟩
  show i ∈ ((View.whole main_v24).slice (win1_4.rect t)).set
  rw [View.set_slice_whole, Rect.mem_set_unit]
  intro a
  match a with
  | ⟨0, _⟩ =>
    show win1_4.index t (0 : Fin 2) * 512 ≤ (i 0).val ∧ (i 0).val < win1_4.index t (0 : Fin 2) * 512 + 512
    rw [e0, ht]; omega
  | ⟨1, _⟩ =>
    show win1_4.index t (1 : Fin 2) * 128 ≤ (i 1).val ∧ (i 1).val < win1_4.index t (1 : Fin 2) * 128 + 128
    rw [e1]; omega

end SecondLayer

/-- The region's output array after the run: the second layer, node by node. -/
theorem ref_OUT (V : EntryVal Ideal) (c : Dev nD) :
    (dat1 V c).arrAt 4 cfg1.N
      = Cert.Sage.OUT (V c main_v2) (V c main_v5) (V c main_v23_0) (V c main_v23_1) :=
  (dat1 V c).arrAt_eq_of_cover 4 (Cert.Sage.OUT (V c main_v2) (V c main_v5) (V c main_v23_0) (V c main_v23_1))
    (fun t hf => SecondLayer.flushed1_4_eq V c t hf) SecondLayer.cover1_4

end Cert.ReferenceIdeal.Hand

end
-- ==== Proof.RefFinal.lean ====
/- The reference program's result buffer over the extended reals. The closing host operation keeps the first 64 columns
   of the second-layer region's array; that array is the second layer of the adjacency, the scale column and the two
   arrays the first-layer region left; those are the first layer's narrow products of the arrays the opening host
   stretch prepared from the nine arguments. Chained, the result buffer is the specification's result of the arguments. -/
import proofs.«175566_g2000702591456375_pallasbulk_739_2_alg».proof.Proof.RefLaunch
import proofs.«175566_g2000702591456375_pallasbulk_739_2_alg».proof.Proof.RefHost
import proofs.«175566_g2000702591456375_pallasbulk_739_2_alg».proof.Proof.RefValue0
import proofs.«175566_g2000702591456375_pallasbulk_739_2_alg».proof.Proof.RefValue1
import proofs.«175566_g2000702591456375_pallasbulk_739_2_alg».proof.Proof.Spec
import Idealize.ShloMosaic.Lib.StableHlo.Run
import Idealize.ShloMosaic.Lib.Pipeline.Value
import Idealize.ShloMosaic.Lib.ValueIdx

set_option maxRecDepth 16384

noncomputable section

open scoped BigOperators

namespace Cert.ReferenceIdeal.Hand

open Idealize.ShloMosaic Idealize.ShloMosaic.TcCoe
open Idealize.ShloMosaic.Pipeline (Dat Cfg Window)
open Idealize.ShloMosaic.ValueIdx
open Cert.ReferenceIdeal Cert.ReferenceIdeal.Gen

variable (m : (ℓ : Loc nD τ sig) → Buf (Elt Ideal) ℓ)

/-! ## Equal arguments give equal layers -/

theorem Z2_congr {A A' : S4096x4096.Idx → EReal} {X X' : Vec Ideal S4096x128 .f32} {D D' : Vec Ideal S4096x1 .f32}
    {W1l W1l' W1r W1r' : Vec Ideal S128x256 .f32} {B1 B1' : Vec Ideal S1x256 .f32} {W2l W2l' : Vec Ideal S256x128 .f32}
    (hA : A = A') (hX : X = X') (hD : D = D') (hl : W1l = W1l') (hr : W1r = W1r') (hb : B1 = B1') (hw : W2l = W2l') :
    Cert.Sage.Z2 A X D W1l W1r B1 W2l = Cert.Sage.Z2 A' X' D' W1l' W1r' B1' W2l' := by
  subst hA hX hD hl hr hb hw; rfl

theorem S2_congr {A A' : S4096x4096.Idx → EReal} {X X' : Vec Ideal S4096x128 .f32} {D D' : Vec Ideal S4096x1 .f32}
    {W1l W1l' W1r W1r' : Vec Ideal S128x256 .f32} {B1 B1' : Vec Ideal S1x256 .f32} {W2r W2r' : Vec Ideal S256x128 .f32}
    {B2 B2' : Vec Ideal S1x128 .f32}
    (hA : A = A') (hX : X = X') (hD : D = D') (hl : W1l = W1l') (hr : W1r = W1r') (hb : B1 = B1') (hw : W2r = W2r') (hc : B2 = B2') :
    Cert.Sage.S2 A X D W1l W1r B1 W2r B2 = Cert.Sage.S2 A' X' D' W1l' W1r' B1' W2r' B2' := by
  subst hA hX hD hl hr hb hw hc; rfl

theorem OUT_congr {A A' : S4096x4096.Idx → EReal} {D D' : Vec Ideal S4096x1 .f32} {Z Z' S S' : Vec Ideal S4096x128 .f32}
    (hA : A = A') (hD : D = D') (hZ : Z = Z') (hS : S = S') :
    Cert.Sage.OUT A D Z S = Cert.Sage.OUT A' D' Z' S' := by
  subst hA hD hZ hS; rfl

/-! ## The closing host operation -/

/-- The closing operation is the slice of the second-layer region's array to its first 64 columns, at offsets zero:
    read at an index it is the array at the same row and column. -/
theorem after2_v25 (V : Valuation τ sig (Elt Ideal)) :
    StableHlo.after hostOps2 V (Proc.devRef .tc main_v25) = Cert.Sage.firstCols (V (Proc.devRef .tc main_v24)) := by
  after_results
  funext j
  refine extractStridedSlice_apply _ _ _ j (ix2 ⟨(j 0).val, idx2_lt0 j⟩ ⟨(j 1).val, by have := idx2_lt1 j; omega⟩) fun a => ?_
  match a with
  | ⟨0, _⟩ => exact (Nat.zero_add _).symm
  | ⟨1, _⟩ => exact (Nat.zero_add _).symm

/-! ## The first-layer region's exit, at the arrays the second-layer region stages

The adjacency and the scale column are input arrays of the first-layer region: they end as they were entered, which is
what the opening host stretch left. The two output arrays are the first layer's narrow products of what the opening
host stretch left in the region's other arrays. -/

theorem B2_v2 (c : Dev nD) : B2 m c (Proc.devRef .tc main_v2) = (m ((c : Thread nD τ).loc main_arg1)) :=
  (B2_arr m c 0).trans (((dat0 (E1 m) c).arrAt_in 0 rfl _).trans ((A_eq0 (E1 m) c 0).trans (B1_v2 m c)))

theorem B2_v5 (c : Dev nD) : B2 m c (Proc.devRef .tc main_v5) = Cert.Sage.Dcol (m ((c : Thread nD τ).loc main_arg2)) :=
  (B2_arr m c 2).trans (((dat0 (E1 m) c).arrAt_in 2 rfl _).trans ((A_eq0 (E1 m) c 2).trans (B1_v5 m c)))

theorem B2_v23_0 (c : Dev nD) :
    B2 m c (Proc.devRef .tc main_v23_0)
      = Cert.Sage.Z2 (m ((c : Thread nD τ).loc main_arg1)) (m ((c : Thread nD τ).loc main_arg0)) (Cert.Sage.Dcol (m ((c : Thread nD τ).loc main_arg2))) (m ((c : Thread nD τ).loc main_arg3)) (m ((c : Thread nD τ).loc main_arg4)) (m ((c : Thread nD τ).loc main_arg5)) (Cert.Sage.padCols (m ((c : Thread nD τ).loc main_arg6))) :=
  ((B2_arr m c 9).trans (ref_Z2 (E1 m) c)).trans
    (Z2_congr (B1_v2 m c) (B1_v7 m c) (B1_v5 m c) (B1_v9 m c) (B1_v11 m c) (B1_v13 m c) (B1_v16 m c))

theorem B2_v23_1 (c : Dev nD) :
    B2 m c (Proc.devRef .tc main_v23_1)
      = Cert.Sage.S2 (m ((c : Thread nD τ).loc main_arg1)) (m ((c : Thread nD τ).loc main_arg0)) (Cert.Sage.Dcol (m ((c : Thread nD τ).loc main_arg2))) (m ((c : Thread nD τ).loc main_arg3)) (m ((c : Thread nD τ).loc main_arg4)) (m ((c : Thread nD τ).loc main_arg5)) (Cert.Sage.padCols (m ((c : Thread nD τ).loc main_arg7))) (Cert.Sage.padRow (m ((c : Thread nD τ).loc main_arg8))) :=
  ((B2_arr m c 10).trans (ref_S2 (E1 m) c)).trans
    (S2_congr (B1_v2 m c) (B1_v7 m c) (B1_v5 m c) (B1_v9 m c) (B1_v11 m c) (B1_v13 m c) (B1_v19 m c) (B1_v22 m c))

/-! ## The second-layer region's exit, at its output array -/

theorem B3_v24 (c : Dev nD) :
    B3 m c (Proc.devRef .tc main_v24)
      = Cert.Sage.OUT (m ((c : Thread nD τ).loc main_arg1)) (Cert.Sage.Dcol (m ((c : Thread nD τ).loc main_arg2)))
          (Cert.Sage.Z2 (m ((c : Thread nD τ).loc main_arg1)) (m ((c : Thread nD τ).loc main_arg0)) (Cert.Sage.Dcol (m ((c : Thread nD τ).loc main_arg2))) (m ((c : Thread nD τ).loc main_arg3)) (m ((c : Thread nD τ).loc main_arg4)) (m ((c : Thread nD τ).loc main_arg5)) (Cert.Sage.padCols (m ((c : Thread nD τ).loc main_arg6))))
          (Cert.Sage.S2 (m ((c : Thread nD τ).loc main_arg1)) (m ((c : Thread nD τ).loc main_arg0)) (Cert.Sage.Dcol (m ((c : Thread nD τ).loc main_arg2))) (m ((c : Thread nD τ).loc main_arg3)) (m ((c : Thread nD τ).loc main_arg4)) (m ((c : Thread nD τ).loc main_arg5)) (Cert.Sage.padCols (m ((c : Thread nD τ).loc main_arg7))) (Cert.Sage.padRow (m ((c : Thread nD τ).loc main_arg8)))) :=
  ((B3_arr m c 4).trans (ref_OUT (E2 m) c)).trans
    (OUT_congr (B2_v2 m c) (B2_v5 m c) (B2_v23_0 m c) (B2_v23_1 m c))

/-! ## The result -/

/-- The result buffer at the last boundary of @main is the specification's result of the launch memory's arguments. -/
theorem ref_result (c : Dev nD) :
    B4 m c (Proc.devRef .tc main_v25)
      = Cert.Sage.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  unfold Cert.Sage.result
  exact (after2_v25 (B3 m c)).trans (congrArg Cert.Sage.firstCols (B3_v24 m c))

end Cert.ReferenceIdeal.Hand

end
-- ==== Proof.lean ====
/- Two-layer GraphSAGE inference, kernel against reference, over the extended reals.

   Both programs split the 4096 nodes into eight row blocks of 512 and compute, per block, the neighbour sum
   `∑ k, A (r, k) · M (k, q)` over all 4096 columns `k`, then the layer's epilogue. The kernel takes the sum in one
   product per row block; the reference adds eight partial products of 512 columns each into a buffer it carries
   from one column block to the next. The two sums agree by regrouping a finite sum, which uses only that addition on
   the extended reals is commutative and associative: no finiteness of the inputs is needed, and the precondition is
   never opened. Everything after the sum is the same chain of operations on both sides (scale by 1/deg, the dense
   products and bias, normalisation by `rsqrt (max (∑ h², 1e-24))`, rectification, the narrow products; then for the
   second layer the masked log-softmax), the changes of float format being the identity on the extended reals, and
   both programs pad the narrow weights with zeros. So both result buffers are one function of the nine arguments,
   `Cert.Sage.result`.

   The kernel program's two frames are the generated ones. The reference program has no generated frame: its run is
   proved from the regions' proof data, which carry the accumulator's contents from point to point. -/
import proofs.«175566_g2000702591456375_pallasbulk_739_2_alg».proof.Defs
import proofs.«175566_g2000702591456375_pallasbulk_739_2_alg».proof.Proof.Gen.Kernel
import proofs.«175566_g2000702591456375_pallasbulk_739_2_alg».proof.Proof.Gen.Kernel.Frame
import proofs.«175566_g2000702591456375_pallasbulk_739_2_alg».proof.Proof.Gen.KernelIdeal
import proofs.«175566_g2000702591456375_pallasbulk_739_2_alg».proof.Proof.Gen.KernelIdeal.Frame
import proofs.«175566_g2000702591456375_pallasbulk_739_2_alg».proof.Proof.Gen.ReferenceIdeal
import proofs.«175566_g2000702591456375_pallasbulk_739_2_alg».proof.Proof.Gen.Pre_finite_inputs
import proofs.«175566_g2000702591456375_pallasbulk_739_2_alg».proof.Proof.KerRun
import proofs.«175566_g2000702591456375_pallasbulk_739_2_alg».proof.Proof.KerValue
import proofs.«175566_g2000702591456375_pallasbulk_739_2_alg».proof.Proof.RefLaunch
import proofs.«175566_g2000702591456375_pallasbulk_739_2_alg».proof.Proof.RefFinal
import Idealize.ShloMosaic.Adequacy
import Idealize.ShloMosaic.Init

noncomputable section

namespace Cert.Proof

open Idealize.ShloMosaic Idealize.ShloMosaic.TcCoe Idealize.SL.Sem

/-! ## The three frames -/

theorem frame_k : Cert.frame_Kernel := fun m ρ _ => Cert.Kernel.Gen.frame m ρ

theorem frame_ki : Cert.frame_KernelIdeal := fun m ρ _ => Cert.KernelIdeal.Gen.frame m ρ

/-- The reference's run leaves every unscoped buffer at the last boundary's contents, and no host operation or region
    writes an argument. -/
theorem frame_ri : Cert.frame_ReferenceIdeal := fun m ρ _ =>
  (θ_run Cert.ReferenceIdeal.defs _ _).mono
    (fun _ h c =>
      ⟨(h c _ (Cert.ReferenceIdeal.Hand.mem_uc Cert.ReferenceIdeal.main_arg0 (by decide))).trans (Cert.ReferenceIdeal.Hand.B4_main_arg0 m c),
       (h c _ (Cert.ReferenceIdeal.Hand.mem_uc Cert.ReferenceIdeal.main_arg1 (by decide))).trans (Cert.ReferenceIdeal.Hand.B4_main_arg1 m c),
       (h c _ (Cert.ReferenceIdeal.Hand.mem_uc Cert.ReferenceIdeal.main_arg2 (by decide))).trans (Cert.ReferenceIdeal.Hand.B4_main_arg2 m c),
       (h c _ (Cert.ReferenceIdeal.Hand.mem_uc Cert.ReferenceIdeal.main_arg3 (by decide))).trans (Cert.ReferenceIdeal.Hand.B4_main_arg3 m c),
       (h c _ (Cert.ReferenceIdeal.Hand.mem_uc Cert.ReferenceIdeal.main_arg4 (by decide))).trans (Cert.ReferenceIdeal.Hand.B4_main_arg4 m c),
       (h c _ (Cert.ReferenceIdeal.Hand.mem_uc Cert.ReferenceIdeal.main_arg5 (by decide))).trans (Cert.ReferenceIdeal.Hand.B4_main_arg5 m c),
       (h c _ (Cert.ReferenceIdeal.Hand.mem_uc Cert.ReferenceIdeal.main_arg6 (by decide))).trans (Cert.ReferenceIdeal.Hand.B4_main_arg6 m c),
       (h c _ (Cert.ReferenceIdeal.Hand.mem_uc Cert.ReferenceIdeal.main_arg7 (by decide))).trans (Cert.ReferenceIdeal.Hand.B4_main_arg7 m c),
       (h c _ (Cert.ReferenceIdeal.Hand.mem_uc Cert.ReferenceIdeal.main_arg8 (by decide))).trans (Cert.ReferenceIdeal.Hand.B4_main_arg8 m c)⟩)
    (Cert.ReferenceIdeal.Hand.run_all (F := Ideal) m ρ)

/-! ## The idealization rewrote nothing -/

theorem preserves : Cert.preserves_Kernel_KernelIdeal := trivial

/-! ## Equal results -/

/-- Both result buffers are `Cert.Sage.result` of the arguments, and the two memories agree on the arguments. -/
theorem algebraic : Cert.algebraic_KernelIdeal_ReferenceIdeal := by
  intro m ρ m' ρ' _ hagree
  refine ⟨fun c => Cert.Sage.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun _ h c => ?_) (Cert.KernelIdeal.GenP.run_all (F := Ideal) m ρ)
    exact ⟨(h c _ (Cert.KernelIdeal.Gen.mem_uc Cert.KernelIdeal.main_v7 (by decide))).trans (Cert.KernelIdeal.Hand.ker_result m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c)⟩
  · refine (θ_run Cert.ReferenceIdeal.defs _ _).mono (fun _ h c => ?_) (Cert.ReferenceIdeal.Hand.run_all (F := Ideal) m' ρ')
    refine ⟨?_,
      (h c _ (Cert.ReferenceIdeal.Hand.mem_uc Cert.ReferenceIdeal.main_arg0 (by decide))).trans (Cert.ReferenceIdeal.Hand.B4_main_arg0 m' c),
      (h c _ (Cert.ReferenceIdeal.Hand.mem_uc Cert.ReferenceIdeal.main_arg1 (by decide))).trans (Cert.ReferenceIdeal.Hand.B4_main_arg1 m' c),
      (h c _ (Cert.ReferenceIdeal.Hand.mem_uc Cert.ReferenceIdeal.main_arg2 (by decide))).trans (Cert.ReferenceIdeal.Hand.B4_main_arg2 m' c),
      (h c _ (Cert.ReferenceIdeal.Hand.mem_uc Cert.ReferenceIdeal.main_arg3 (by decide))).trans (Cert.ReferenceIdeal.Hand.B4_main_arg3 m' c),
      (h c _ (Cert.ReferenceIdeal.Hand.mem_uc Cert.ReferenceIdeal.main_arg4 (by decide))).trans (Cert.ReferenceIdeal.Hand.B4_main_arg4 m' c),
      (h c _ (Cert.ReferenceIdeal.Hand.mem_uc Cert.ReferenceIdeal.main_arg5 (by decide))).trans (Cert.ReferenceIdeal.Hand.B4_main_arg5 m' c),
      (h c _ (Cert.ReferenceIdeal.Hand.mem_uc Cert.ReferenceIdeal.main_arg6 (by decide))).trans (Cert.ReferenceIdeal.Hand.B4_main_arg6 m' c),
      (h c _ (Cert.ReferenceIdeal.Hand.mem_uc Cert.ReferenceIdeal.main_arg7 (by decide))).trans (Cert.ReferenceIdeal.Hand.B4_main_arg7 m' c),
      (h c _ (Cert.ReferenceIdeal.Hand.mem_uc Cert.ReferenceIdeal.main_arg8 (by decide))).trans (Cert.ReferenceIdeal.Hand.B4_main_arg8 m' c)⟩
    rw [h c _ (Cert.ReferenceIdeal.Hand.mem_uc Cert.ReferenceIdeal.main_v25 (by decide)), Cert.ReferenceIdeal.Hand.ref_result m' c,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

/-! ## The certificate -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
